-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x300000 : Shape := ⟨2, ![2, 300000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x300000 : S_.BroadcastsInDim S2x300000 (![] : Fin 0 → Fin S2x300000.rank)
  reducesTo_S2x300000_S_d0_1 : S2x300000.ReducesTo [0, 1] S_

variable [Facts]

def fn_part4 {F : FTy → Type} [FloatOps F] (main_arg2 : IVec S2x300000 32) (main_arg3 : IVec S2x300000 32) (main_v63 : IVec S_ 1) (main_v67 : IVec S_ 1) : IVec S_ 1 :=
  let main_v68 : IVec S_ 1 := andi main_v63 main_v67
  let main_c_26 : IVec S_ 32 := constantI S_ 32 4294867296#32
  let main_v69 : IVec S2x300000 32 := broadcastInDim S2x300000 ![] bcast_S_S2x300000 main_c_26
  let main_v70 : IVec S2x300000 1 := cmpi .sge main_arg2 main_v69
  let main_c_27 : IVec S_ 32 := constantI S_ 32 100000#32
  let main_v71 : IVec S2x300000 32 := broadcastInDim S2x300000 ![] bcast_S_S2x300000 main_c_27
  let main_v72 : IVec S2x300000 1 := cmpi .slt main_arg2 main_v71
  let main_v73 : IVec S2x300000 1 := andi main_v70 main_v72
  let main_c_28 : IVec S_ 1 := constantI S_ 1 1#1
  let main_v74 : IVec S_ 1 := (fun x v => Host.reduce IntOp.andi x v reducesTo_S2x300000_S_d0_1 h_S_) main_v73 main_c_28
  let main_v75 : IVec S_ 1 := andi main_v68 main_v74
  let main_c_29 : IVec S_ 32 := constantI S_ 32 4294867296#32
  let main_v76 : IVec S2x300000 32 := broadcastInDim S2x300000 ![] bcast_S_S2x300000 main_c_29
  let main_v77 : IVec S2x300000 1 := cmpi .sge main_arg3 main_v76
  let main_c_30 : IVec S_ 32 := constantI S_ 32 100000#32
  let main_v78 : IVec S2x300000 32 := broadcastInDim S2x300000 ![] bcast_S_S2x300000 main_c_30
  let main_v79 : IVec S2x300000 1 := cmpi .slt main_arg3 main_v78
  let main_v80 : IVec S2x300000 1 := andi main_v77 main_v79
  let main_c_31 : IVec S_ 1 := constantI S_ 1 1#1
  let main_v81 : IVec S_ 1 := (fun x v => Host.reduce IntOp.andi x v reducesTo_S2x300000_S_d0_1 h_S_) main_v80 main_c_31
  let main_v82 : IVec S_ 1 := andi main_v75 main_v81
  main_v82

def fn_part3 {F : FTy → Type} [FloatOps F] (main_arg2 : IVec S2x300000 32) (main_arg3 : IVec S2x300000 32) (main_arg13 : FVec F S128 .f32) (main_arg14 : FVec F S128x1 .f32) (main_arg15 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x1 .f32 := Host.absf main_arg14
  let main_cst_22 : FVec F S_ .f32 := constant S_ .f32 0x7F800000#32
  let main_v60 : FVec F S128x1 .f32 := broadcastInDim S128x1 ![] bcast_S_S128x1 main_cst_22
  let main_v61 : IVec S128x1 1 := cmpf .olt main_v59 main_v60
  let main_c_23 : IVec S_ 1 := constantI S_ 1 1#1
  let main_v62 : IVec S_ 1 := (fun x v => Host.reduce IntOp.andi x v reducesTo_S128x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg2 main_arg3 main_v63 main_v67

def fn_part2 {F : FTy → Type} [FloatOps F] (main_arg2 : IVec S2x300000 32) (main_arg3 : IVec S2x300000 32) (main_arg9 : FVec F S1 .f32) (main_arg10 : FVec F S256x128 .f32) (main_arg11 : FVec F S128 .f32) (main_arg12 : FVec F S128x128 .f32) (main_arg13 : FVec F S128 .f32) (main_arg14 : FVec F S128x1 .f32) (main_arg15 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x128 .f32 := Host.absf main_arg10
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg2 main_arg3 main_arg13 main_arg14 main_arg15 main_v48 main_v49 main_v50

def fn_part1 {F : FTy → Type} [FloatOps F] (main_arg2 : IVec S2x300000 32) (main_arg3 : IVec S2x300000 32) (main_arg6 : FVec F S128x128 .f32) (main_arg7 : FVec F S128 .f32) (main_arg8 : FVec F S128x1 .f32) (main_arg9 : FVec F S1 .f32) (main_arg10 : FVec F S256x128 .f32) (main_arg11 : FVec F S128 .f32) (main_arg12 : FVec F S128x128 .f32) (main_arg13 : FVec F S128 .f32) (main_arg14 : FVec F S128x1 .f32) (main_arg15 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg2 main_arg3 main_arg9 main_arg10 main_arg11 main_arg12 main_arg13 main_arg14 main_arg15 main_v33

def fn {F : FTy → Type} [FloatOps F] (main_arg0 : FVec F S100000x128 .f32) (main_arg1 : FVec F S100000x128 .f32) (main_arg2 : IVec S2x300000 32) (main_arg3 : IVec S2x300000 32) (main_arg4 : FVec F S256x128 .f32) (main_arg5 : FVec F S128 .f32) (main_arg6 : FVec F S128x128 .f32) (main_arg7 : FVec F S128 .f32) (main_arg8 : FVec F S128x1 .f32) (main_arg9 : FVec F S1 .f32) (main_arg10 : FVec F S256x128 .f32) (main_arg11 : FVec F S128 .f32) (main_arg12 : FVec F S128x128 .f32) (main_arg13 : FVec F S128 .f32) (main_arg14 : FVec F S128x1 .f32) (main_arg15 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg6 main_arg7 main_arg8 main_arg9 main_arg10 main_arg11 main_arg12 main_arg13 main_arg14 main_arg15 main_v13 main_v16
-- ==== Kernel.lean ====
abbrev S100000x128 : Shape := ⟨2, ![100000, 128]⟩
abbrev S2x300000 : Shape := ⟨2, ![2, 300000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S1x1 : Shape := ⟨2, ![1, 1]⟩
abbrev S300000x128 : Shape := ⟨2, ![300000, 128]⟩
abbrev S300800x128 : Shape := ⟨2, ![300800, 128]⟩
abbrev S1x300800 : Shape := ⟨2, ![1, 300800]⟩
abbrev S6400x128 : Shape := ⟨2, ![6400, 128]⟩
abbrev S1x6400 : Shape := ⟨2, ![1, 6400]⟩
abbrev S1x128 : Shape := ⟨2, ![1, 128]⟩
abbrev S6400x1 : Shape := ⟨2, ![6400, 1]⟩

abbrev nBuf : Space → Nat
  | .hbm => 145
  | .vmem => 26
  | .smem => 0
  | _ => 0

abbrev hbmTy0_0 (i : Nat) : BufTy := match i % 128 with
  | 0 => ⟨S100000x128, .f32⟩
  | 1 => ⟨S100000x128, .f32⟩
  | 2 => ⟨S2x300000, .i32⟩
  | 3 => ⟨S2x300000, .i32⟩
  | 4 => ⟨S256x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S256x128, .f32⟩
  | 11 => ⟨S128, .f32⟩
  | 12 => ⟨S128x128, .f32⟩
  | 13 => ⟨S128, .f32⟩
  | 14 => ⟨S128x1, .f32⟩
  | 15 => ⟨S1, .f32⟩
  | 16 => ⟨S1x300000, .i32⟩
  | 17 => ⟨S300000, .i32⟩
  | 18 => ⟨S_, .i32⟩
  | 19 => ⟨S300000, .i32⟩
  | 20 => ⟨S300000, .i1⟩
  | 21 => ⟨S_, .i32⟩
  | 22 => ⟨S300000, .i32⟩
  | 23 => ⟨S300000, .i32⟩
  | 24 => ⟨S300000, .i32⟩
  | 25 => ⟨S300000x1, .i32⟩
  | 26 => ⟨S1, .i32⟩
  | 27 => ⟨S_, .i32⟩
  | 28 => ⟨S300000x1, .i32⟩
  | 29 => ⟨S300000x1, .i1⟩
  | 30 => ⟨S1x1, .i32⟩
  | 31 => ⟨S300000x1, .i32⟩
  | 32 => ⟨S300000x1, .i1⟩
  | 33 => ⟨S300000x1, .i1⟩
  | 34 => ⟨S_, .i1⟩
  | 35 => ⟨S300000, .i1⟩
  | 36 => ⟨S300000x128, .f32⟩
  | 37 => ⟨S300000x128, .i1⟩
  | 38 => ⟨S_, .f32⟩
  | 39 => ⟨S300000x128, .f32⟩
  | 40 => ⟨S300000x128, .f32⟩
  | 41 => ⟨S300000x128, .bf16⟩
  | 42 => ⟨S1x300000, .i32⟩
  | 43 => ⟨S300000, .i32⟩
  | 44 => ⟨S_, .i32⟩
  | 45 => ⟨S300000, .i32⟩
  | 46 => ⟨S300000, .i1⟩
  | 47 => ⟨S_, .i32⟩
  | 48 => ⟨S300000, .i32⟩
  | 49 => ⟨S300000, .i32⟩
  | 50 => ⟨S300000, .i32⟩
  | 51 => ⟨S300000x1, .i32⟩
  | 52 => ⟨S1, .i32⟩
  | 53 => ⟨S_, .i32⟩
  | 54 => ⟨S300000x1, .i32⟩
  | 55 => ⟨S300000x1, .i1⟩
  | 56 => ⟨S1x1, .i32⟩
  | 57 => ⟨S300000x1, .i32⟩
  | 58 => ⟨S300000x1, .i1⟩
  | 59 => ⟨S300000x1, .i1⟩
  | 60 => ⟨S_, .i1⟩
  | 61 => ⟨S300000, .i1⟩
  | 62 => ⟨S300000x128, .f32⟩
  | 63 => ⟨S300000x128, .i1⟩
  | 64 => ⟨S_, .f32⟩
  | 65 => ⟨S300000x128, .f32⟩
  | 66 => ⟨S300000x128, .f32⟩
  | 67 => ⟨S300000x128, .bf16⟩
  | 68 => ⟨S1x300000, .i32⟩
  | 69 => ⟨S300000, .i32⟩
  | 70 => ⟨S_, .i32⟩
  | 71 => ⟨S300000, .i32⟩
  | 72 => ⟨S300000, .i1⟩
  | 73 => ⟨S_, .i32⟩
  | 74 => ⟨S300000, .i32⟩
  | 75 => ⟨S300000, .i32⟩
  | 76 => ⟨S300000, .i32⟩
  | 77 => ⟨S300000x1, .i32⟩
  | 78 => ⟨S1, .i32⟩
  | 79 => ⟨S_, .i32⟩
  | 80 => ⟨S300000x1, .i32⟩
  | 81 => ⟨S300000x1, .i1⟩
  | 82 => ⟨S1x1, .i32⟩
  | 83 => ⟨S300000x1, .i32⟩
  | 84 => ⟨S300000x1, .i1⟩
  | 85 => ⟨S300000x1, .i1⟩
  | 86 => ⟨S_, .i1⟩
  | 87 => ⟨S300000, .i1⟩
  | 88 => ⟨S300000x128, .f32⟩
  | 89 => ⟨S300000x128, .i1⟩
  | 90 => ⟨S_, .f32⟩
  | 91 => ⟨S300000x128, .f32⟩
  | 92 => ⟨S300000x128, .f32⟩
  | 93 => ⟨S300000x128, .bf16⟩
  | 94 => ⟨S1x300000, .i32⟩
  | 95 => ⟨S300000, .i32⟩
  | 96 => ⟨S_, .i32⟩
  | 97 => ⟨S300000, .i32⟩
  | 98 => ⟨S300000, .i1⟩
  | 99 => ⟨S_, .i32⟩
  | 100 => ⟨S300000, .i32⟩
  | 101 => ⟨S300000, .i32⟩
  | 102 => ⟨S300000, .i32⟩
  | 103 => ⟨S300000x1, .i32⟩
  | 104 => ⟨S1, .i32⟩
  | 105 => ⟨S_, .i32⟩
  | 106 => ⟨S300000x1, .i32⟩
  | 107 => ⟨S300000x1, .i1⟩
  | 108 => ⟨S1x1, .i32⟩
  | 109 => ⟨S300000x1, .i32⟩
  | 110 => ⟨S300000x1, .i1⟩
  | 111 => ⟨S300000x1, .i1⟩
  | 112 => ⟨S_, .i1⟩
  | 113 => ⟨S300000, .i1⟩
  | 114 => ⟨S300000x128, .f32⟩
  | 115 => ⟨S300000x128, .i1⟩
  | 116 => ⟨S_, .f32⟩
  | 117 => ⟨S300000x128, .f32⟩
  | 118 => ⟨S300000x128, .f32⟩
  | 119 => ⟨S300000x128, .bf16⟩
  | 120 => ⟨S_, .i32⟩
  | 121 => ⟨S_, .bf16⟩
  | 122 => ⟨S300800x128, .bf16⟩
  | 123 => ⟨S_, .i32⟩
  | 124 => ⟨S_, .bf16⟩
  | 125 => ⟨S300800x128, .bf16⟩
  | 126 => ⟨S128x128, .f32⟩
  | 127 => ⟨S128x128, .f32⟩
  | _ => ⟨S100000x128, .f32⟩

abbrev hbmTy0_1 (i : Nat) : BufTy := match i % 128 with
  | 0 => ⟨S1x300800, .f32⟩
  | 1 => ⟨S1x300000, .f32⟩
  | 2 => ⟨S300000, .f32⟩
  | 3 => ⟨S_, .i32⟩
  | 4 => ⟨S_, .bf16⟩
  | 5 => ⟨S300800x128, .bf16⟩
  | 6 => ⟨S_, .i32⟩
  | 7 => ⟨S_, .bf16⟩
  | 8 => ⟨S300800x128, .bf16⟩
  | 9 => ⟨S128x128, .f32⟩
  | 10 => ⟨S128x128, .f32⟩
  | 11 => ⟨S1x300800, .f32⟩
  | 12 => ⟨S1x300000, .f32⟩
  | 13 => ⟨S300000, .f32⟩
  | 14 => ⟨S1x300000, .f32⟩
  | 15 => ⟨S1x300000, .f32⟩
  | 16 => ⟨S2x300000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S6400x128, .bf16⟩
  | .local _ .vmem, ⟨1, _⟩ => ⟨S6400x128, .bf16⟩
  | .local _ .vmem, ⟨2, _⟩ => ⟨S6400x128, .bf16⟩
  | .local _ .vmem, ⟨3, _⟩ => ⟨S6400x128, .bf16⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S128x1, .f32⟩
  | .local _ .vmem, ⟨10, _⟩ => ⟨S1, .f32⟩
  | .local _ .vmem, ⟨11, _⟩ => ⟨S1x6400, .f32⟩
  | .local _ .vmem, ⟨12, _⟩ => ⟨S1x6400, .f32⟩
  | .local _ .vmem, ⟨13, _⟩ => ⟨S6400x128, .bf16⟩
  | .local _ .vmem, ⟨14, _⟩ => ⟨S6400x128, .bf16⟩
  | .local _ .vmem, ⟨15, _⟩ => ⟨S6400x128, .bf16⟩
  | .local _ .vmem, ⟨16, _⟩ => ⟨S6400x128, .bf16⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S128x128, .f32⟩
  | .local _ .vmem, ⟨21, _⟩ => ⟨S128, .f32⟩
  | .local _ .vmem, ⟨22, _⟩ => ⟨S128x1, .f32⟩
  | .local _ .vmem, ⟨23, _⟩ => ⟨S1, .f32⟩
  | .local _ .vmem, ⟨24, _⟩ => ⟨S1x6400, .f32⟩
  | .local _ .vmem, ⟨25, _⟩ => ⟨S1x6400, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_v5 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v10 : Ref sig .tc := ⟨.hbm, 92, rfl⟩
abbrev main_v11 : Ref sig .tc := ⟨.hbm, 93, rfl⟩
abbrev main_v12 : Ref sig .tc := ⟨.hbm, 94, rfl⟩
abbrev main_v13 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v14 : Ref sig .tc := ⟨.hbm, 118, rfl⟩
abbrev main_v15 : Ref sig .tc := ⟨.hbm, 119, rfl⟩
abbrev main_c : Ref sig .tc := ⟨.hbm, 120, rfl⟩
abbrev main_call4_v0 : Ref sig .tc := ⟨.hbm, 121, rfl⟩
abbrev main_v16 : Ref sig .tc := ⟨.hbm, 122, rfl⟩
abbrev main_c_0 : Ref sig .tc := ⟨.hbm, 123, rfl⟩
abbrev main_call5_v0 : Ref sig .tc := ⟨.hbm, 124, rfl⟩
abbrev main_v17 : Ref sig .tc := ⟨.hbm, 125, rfl⟩
abbrev main_v18 : Ref sig .tc := ⟨.hbm, 126, rfl⟩
abbrev main_v19 : Ref sig .tc := ⟨.hbm, 127, rfl⟩
abbrev main_v20 : Ref sig .tc := ⟨.hbm, 128, rfl⟩
abbrev main_v21 : Ref sig .tc := ⟨.hbm, 129, rfl⟩
abbrev main_v22 : Ref sig .tc := ⟨.hbm, 130, rfl⟩
abbrev main_c_1 : Ref sig .tc := ⟨.hbm, 131, rfl⟩
abbrev main_call6_v0 : Ref sig .tc := ⟨.hbm, 132, rfl⟩
abbrev main_v23 : Ref sig .tc := ⟨.hbm, 133, rfl⟩
abbrev main_c_2 : Ref sig .tc := ⟨.hbm, 134, rfl⟩
abbrev main_call7_v0 : Ref sig .tc := ⟨.hbm, 135, rfl⟩
abbrev main_v24 : Ref sig .tc := ⟨.hbm, 136, rfl⟩
abbrev main_v25 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_v32 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![47], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6400x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x6400 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![47], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S6400x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x6400 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  reducesTo_S300000x1_S300000_d1 : S300000x1.ReducesTo [1] S300000
  h_S_ : 0 < S_.numel
  bcast_S300000_S300000x128_0 : S300000.BroadcastsInDim S300000x128 (![0] : Fin 1 → Fin S300000x128.rank)
  bcast_S_S300000x128 : S_.BroadcastsInDim S300000x128 (![] : Fin 0 → Fin S300000x128.rank)
  bitsLt_bf16_f32 : FTy.bits .bf16 < FTy.bits .f32
  slices_S2x300000_S1x300000_1_0 : S2x300000.Slices ![1, 0] S1x300000
  pads_S300000x128_S300800x128_08000_000 : S300000x128.Pads (![0, 0] : Fin 2 → Nat) ![800, 0] ![0, 0] S300800x128
  slices_S256x128_S128x128_0_0 : S256x128.Slices ![0, 0] S128x128
  slices_S256x128_S128x128_128_0 : S256x128.Slices ![128, 0] S128x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S6400x1 : S1x1.Broadcasts S6400x1
  transposes_S6400x1_p1_0_S1x6400 : S6400x1.Transposes [1, 0] S1x6400
  inb_S1x6400_S1x6400_0_0 : ∀ a, (![0, 0] : Fin 2 → Nat) a + S1x6400.size a ≤ S1x6400.size a
  h_S1x6400 : 0 < S1x6400.numel
  slices_S1x300800_S1x300000_0_0 : S1x300800.Slices ![0, 0] S1x300000
  bcast_S300000_S1x300000_1 : S300000.BroadcastsInDim S1x300000 (![1] : Fin 1 → Fin S1x300000.rank)
  concatenates_S1x300000_S1x300000_S2x300000_d0 : Shape.Concatenates [S1x300000, S1x300000] S2x300000 0
  gather_S100000x128_S300000x1_S300000x128_1_0_n_n_0_1_1128_wf : GatherDims.WF S100000x128 S300000x1 S300000x128 [1] [0] [] [0] [] 1 ![1, 128]
  dot_S6400x128_S128x128_S6400x128_1_0_0_1_n_n_wf : DotDims.WF S6400x128 S128x128 S6400x128 [1] [0] [0] [1] [] []
  dot_S6400x128_S128x1_S6400x1_1_0_0_1_n_n_wf : DotDims.WF S6400x128 S128x1 S6400x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S300800x128.size a
  hwx0_0 : ∀ i : grid0.Coords, EltTy.bits .bf16 = 32 ∨ (Rect.block (s := S300800x128) S6400x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S300800x128.size a
  hwx0_1 : ∀ i : grid0.Coords, EltTy.bits .bf16 = 32 ∨ (Rect.block (s := S300800x128) S6400x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1.size a ≤ S1.size a
  hwx0_8 : ∀ i : grid0.Coords, EltTy.bits .f32 = 32 ∨ (Rect.block (s := S1) S1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x6400.size a ≤ S1x300800.size a
  hwx0_9 : ∀ i : grid0.Coords, EltTy.bits .f32 = 32 ∨ (Rect.block (s := S1x300800) S1x6400.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x128.size a ≤ S300800x128.size a
  hwx1_0 : ∀ i : grid1.Coords, EltTy.bits .bf16 = 32 ∨ (Rect.block (s := S300800x128) S6400x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x128.size a ≤ S300800x128.size a
  hwx1_1 : ∀ i : grid1.Coords, EltTy.bits .bf16 = 32 ∨ (Rect.block (s := S300800x128) S6400x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x1.size a ≤ S128x1.size a
  hwx1_7 : ∀ i : grid1.Coords, EltTy.bits .f32 = 32 ∨ (Rect.block (s := S128x1) S128x1.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1.size a ≤ S1.size a
  hwx1_8 : ∀ i : grid1.Coords, EltTy.bits .f32 = 32 ∨ (Rect.block (s := S1) S1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x6400.size a ≤ S1x300800.size a
  hwx1_9 : ∀ i : grid1.Coords, EltTy.bits .f32 = 32 ∨ (Rect.block (s := S1x300800) S1x6400.size (cc1_transform_9 i) (hinb1_9 i)).WholeWords (EltTy.packing .f32)

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x1_S6400x1_1_0_0_1_n_n : DotDims S6400x128 S128x1 S6400x1 where
  lhsContracting := [1]
  rhsContracting := [0]
  lhsNonContracting := [0]
  rhsNonContracting := [1]
  lhsBatch := []
  rhsBatch := []
  wf := dot_S6400x128_S128x1_S6400x1_1_0_0_1_n_n_wf

abbrev win0_0 : Pipeline.Window sig grid0 :=
  Pipeline.Window.ofSpec (Memref.whole main_v16) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v20) S1x6400.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v23) S6400x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S6400x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v27) S1x6400.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x300000 : Shape := ⟨2, ![2, 300000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x300000 : Shape := ⟨2, ![1, 300000]⟩
abbrev S300000 : Shape := ⟨1, ![300000]⟩
abbrev S_ : Shape := ⟨0, ![]⟩
abbrev S300000x1 : Shape := ⟨2, ![300000, 1]⟩
abbrev S300000x128 : Shape := ⟨2, ![300000, 128]⟩
abbrev S300000x256 : Shape := ⟨2, ![300000, 256]⟩
abbrev S1x128 : Shape := ⟨2, ![1, 128]⟩
abbrev S1x1 : Shape := ⟨2, ![1, 1]⟩

abbrev nBuf : Space → Nat
  | .hbm => 167
  | .vmem => 0
  | .smem => 0
  | _ => 0

abbrev hbmTy0_0 (i : Nat) : BufTy := match i % 128 with
  | 0 => ⟨S100000x128, .f32⟩
  | 1 => ⟨S100000x128, .f32⟩
  | 2 => ⟨S2x300000, .i32⟩
  | 3 => ⟨S2x300000, .i32⟩
  | 4 => ⟨S256x128, .f32⟩
  | 5 => ⟨S128, .f32⟩
  | 6 => ⟨S128x128, .f32⟩
  | 7 => ⟨S128, .f32⟩
  | 8 => ⟨S128x1, .f32⟩
  | 9 => ⟨S1, .f32⟩
  | 10 => ⟨S256x128, .f32⟩
  | 11 => ⟨S128, .f32⟩
  | 12 => ⟨S128x128, .f32⟩
  | 13 => ⟨S128, .f32⟩
  | 14 => ⟨S128x1, .f32⟩
  | 15 => ⟨S1, .f32⟩
  | 16 => ⟨S1x300000, .i32⟩
  | 17 => ⟨S300000, .i32⟩
  | 18 => ⟨S_, .i32⟩
  | 19 => ⟨S300000, .i32⟩
  | 20 => ⟨S300000, .i1⟩
  | 21 => ⟨S_, .i32⟩
  | 22 => ⟨S300000, .i32⟩
  | 23 => ⟨S300000, .i32⟩
  | 24 => ⟨S300000, .i32⟩
  | 25 => ⟨S300000x1, .i32⟩
  | 26 => ⟨S300000x128, .f32⟩
  | 27 => ⟨S1x300000, .i32⟩
  | 28 => ⟨S300000, .i32⟩
  | 29 => ⟨S_, .i32⟩
  | 30 => ⟨S300000, .i32⟩
  | 31 => ⟨S300000, .i1⟩
  | 32 => ⟨S_, .i32⟩
  | 33 => ⟨S300000, .i32⟩
  | 34 => ⟨S300000, .i32⟩
  | 35 => ⟨S300000, .i32⟩
  | 36 => ⟨S300000x1, .i32⟩
  | 37 => ⟨S300000x128, .f32⟩
  | 38 => ⟨S300000x256, .f32⟩
  | 39 => ⟨S300000x128, .f32⟩
  | 40 => ⟨S1x128, .f32⟩
  | 41 => ⟨S300000x128, .f32⟩
  | 42 => ⟨S300000x128, .f32⟩
  | 43 => ⟨S_, .f32⟩
  | 44 => ⟨S300000x128, .f32⟩
  | 45 => ⟨S300000x128, .i1⟩
  | 46 => ⟨S_, .f32⟩
  | 47 => ⟨S300000x128, .f32⟩
  | 48 => ⟨S300000x128, .i1⟩
  | 49 => ⟨S_, .f32⟩
  | 50 => ⟨S_, .f32⟩
  | 51 => ⟨S300000x128, .f32⟩
  | 52 => ⟨S300000x128, .f32⟩
  | 53 => ⟨S300000x128, .f32⟩
  | 54 => ⟨S_, .f32⟩
  | 55 => ⟨S300000x128, .f32⟩
  | 56 => ⟨S300000x128, .f32⟩
  | 57 => ⟨S300000x128, .f32⟩
  | 58 => ⟨S300000x128, .f32⟩
  | 59 => ⟨S1x128, .f32⟩
  | 60 => ⟨S300000x128, .f32⟩
  | 61 => ⟨S300000x128, .f32⟩
  | 62 => ⟨S_, .f32⟩
  | 63 => ⟨S300000x128, .f32⟩
  | 64 => ⟨S300000x128, .i1⟩
  | 65 => ⟨S_, .f32⟩
  | 66 => ⟨S300000x128, .f32⟩
  | 67 => ⟨S300000x128, .i1⟩
  | 68 => ⟨S_, .f32⟩
  | 69 => ⟨S_, .f32⟩
  | 70 => ⟨S300000x128, .f32⟩
  | 71 => ⟨S300000x128, .f32⟩
  | 72 => ⟨S300000x128, .f32⟩
  | 73 => ⟨S_, .f32⟩
  | 74 => ⟨S300000x128, .f32⟩
  | 75 => ⟨S300000x128, .f32⟩
  | 76 => ⟨S300000x128, .f32⟩
  | 77 => ⟨S300000x1, .f32⟩
  | 78 => ⟨S1x1, .f32⟩
  | 79 => ⟨S300000x1, .f32⟩
  | 80 => ⟨S300000x1, .f32⟩
  | 81 => ⟨S300000x1, .f32⟩
  | 82 => ⟨S300000x1, .f32⟩
  | 83 => ⟨S_, .f32⟩
  | 84 => ⟨S300000x1, .f32⟩
  | 85 => ⟨S300000x1, .f32⟩
  | 86 => ⟨S_, .f32⟩
  | 87 => ⟨S300000x1, .f32⟩
  | 88 => ⟨S300000x1, .f32⟩
  | 89 => ⟨S300000, .f32⟩
  | 90 => ⟨S1x300000, .i32⟩
  | 91 => ⟨S300000, .i32⟩
  | 92 => ⟨S_, .i32⟩
  | 93 => ⟨S300000, .i32⟩
  | 94 => ⟨S300000, .i1⟩
  | 95 => ⟨S_, .i32⟩
  | 96 => ⟨S300000, .i32⟩
  | 97 => ⟨S300000, .i32⟩
  | 98 => ⟨S300000, .i32⟩
  | 99 => ⟨S300000x1, .i32⟩
  | 100 => ⟨S300000x128, .f32⟩
  | 101 => ⟨S1x300000, .i32⟩
  | 102 => ⟨S300000, .i32⟩
  | 103 => ⟨S_, .i32⟩
  | 104 => ⟨S300000, .i32⟩
  | 105 => ⟨S300000, .i1⟩
  | 106 => ⟨S_, .i32⟩
  | 107 => ⟨S300000, .i32⟩
  | 108 => ⟨S300000, .i32⟩
  | 109 => ⟨S300000, .i32⟩
  | 110 => ⟨S300000x1, .i32⟩
  | 111 => ⟨S300000x128, .f32⟩
  | 112 => ⟨S300000x256, .f32⟩
  | 113 => ⟨S300000x128, .f32⟩
  | 114 => ⟨S1x128, .f32⟩
  | 115 => ⟨S300000x128, .f32⟩
  | 116 => ⟨S300000x128, .f32⟩
  | 117 => ⟨S_, .f32⟩
  | 118 => ⟨S300000x128, .f32⟩
  | 119 => ⟨S300000x128, .i1⟩
  | 120 => ⟨S_, .f32⟩
  | 121 => ⟨S300000x128, .f32⟩
  | 122 => ⟨S300000x128, .i1⟩
  | 123 => ⟨S_, .f32⟩
  | 124 => ⟨S_, .f32⟩
  | 125 => ⟨S300000x128, .f32⟩
  | 126 => ⟨S300000x128, .f32⟩
  | 127 => ⟨S300000x128, .f32⟩
  | _ => ⟨S100000x128, .f32⟩

abbrev hbmTy0_1 (i : Nat) : BufTy := match i % 128 with
  | 0 => ⟨S_, .f32⟩
  | 1 => ⟨S300000x128, .f32⟩
  | 2 => ⟨S300000x128, .f32⟩
  | 3 => ⟨S300000x128, .f32⟩
  | 4 => ⟨S300000x128, .f32⟩
  | 5 => ⟨S1x128, .f32⟩
  | 6 => ⟨S300000x128, .f32⟩
  | 7 => ⟨S300000x128, .f32⟩
  | 8 => ⟨S_, .f32⟩
  | 9 => ⟨S300000x128, .f32⟩
  | 10 => ⟨S300000x128, .i1⟩
  | 11 => ⟨S_, .f32⟩
  | 12 => ⟨S300000x128, .f32⟩
  | 13 => ⟨S300000x128, .i1⟩
  | 14 => ⟨S_, .f32⟩
  | 15 => ⟨S_, .f32⟩
  | 16 => ⟨S300000x128, .f32⟩
  | 17 => ⟨S300000x128, .f32⟩
  | 18 => ⟨S300000x128, .f32⟩
  | 19 => ⟨S_, .f32⟩
  | 20 => ⟨S300000x128, .f32⟩
  | 21 => ⟨S300000x128, .f32⟩
  | 22 => ⟨S300000x128, .f32⟩
  | 23 => ⟨S300000x1, .f32⟩
  | 24 => ⟨S1x1, .f32⟩
  | 25 => ⟨S300000x1, .f32⟩
  | 26 => ⟨S300000x1, .f32⟩
  | 27 => ⟨S300000x1, .f32⟩
  | 28 => ⟨S300000x1, .f32⟩
  | 29 => ⟨S_, .f32⟩
  | 30 => ⟨S300000x1, .f32⟩
  | 31 => ⟨S300000x1, .f32⟩
  | 32 => ⟨S_, .f32⟩
  | 33 => ⟨S300000x1, .f32⟩
  | 34 => ⟨S300000x1, .f32⟩
  | 35 => ⟨S300000, .f32⟩
  | 36 => ⟨S1x300000, .f32⟩
  | 37 => ⟨S1x300000, .f32⟩
  | 38 => ⟨S2x300000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_cst_1 : Ref sig .tc := ⟨.hbm, 49, rfl⟩
abbrev main_call0_call0_v0 : Ref sig .tc := ⟨.hbm, 50, rfl⟩
abbrev main_call0_call0_v1 : Ref sig .tc := ⟨.hbm, 51, rfl⟩
abbrev main_call0_v4 : Ref sig .tc := ⟨.hbm, 52, rfl⟩
abbrev main_call0_v5 : Ref sig .tc := ⟨.hbm, 53, rfl⟩
abbrev main_call0_cst_2 : Ref sig .tc := ⟨.hbm, 54, rfl⟩
abbrev main_call0_v6 : Ref sig .tc := ⟨.hbm, 55, rfl⟩
abbrev main_call0_v7 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_cst_1 : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_v4 : Ref sig .tc := ⟨.hbm, 71, rfl⟩
abbrev main_call1_v5 : Ref sig .tc := ⟨.hbm, 72, rfl⟩
abbrev main_call1_cst_2 : Ref sig .tc := ⟨.hbm, 73, rfl⟩
abbrev main_call1_v6 : Ref sig .tc := ⟨.hbm, 74, rfl⟩
abbrev main_call1_v7 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst : Ref sig .tc := ⟨.hbm, 83, rfl⟩
abbrev main_v35 : Ref sig .tc := ⟨.hbm, 84, rfl⟩
abbrev main_v36 : Ref sig .tc := ⟨.hbm, 85, rfl⟩
abbrev main_cst_3 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_c_4 : Ref sig .tc := ⟨.hbm, 92, rfl⟩
abbrev main_v42 : Ref sig .tc := ⟨.hbm, 93, rfl⟩
abbrev main_v43 : Ref sig .tc := ⟨.hbm, 94, rfl⟩
abbrev main_c_5 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_c_6 : Ref sig .tc := ⟨.hbm, 103, rfl⟩
abbrev main_v51 : Ref sig .tc := ⟨.hbm, 104, rfl⟩
abbrev main_v52 : Ref sig .tc := ⟨.hbm, 105, rfl⟩
abbrev main_c_7 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_cst_1 : Ref sig .tc := ⟨.hbm, 123, rfl⟩
abbrev main_call2_call0_v0 : Ref sig .tc := ⟨.hbm, 124, rfl⟩
abbrev main_call2_call0_v1 : Ref sig .tc := ⟨.hbm, 125, rfl⟩
abbrev main_call2_v4 : Ref sig .tc := ⟨.hbm, 126, rfl⟩
abbrev main_call2_v5 : Ref sig .tc := ⟨.hbm, 127, rfl⟩
abbrev main_call2_cst_2 : Ref sig .tc := ⟨.hbm, 128, rfl⟩
abbrev main_call2_v6 : Ref sig .tc := ⟨.hbm, 129, rfl⟩
abbrev main_call2_v7 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_call3_cst : Ref sig .tc := ⟨.hbm, 136, rfl⟩
abbrev main_call3_v0 : Ref sig .tc := ⟨.hbm, 137, rfl⟩
abbrev main_call3_v1 : Ref sig .tc := ⟨.hbm, 138, rfl⟩
abbrev main_call3_cst_0 : Ref sig .tc := ⟨.hbm, 139, rfl⟩
abbrev main_call3_v2 : Ref sig .tc := ⟨.hbm, 140, rfl⟩
abbrev main_call3_v3 : Ref sig .tc := ⟨.hbm, 141, rfl⟩
abbrev main_call3_cst_1 : Ref sig .tc := ⟨.hbm, 142, rfl⟩
abbrev main_call3_call0_v0 : Ref sig .tc := ⟨.hbm, 143, rfl⟩
abbrev main_call3_call0_v1 : Ref sig .tc := ⟨.hbm, 144, rfl⟩
abbrev main_call3_v4 : Ref sig .tc := ⟨.hbm, 145, rfl⟩
abbrev main_call3_v5 : Ref sig .tc := ⟨.hbm, 146, rfl⟩
abbrev main_call3_cst_2 : Ref sig .tc := ⟨.hbm, 147, rfl⟩
abbrev main_call3_v6 : Ref sig .tc := ⟨.hbm, 148, rfl⟩
abbrev main_call3_v7 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_cst_8 : Ref sig .tc := ⟨.hbm, 157, rfl⟩
abbrev main_v75 : Ref sig .tc := ⟨.hbm, 158, rfl⟩
abbrev main_v76 : Ref sig .tc := ⟨.hbm, 159, rfl⟩
abbrev main_cst_9 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩

abbrev nD : Nat := 1
abbrev τ : Topo := Topo.v7x

variable {F : FTy → Type} [FloatOps F]

class Facts₀ : Prop where
  slices_S2x300000_S1x300000_0_0 : S2x300000.Slices ![0, 0] S1x300000
  shapeCasts_S1x300000_S300000 : S1x300000.ShapeCasts S300000
  bcast_S_S300000 : S_.BroadcastsInDim S300000 (![] : Fin 0 → Fin S300000.rank)
  bcast_S300000_S300000x1_0 : S300000.BroadcastsInDim S300000x1 (![0] : Fin 1 → Fin S300000x1.rank)
  slices_S2x300000_S1x300000_1_0 : S2x300000.Slices ![1, 0] S1x300000
  concatenates_S300000x128_S300000x128_S300000x256_d1 : Shape.Concatenates [S300000x128, S300000x128] S300000x256 1
  bcast_S128_S1x128_1 : S128.BroadcastsInDim S1x128 (![1] : Fin 1 → Fin S1x128.rank)
  bcast_S1x128_S300000x128_0_1 : S1x128.BroadcastsInDim S300000x128 (![0, 1] : Fin 2 → Fin S300000x128.rank)
  bcast_S_S300000x128 : S_.BroadcastsInDim S300000x128 (![] : Fin 0 → Fin S300000x128.rank)
  bcast_S1_S1x1_1 : S1.BroadcastsInDim S1x1 (![1] : Fin 1 → Fin S1x1.rank)
  bcast_S1x1_S300000x1_0_1 : S1x1.BroadcastsInDim S300000x1 (![0, 1] : Fin 2 → Fin S300000x1.rank)
  bcast_S_S300000x1 : S_.BroadcastsInDim S300000x1 (![] : Fin 0 → Fin S300000x1.rank)
  shapeCasts_S300000x1_S300000 : S300000x1.ShapeCasts S300000
  bcast_S300000_S1x300000_1 : S300000.BroadcastsInDim S1x300000 (![1] : Fin 1 → Fin S1x300000.rank)
  concatenates_S1x300000_S1x300000_S2x300000_d0 : Shape.Concatenates [S1x300000, S1x300000] S2x300000 0
  gather_S100000x128_S300000x1_S300000x128_1_0_n_n_0_1_1128_wf : GatherDims.WF S100000x128 S300000x1 S300000x128 [1] [0] [] [0] [] 1 ![1, 128]
  dot_S300000x256_S256x128_S300000x128_1_0_0_1_n_n_wf : DotDims.WF S300000x256 S256x128 S300000x128 [1] [0] [0] [1] [] []
  dot_S300000x128_S128x128_S300000x128_1_0_0_1_n_n_wf : DotDims.WF S300000x128 S128x128 S300000x128 [1] [0] [0] [1] [] []
  dot_S300000x128_S128x1_S300000x1_1_0_0_1_n_n_wf : DotDims.WF S300000x128 S128x1 S300000x1 [1] [0] [0] [1] [] []

variable [Facts₀]

def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def dot_S300000x256_S256x128_S300000x128_1_0_0_1_n_n : DotDims S300000x256 S256x128 S300000x128 where
  lhsContracting := [1]
  rhsContracting := [0]
  lhsNonContracting := [0]
  rhsNonContracting := [1]
  lhsBatch := []
  rhsBatch := []
  wf := dot_S300000x256_S256x128_S300000x128_1_0_0_1_n_n_wf
def dot_S300000x128_S128x128_S300000x128_1_0_0_1_n_n : DotDims S300000x128 S128x128 S300000x128 where
  lhsContracting := [1]
  rhsContracting := [0]
  lhsNonContracting := [0]
  rhsNonContracting := [1]
  lhsBatch := []
  rhsBatch := []
  wf := dot_S300000x128_S128x128_S300000x128_1_0_0_1_n_n_wf
def dot_S300000x128_S128x1_S300000x1_1_0_0_1_n_n : DotDims S300000x128 S128x1 S300000x1 where
  lhsContracting := [1]
  rhsContracting := [0]
  lhsNonContracting := [0]
  rhsNonContracting := [1]
  lhsBatch := []
  rhsBatch := []
  wf := dot_S300000x128_S128x1_S300000x1_1_0_0_1_n_n_wf

class Facts : Prop extends Facts₀ where

variable [Facts]
-- ==== Proof.Spec.lean ====
/-
  The edge decoder as one function of the argument arrays, over the extended reals.

  For an edge e of one edge type the two endpoint rows xs, xd (each 128 wide) go through
    h0[j] = elu((sum_i xs[i]*Wa[i,j]) + (sum_i xd[i]*Wb[i,j]) + bbi[j])      (Wa, Wb the upper and lower halves of the 256x128 matrix)
    h1[k] = elu((sum_j h0[j]*W1[j,k]) + b1[k])
    z     = (sum_k h1[k]*W2[k,0]) + b2[0]
    p     = 1 / (1 + e^(-z)).
  The endpoint rows are rows of the node tables picked by the edge index words, a negative word w read as w + 100000.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev T100000x128 : Shape := ⟨2, ![100000, 128]⟩
abbrev T300000x128 : Shape := ⟨2, ![300000, 128]⟩
abbrev T300000x1 : Shape := ⟨2, ![300000, 1]⟩
abbrev T2x300000 : Shape := ⟨2, ![2, 300000]⟩
abbrev T256x128 : Shape := ⟨2, ![256, 128]⟩
abbrev T128x128 : Shape := ⟨2, ![128, 128]⟩
abbrev T128x1 : Shape := ⟨2, ![128, 1]⟩
abbrev T128 : Shape := ⟨1, ![128]⟩
abbrev T1 : Shape := ⟨1, ![1]⟩

/-- ELU: x where 0 < x, else e^x - 1. -/
def elu (x : EReal) : EReal := Scalar.select (Ideal.cmp .ogt x 0) x (Ideal.exp x - 1)

/-- The logistic function 1 / (1 + e^(-x)). -/
def sigm (x : EReal) : EReal := Ideal.div 1 (1 + Ideal.exp (-x))

/-- First hidden layer at unit j: the two endpoint rows against the two halves of the bilinear matrix. -/
def hidden0 (xs xd : Fin 128 → EReal) (wa wb : T128x128.Idx → EReal) (bbi : T128.Idx → EReal) (j : Fin 128) : EReal :=
  elu (((∑ i : Fin 128, xs i * wa (ix2 i j)) + (∑ i : Fin 128, xd i * wb (ix2 i j))) + bbi (ix1 j))

/-- Second hidden layer at unit k. -/
def hidden1 (h : Fin 128 → EReal) (w1 : T128x128.Idx → EReal) (b1 : T128.Idx → EReal) (k : Fin 128) : EReal :=
  elu ((∑ j : Fin 128, h j * w1 (ix2 j k)) + b1 (ix1 k))

/-- The output unit before the logistic function. -/
def logit (h : Fin 128 → EReal) (w2 : T128x1.Idx → EReal) (b2 : T1.Idx → EReal) : EReal :=
  (∑ k : Fin 128, h k * w2 (ix2 k 0)) + b2 (ix1 0)

/-- One edge's probability from its two endpoint rows. -/
def edgeScore (xs xd : Fin 128 → EReal) (wa wb : T128x128.Idx → EReal) (bbi : T128.Idx → EReal)
    (w1 : T128x128.Idx → EReal) (b1 : T128.Idx → EReal) (w2 : T128x1.Idx → EReal) (b2 : T1.Idx → EReal) : EReal :=
  sigm (logit (hidden1 (hidden0 xs xd wa wb bbi) w1 b1) w2 b2)

/-- Rows 0..127 of a 256-row matrix. -/
def upper (W : T256x128.Idx → EReal) : T128x128.Idx → EReal :=
  fun p => W (ix2 ⟨(p 0).val, Nat.lt_trans (idx2_lt0 p) (by decide)⟩ (p 1))

/-- Rows 128..255 of a 256-row matrix. -/
def lower (W : T256x128.Idx → EReal) : T128x128.Idx → EReal :=
  fun p => W (ix2 ⟨128 + (p 0).val, by have := idx2_lt0 p; omega⟩ (p 1))

/-- An index word as jnp reads it: a negative word counts from the table's end. -/
def wrapWord (w : BitVec 32) : BitVec 32 := Scalar.select (IntOp.cmpi .slt w 0#32) (IntOp.addi w 100000#32) w

/-- Row r of the edge index array as a column of row numbers. -/
def rowIdx (ei : IVec T2x300000 32) (r : Fin 2) : IVec T300000x1 32 := fun p => wrapWord (ei (ix2 r (p 0)))

/-- The gather of whole table rows by a column of row numbers (x[idx] along axis 0). -/
def takeDims : GatherDims T100000x128 T300000x1 T300000x128 where
  offsetDims := [1]
  collapsedSliceDims := [0]
  operandBatchingDims := []
  startIndicesBatchingDims := []
  startIndexMap := [0]
  indexVectorDim := 1
  sliceSizes := ![1, 128]
  wf := by decide

/-- The table rows named by row r of the edge index array: one 128-wide row per edge. -/
def takeRows (tbl : T100000x128.Idx → EReal) (ei : IVec T2x300000 32) (r : Fin 2) : T300000x128.Idx → EReal :=
  Host.gather takeDims tbl (rowIdx ei r)

/-- One edge type's probabilities: source rows from one table, target rows from the other. -/
def branch (src dst : T100000x128.Idx → EReal) (ei : IVec T2x300000 32) (W : T256x128.Idx → EReal) (bbi : T128.Idx → EReal)
    (w1 : T128x128.Idx → EReal) (b1 : T128.Idx → EReal) (w2 : T128x1.Idx → EReal) (b2 : T1.Idx → EReal) (e : Fin 300000) : EReal :=
  edgeScore (fun i => takeRows src ei 0 (ix2 e i)) (fun i => takeRows dst ei 1 (ix2 e i)) (upper W) (lower W) bbi w1 b1 w2 b2

/-- The decoder's result: row 0 the user-to-item edges, row 1 the item-to-user edges. -/
def result (ue ie : T100000x128.Idx → EReal) (eui eiu : IVec T2x300000 32)
    (Wui : T256x128.Idx → EReal) (bbiui : T128.Idx → EReal) (w1ui : T128x128.Idx → EReal) (b1ui : T128.Idx → EReal)
    (w2ui : T128x1.Idx → EReal) (b2ui : T1.Idx → EReal)
    (Wiu : T256x128.Idx → EReal) (bbiiu : T128.Idx → EReal) (w1iu : T128x128.Idx → EReal) (b1iu : T128.Idx → EReal)
    (w2iu : T128x1.Idx → EReal) (b2iu : T1.Idx → EReal) : T2x300000.Idx → EReal :=
  fun i => if (i 0).val = 0 then branch ue ie eui Wui bbiui w1ui b1ui w2ui b2ui (i 1)
           else branch ie ue eiu Wiu bbiiu w1iu b1iu w2iu b2iu (i 1)

/-- Every edge index word is a valid jnp index of a 100000-row table: -100000 <= w < 100000 (signed). -/
def InRange (ei : IVec T2x300000 32) : Prop :=
  ∀ i, IntOp.cmpi .sge (ei i) 4294867296#32 = 1#1 ∧ IntOp.cmpi .slt (ei i) 100000#32 = 1#1

/-- A sum over 256 terms is the sum of its first 128 and its last 128 terms. -/
theorem sum_split (f : Fin 256 → EReal) :
    (∑ i : Fin 256, f i) = (∑ i : Fin 128, f ⟨i.val, Nat.lt_trans i.isLt (by decide)⟩) + ∑ i : Fin 128, f ⟨128 + i.val, by have := i.isLt; omega⟩ := by
  exact Fin.sum_univ_add (a := 128) (b := 128) f

end Cert.Spec

end
-- ==== Proof.Pre.lean ====
/-
  What the precondition says of the two edge index arrays: every index word is a valid jnp index of a
  100000-row table, -100000 <= w < 100000. The precondition is one conjunction of "all"-reductions; its last two
  conjuncts are the ones about the index arrays, and an "all" that came out true was true at every element.
-/
import proofs.«406386_j24481313587756_2_alg».proof.Defs
import proofs.«406386_j24481313587756_2_alg».proof.Proof.Gen.Pre_finite_inputs
import proofs.«406386_j24481313587756_2_alg».proof.Proof.Spec
import Idealize.ShloMosaic.Lib.ReduceAll
import Idealize.ShloMosaic.Lib.ValueIdx

noncomputable section

namespace Cert.Proof.PreDecode

open Idealize.ShloMosaic Idealize.ShloMosaic.ValueIdx Idealize.SL.Sem Cert.Pre_finite_inputs Cert.Pre_finite_inputs.Gen

instance : Subsingleton S_.Idx := ⟨fun a b => funext fun d => d.elim0⟩

/-- The last operations of the precondition, on their own: the conjunction so far and the two range tests. -/
theorem inRange_of_part4 (a2 a3 : IVec S2x300000 32) (p q : IVec S_ 1)
    (e : fn_part4 (F := Ideal) a2 a3 p q ix0 = 1#1) : Cert.Spec.InRange a2 ∧ Cert.Spec.InRange a3 := by
  unfold fn_part4 at e
  dsimp only at e
  obtain ⟨e1, e3⟩ := IntOp.andi_eq_one.1 e
  obtain ⟨_, e2⟩ := IntOp.andi_eq_one.1 e1
  refine ⟨fun i => ?_, fun i => ?_⟩
  · have := Host.reduce_andi_all _ _ _ _ ix0 e2 i
    exact IntOp.andi_eq_one.1 this
  · have := Host.reduce_andi_all _ _ _ _ ix0 e3 i
    exact IntOp.andi_eq_one.1 this

/-- Under the kernel's precondition both edge index arrays are in range, on every device. -/
theorem inRange_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.InRange (m ((c.tc : Thread Cert.KernelIdeal.nD Cert.KernelIdeal.τ).loc Cert.KernelIdeal.main_arg2))
      ∧ Cert.Spec.InRange (m ((c.tc : Thread Cert.KernelIdeal.nD Cert.KernelIdeal.τ).loc Cert.KernelIdeal.main_arg3)) := by
  have e := congrFun (h c) ix0
  unfold Cert.Pre_finite_inputs.fn at e
  dsimp only at e
  unfold fn_part1 at e
  dsimp only at e
  unfold fn_part2 at e
  dsimp only at e
  unfold fn_part3 at e
  dsimp only at e
  exact inRange_of_part4 _ _ _ _ e

end Cert.Proof.PreDecode

end
-- ==== Proof.KBody.lean ====
/-
  The kernel body's one store, read at an index, over the extended reals.

  The body takes two 6400×128 endpoint blocks xs, xd and seven weight blocks and stores a 1×6400 row. At the exact
  extended reals a narrowing of the format is the identity, so the row at column q is
    h0[j] = elu((sum_i xs[q,i]*Wa[i,j]) + (sum_i xd[q,i]*Wb[i,j]) + bbi[j])
    h1[k] = elu((sum_j h0[j]*W1[j,k]) + b1[k])
    z     = (sum_k h1[k]*W2[k,0]) + b2[0]
    p     = 1 / (1 + e^(-z)),
  the specification's edge score of row q. Each product into the zero accumulator is a sum over the contracted
  axis; a bias is a vector given a leading unit axis and repeated down the rows; the last step swaps the two axes
  of the 6400×1 column.
-/
import proofs.«406386_j24481313587756_2_alg».proof.Proof.Gen.KernelIdeal.Frame
import proofs.«406386_j24481313587756_2_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

namespace Cert.KernelIdeal.Body

open Cert.KernelIdeal Cert.KernelIdeal.Gen Idealize.ShloMosaic Idealize.ShloMosaic.ValueIdx

/-! ## The two contractions, read at an index

Both products contract the left operand's columns with the right operand's rows. The operand indices at an
output index and a contraction position are stated one axis at a time. -/

/-- Rows × a 128×128 matrix: the left operand is read in the output's row … -/
theorem lhs_sq_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide),
    dif_pos (show (0 : Fin S6400x128.rank) ∈ dot_S6400x128_S128x128_S6400x128_1_0_0_1_n_n.lhsNonContracting by decide)]
  rfl
/-- … at the contraction position; -/
theorem lhs_sq_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
/-- the right operand is read at the contraction position … -/
theorem rhs_sq_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
/-- … in the output's column. -/
theorem rhs_sq_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide),
    dif_pos (show (1 : Fin S128x128.rank) ∈ dot_S6400x128_S128x128_S6400x128_1_0_0_1_n_n.rhsNonContracting by decide)]
  rfl

/-- Rows × a 128×128 matrix into the zero accumulator, at (p, j): the sum over i of row p at i times the matrix at (i, j). -/
theorem matmul_sq_apply (a : FVec Ideal S6400x128 .bf16) (b : FVec Ideal S128x128 .bf16) (p : Fin 6400) (j : Fin 128) :
    matmul dot_S6400x128_S128x128_S6400x128_1_0_0_1_n_n none a b (constant (F := Ideal) S6400x128 .f32 0x00000000#32) (ix2 p j)
      = ∑ i : Fin 128, a (ix2 p i) * b (ix2 i j) := by
  simp only [matmul]
  rw [Ideal.matmul_constant_zero_apply,
    ← Equiv.sum_comp (contrEquiv1 dot_S6400x128_S128x128_S6400x128_1_0_0_1_n_n 128 rfl rfl).symm]
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx (ix2 p j) ((contrEquiv1 dot_S6400x128_S128x128_S6400x128_1_0_0_1_n_n 128 rfl rfl).symm k) = ix2 p k :=
    funext fun ax => Fin.ext (by
      match ax with
      | ⟨0, _⟩ => exact lhs_sq_0 _ _
      | ⟨1, _⟩ => exact (lhs_sq_1 _ _).trans hk)
  have er : dot_S6400x128_S128x128_S6400x128_1_0_0_1_n_n.rhsIdx (ix2 p j) ((contrEquiv1 dot_S6400x128_S128x128_S6400x128_1_0_0_1_n_n 128 rfl rfl).symm k) = ix2 k j :=
    funext fun ax => Fin.ext (by
      match ax with
      | ⟨0, _⟩ => exact (rhs_sq_0 _ _).trans hk
      | ⟨1, _⟩ => exact rhs_sq_1 _ _)
  rw [el, er]

/-- Rows × a 128×1 column: the left operand is read in the output's row … -/
theorem lhs_col_0 (i : S6400x1.Idx) (q : dot_S6400x128_S128x1_S6400x1_1_0_0_1_n_n.contr.Idx) :
    (dot_S6400x128_S128x1_S6400x1_1_0_0_1_n_n.lhsIdx i q 0).val = (i 0).val := by
  unfold DotDims.lhsIdx
  rw [dif_neg (show ¬(0 : Fin S6400x128.rank) ∈ dot_S6400x128_S128x1_S6400x1_1_0_0_1_n_n.lhsBatch by decide),
    dif_pos (show (0 : Fin S6400x128.rank) ∈ dot_S6400x128_S128x1_S6400x1_1_0_0_1_n_n.lhsNonContracting by decide)]
  rfl
/-- … at the contraction position; -/
theorem lhs_col_1 (i : S6400x1.Idx) (q : dot_S6400x128_S128x1_S6400x1_1_0_0_1_n_n.contr.Idx) :
    (dot_S6400x128_S128x1_S6400x1_1_0_0_1_n_n.lhsIdx i q 1).val = (q ⟨0, by decide⟩).val :=
  dot_S6400x128_S128x1_S6400x1_1_0_0_1_n_n.lhsIdx_val_of_single rfl i q
/-- the right operand is read at the contraction position … -/
theorem rhs_col_0 (i : S6400x1.Idx) (q : dot_S6400x128_S128x1_S6400x1_1_0_0_1_n_n.contr.Idx) :
    (dot_S6400x128_S128x1_S6400x1_1_0_0_1_n_n.rhsIdx i q 0).val = (q ⟨0, by decide⟩).val :=
  dot_S6400x128_S128x1_S6400x1_1_0_0_1_n_n.rhsIdx_val_of_single rfl i q
/-- … in the output's one column. -/
theorem rhs_col_1 (i : S6400x1.Idx) (q : dot_S6400x128_S128x1_S6400x1_1_0_0_1_n_n.contr.Idx) :
    (dot_S6400x128_S128x1_S6400x1_1_0_0_1_n_n.rhsIdx i q 1).val = (i 1).val := by
  unfold DotDims.rhsIdx
  rw [dif_neg (show ¬(1 : Fin S128x1.rank) ∈ dot_S6400x128_S128x1_S6400x1_1_0_0_1_n_n.rhsBatch by decide),
    dif_pos (show (1 : Fin S128x1.rank) ∈ dot_S6400x128_S128x1_S6400x1_1_0_0_1_n_n.rhsNonContracting by decide)]
  rfl

/-- Rows × a 128×1 column into the zero accumulator, at (p, u): the sum over k of row p at k times the column at k. -/
theorem matmul_col_apply (a : FVec Ideal S6400x128 .bf16) (b : FVec Ideal S128x1 .bf16) (p : Fin 6400) (u : Fin 1) :
    matmul dot_S6400x128_S128x1_S6400x1_1_0_0_1_n_n none a b (constant (F := Ideal) S6400x1 .f32 0x00000000#32) (ix2 p u)
      = ∑ k : Fin 128, a (ix2 p k) * b (ix2 k u) := by
  simp only [matmul]
  rw [Ideal.matmul_constant_zero_apply,
    ← Equiv.sum_comp (contrEquiv1 dot_S6400x128_S128x1_S6400x1_1_0_0_1_n_n 128 rfl rfl).symm]
  refine Finset.sum_congr rfl fun k _ => ?_
  have hk := contrEquiv1_symm_val dot_S6400x128_S128x1_S6400x1_1_0_0_1_n_n 128 rfl rfl k
  have el : dot_S6400x128_S128x1_S6400x1_1_0_0_1_n_n.lhsIdx (ix2 p u) ((contrEquiv1 dot_S6400x128_S128x1_S6400x1_1_0_0_1_n_n 128 rfl rfl).symm k) = ix2 p k :=
    funext fun ax => Fin.ext (by
      match ax with
      | ⟨0, _⟩ => exact lhs_col_0 _ _
      | ⟨1, _⟩ => exact (lhs_col_1 _ _).trans hk)
  have er : dot_S6400x128_S128x1_S6400x1_1_0_0_1_n_n.rhsIdx (ix2 p u) ((contrEquiv1 dot_S6400x128_S128x1_S6400x1_1_0_0_1_n_n 128 rfl rfl).symm k) = ix2 k u :=
    funext fun ax => Fin.ext (by
      match ax with
      | ⟨0, _⟩ => exact (rhs_col_0 _ _).trans hk
      | ⟨1, _⟩ => exact rhs_col_1 _ _)
  rw [el, er]

/-! ## The elementwise steps, read at an index -/

/-- The body's activation — the element where it is above zero, else its exponential less one — is `elu` of the element. -/
theorem elu_apply (z : FVec Ideal S6400x128 .f32) (i : S6400x128.Idx) :
    select (cmpf .ogt z (broadcast S6400x128 (Scalar.ofBits (F := Ideal) .f32 0x00000000#32))) z
        (subf (exp z) (broadcast S6400x128 (Scalar.ofBits (F := Ideal) .f32 0x3F800000#32))) i
      = Cert.Spec.elu (z i) := by
  show Scalar.select (Ideal.cmp .ogt (z i) (Ideal.ofBits .f32 0x00000000#32)) (z i)
      (Ideal.exp (z i) - Ideal.ofBits .f32 0x3F800000#32) = _
  rw [Ideal.ofBits_zero_f32, Ideal.ofBits_one_f32]
  rfl

/-- The body's 1 / (1 + e^(0 - z)) is the logistic function of the element: 0 - z is -z. -/
theorem sigm_apply (z : FVec Ideal S6400x1 .f32) (i : S6400x1.Idx) :
    divf (broadcast S6400x1 (Scalar.ofBits (F := Ideal) .f32 0x3F800000#32))
        (addf (broadcast S6400x1 (Scalar.ofBits (F := Ideal) .f32 0x3F800000#32))
          (exp (subf (broadcast S6400x1 (Scalar.ofBits (F := Ideal) .f32 0x00000000#32)) z))) i
      = Cert.Spec.sigm (z i) := by
  show Ideal.div (Ideal.ofBits .f32 0x3F800000#32)
      (Ideal.ofBits .f32 0x3F800000#32 + Ideal.exp (Ideal.ofBits .f32 0x00000000#32 - z i)) = _
  rw [Ideal.ofBits_zero_f32, Ideal.ofBits_one_f32, zero_sub]
  rfl

/-! ## The body's layers as functions of their operands -/

/-- The first layer before its activation: the two endpoint blocks against the two matrices, plus the bias row. -/
def bilinear (x0 x1 : FVec Ideal S6400x128 .bf16) (x2 x3 : FVec Ideal S128x128 .f32) (x4 : FVec Ideal S128 .f32) :
    FVec Ideal S6400x128 .f32 :=
  addf
    (addf
      (matmul dot_S6400x128_S128x128_S6400x128_1_0_0_1_n_n none (shapeCast S6400x128 x0) (truncf .bf16 (shapeCast S128x128 x2))
        (constant S6400x128 .f32 0x00000000#32))
      (matmul dot_S6400x128_S128x128_S6400x128_1_0_0_1_n_n none (shapeCast S6400x128 x1) (truncf .bf16 (shapeCast S128x128 x3))
        (constant S6400x128 .f32 0x00000000#32)))
    (broadcastTo S6400x128 (shapeCast S1x128 x4))

/-- The activation of a whole block. -/
def eluBlock (z : FVec Ideal S6400x128 .f32) : FVec Ideal S6400x128 .bf16 :=
  truncf .bf16
    (select (cmpf .ogt z (broadcast S6400x128 (Scalar.ofBits (F := Ideal) .f32 0x00000000#32))) z
      (subf (exp z) (broadcast S6400x128 (Scalar.ofBits (F := Ideal) .f32 0x3F800000#32))))

/-- The second layer before its activation: the block against the matrix, plus the bias row. -/
def dense (h : FVec Ideal S6400x128 .bf16) (w : FVec Ideal S128x128 .f32) (b : FVec Ideal S128 .f32) :
    FVec Ideal S6400x128 .f32 :=
  addf (matmul dot_S6400x128_S128x128_S6400x128_1_0_0_1_n_n none h (truncf .bf16 w) (constant S6400x128 .f32 0x00000000#32))
    (broadcastTo S6400x128 (shapeCast S1x128 b))

/-- The output unit before the logistic function: the block against the column, plus the one bias. -/
def logitCol (h : FVec Ideal S6400x128 .bf16) (w : FVec Ideal S128x1 .f32) (b : FVec Ideal S1 .f32) :
    FVec Ideal S6400x1 .f32 :=
  addf (matmul dot_S6400x128_S128x1_S6400x1_1_0_0_1_n_n none h (truncf .bf16 w) (constant S6400x1 .f32 0x00000000#32))
    (broadcastTo S6400x1 (shapeCast S1x1 b))

/-- The logistic function of a whole column. -/
def sigmCol (z : FVec Ideal S6400x1 .f32) : FVec Ideal S6400x1 .f32 :=
  divf (broadcast S6400x1 (Scalar.ofBits (F := Ideal) .f32 0x3F800000#32))
    (addf (broadcast S6400x1 (Scalar.ofBits (F := Ideal) .f32 0x3F800000#32))
      (exp (subf (broadcast S6400x1 (Scalar.ofBits (F := Ideal) .f32 0x00000000#32)) z)))

/-- The hidden block the body computes is the two layers composed. -/
theorem pay2_eq (x0 x1 : Vec Ideal S6400x128 .bf16) (x2 x3 : Vec Ideal S128x128 .f32) (x4 : Vec Ideal S128 .f32)
    (x5 : Vec Ideal S128x128 .f32) (x6 : Vec Ideal S128 .f32) :
    k0_pay2 (F := Ideal) x0 x1 x2 x3 x4 x5 x6 = eluBlock (dense (eluBlock (bilinear x0 x1 x2 x3 x4)) x5 x6) := rfl

/-- The stored row is the transposed logistic column of the hidden block. -/
theorem pay1_eq (h : FVec Ideal S6400x128 .bf16) (x7 : Vec Ideal S128x1 .f32) (x8 : Vec Ideal S1 .f32) :
    k0_pay1 (F := Ideal) h x7 x8 = transpose S1x6400 [1, 0] (sigmCol (logitCol h x7 x8)) := rfl

/-! ## The layers read at an index -/

/-- The first layer's pre-activation at (p, j): row p of each endpoint block against column j of its matrix, plus bias j. -/
theorem bilinear_apply (x0 x1 : FVec Ideal S6400x128 .bf16) (x2 x3 : FVec Ideal S128x128 .f32) (x4 : FVec Ideal S128 .f32)
    (p : Fin 6400) (j : Fin 128) :
    bilinear x0 x1 x2 x3 x4 (ix2 p j)
      = ((∑ i : Fin 128, x0 (ix2 p i) * x2 (ix2 i j)) + (∑ i : Fin 128, x1 (ix2 p i) * x3 (ix2 i j))) + x4 (ix1 j) := by
  unfold bilinear
  simp only [shapeCast_self]
  rw [addf_apply, addf_apply, matmul_sq_apply, matmul_sq_apply, broadcastTo_1b_ab_apply, shapeCast_a_1a_apply]
  rfl

/-- The activation of a block at an index is `elu` of the element. -/
theorem eluBlock_apply (z : FVec Ideal S6400x128 .f32) (i : S6400x128.Idx) : eluBlock z i = Cert.Spec.elu (z i) :=
  elu_apply z i

/-- The second layer's pre-activation at (p, k): row p of the block against column k of the matrix, plus bias k. -/
theorem dense_apply (h : FVec Ideal S6400x128 .bf16) (w : FVec Ideal S128x128 .f32) (b : FVec Ideal S128 .f32)
    (p : Fin 6400) (k : Fin 128) :
    dense h w b (ix2 p k) = (∑ j : Fin 128, h (ix2 p j) * w (ix2 j k)) + b (ix1 k) := by
  unfold dense
  rw [addf_apply, matmul_sq_apply, broadcastTo_1b_ab_apply, shapeCast_a_1a_apply]
  rfl

/-- The output unit's pre-activation at row p: row p of the block against the column, plus the one bias. -/
theorem logitCol_apply (h : FVec Ideal S6400x128 .bf16) (w : FVec Ideal S128x1 .f32) (b : FVec Ideal S1 .f32)
    (p : Fin 6400) :
    logitCol h w b (ix2 p (0 : Fin 1)) = (∑ k : Fin 128, h (ix2 p k) * w (ix2 k (0 : Fin 1))) + b (ix1 (0 : Fin 1)) := by
  unfold logitCol
  rw [addf_apply, matmul_col_apply, broadcastTo_1b_ab_apply, shapeCast_a_1a_apply]
  rfl

/-- The logistic column at an index is the logistic function of the element. -/
theorem sigmCol_apply (z : FVec Ideal S6400x1 .f32) (i : S6400x1.Idx) : sigmCol z i = Cert.Spec.sigm (z i) :=
  sigm_apply z i

/-- The hidden block at (p, k) is the second hidden layer's unit k of row p of the two endpoint blocks. -/
theorem pay2_apply (x0 x1 : Vec Ideal S6400x128 .bf16) (x2 x3 : Vec Ideal S128x128 .f32) (x4 : Vec Ideal S128 .f32)
    (x5 : Vec Ideal S128x128 .f32) (x6 : Vec Ideal S128 .f32) (p : Fin 6400) (k : Fin 128) :
    k0_pay2 (F := Ideal) x0 x1 x2 x3 x4 x5 x6 (ix2 p k)
      = Cert.Spec.hidden1 (Cert.Spec.hidden0 (fun i => x0 (ix2 p i)) (fun i => x1 (ix2 p i)) x2 x3 x4) x5 x6 k := by
  rw [pay2_eq, eluBlock_apply, dense_apply]
  unfold Cert.Spec.hidden1
  refine congrArg Cert.Spec.elu (congrArg (· + x6 (ix1 k)) (Finset.sum_congr rfl fun j _ => ?_))
  rw [eluBlock_apply, bilinear_apply]
  rfl

/-! ## The stored row -/

/-- THE STORED ROW at column q is the edge score of row q of the two endpoint blocks: the transposed column read at
    (q, 0), the logistic function of the output unit, which sums the hidden block's row q against the weight column. -/
theorem pay0_apply (x0 x1 : Vec Ideal S6400x128 .bf16) (x2 x3 : Vec Ideal S128x128 .f32) (x4 : Vec Ideal S128 .f32)
    (x5 : Vec Ideal S128x128 .f32) (x6 : Vec Ideal S128 .f32) (x7 : Vec Ideal S128x1 .f32) (x8 : Vec Ideal S1 .f32) (q : Fin 6400) :
    k0_pay1 (F := Ideal) (k0_pay2 x0 x1 x2 x3 x4 x5 x6) x7 x8 (ix2 0 q)
      = Cert.Spec.edgeScore (fun i => x0 (ix2 q i)) (fun i => x1 (ix2 q i)) x2 x3 x4 x5 x6 x7 x8 := by
  rw [pay1_eq, transpose_ix2_apply, sigmCol_apply, logitCol_apply]
  unfold Cert.Spec.edgeScore Cert.Spec.logit
  refine congrArg Cert.Spec.sigm (congrArg (· + x8 (ix1 0)) (Finset.sum_congr rfl fun k _ => ?_))
  rw [pay2_apply]

/-- The offsets of a whole-buffer access are all zero. -/
theorem off2_zero : (![0, 0] : Fin 2 → Nat) = fun _ => 0 := funext fun a => by fin_cases a <;> rfl
/-- The same for a rank-1 buffer. -/
theorem off1_zero : (![0] : Fin 1 → Nat) = fun _ => 0 := funext fun a => by fin_cases a; rfl

/-- What the first launch's body leaves in its output block: its one store covers the block and its loads read whole
    blocks, so the block is the stored row. -/
theorem out0_9_apply (x0 x1 : Vec Ideal S6400x128 .bf16) (x2 x3 : Vec Ideal S128x128 .f32) (x4 : Vec Ideal S128 .f32)
    (x5 : Vec Ideal S128x128 .f32) (x6 : Vec Ideal S128 .f32) (x7 : Vec Ideal S128x1 .f32) (x8 : Vec Ideal S1 .f32) (q : Fin 6400) :
    out0_9 (F := Ideal) x0 x1 x2 x3 x4 x5 x6 x7 x8 (ix2 0 q)
      = Cert.Spec.edgeScore (fun i => x0 (ix2 q i)) (fun i => x1 (ix2 q i)) x2 x3 x4 x5 x6 x7 x8 := by
  unfold out0_9
  rw [View.canon_unit_zero off2_zero]
  simp only [View.ld_unit_zero (S := S6400x128) off2_zero, View.ld_unit_zero (S := S128x128) off2_zero,
    View.ld_unit_zero (S := S128x1) off2_zero, View.ld_unit_zero (S := S128) off1_zero,
    View.ld_unit_zero (S := S1) off1_zero]
  exact pay0_apply x0 x1 x2 x3 x4 x5 x6 x7 x8 q

/-! ## The second launch

Its body is the first launch's, term for term, so what it leaves in its output block is the same function of its blocks. -/

/-- The second launch's stored block is the first launch's at the same operands. -/
theorem out1_9_eq (x0 x1 : Vec Ideal S6400x128 .bf16) (x2 x3 : Vec Ideal S128x128 .f32) (x4 : Vec Ideal S128 .f32)
    (x5 : Vec Ideal S128x128 .f32) (x6 : Vec Ideal S128 .f32) (x7 : Vec Ideal S128x1 .f32) (x8 : Vec Ideal S1 .f32) :
    out1_9 (F := Ideal) x0 x1 x2 x3 x4 x5 x6 x7 x8 = out0_9 (F := Ideal) x0 x1 x2 x3 x4 x5 x6 x7 x8 := rfl

/-- What the second launch's body leaves in its output block. -/
theorem out1_9_apply (x0 x1 : Vec Ideal S6400x128 .bf16) (x2 x3 : Vec Ideal S128x128 .f32) (x4 : Vec Ideal S128 .f32)
    (x5 : Vec Ideal S128x128 .f32) (x6 : Vec Ideal S128 .f32) (x7 : Vec Ideal S128x1 .f32) (x8 : Vec Ideal S1 .f32) (q : Fin 6400) :
    out1_9 (F := Ideal) x0 x1 x2 x3 x4 x5 x6 x7 x8 (ix2 0 q)
      = Cert.Spec.edgeScore (fun i => x0 (ix2 q i)) (fun i => x1 (ix2 q i)) x2 x3 x4 x5 x6 x7 x8 := by
  rw [out1_9_eq]
  exact out0_9_apply x0 x1 x2 x3 x4 x5 x6 x7 x8 q

end Cert.KernelIdeal.Body

end
-- ==== Proof.KRegion.lean ====
/-
  From the blocks to the arrays, for the kernel's two launches.

  Each launch runs 47 grid points. Point t stages rows 6400 t … 6400 t + 6399 of the two endpoint arrays (300800 rows of
  128) and the seven weight arrays whole, and writes columns 6400 t … 6400 t + 6399 of the one-row result array. The body
  leaves at column q of its block the edge score of row q of the two endpoint blocks; row q of a block at point t is row
  6400 t + q of its array, and the 47 blocks of columns tile the 300800 columns, so column e of the result array ends
  holding the edge score of row e of the endpoint arrays (the point that writes it is e / 6400, the column inside the
  block e % 6400).
-/
import proofs.«406386_j24481313587756_2_alg».proof.Proof.Gen.KernelIdeal.Frame
import proofs.«406386_j24481313587756_2_alg».proof.Proof.Spec
import proofs.«406386_j24481313587756_2_alg».proof.Proof.KBody
import Idealize.ShloMosaic.Lib.ValueIdx
import Idealize.ShloMosaic.Lib.Pipeline.Value

noncomputable section

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-! ## The first launch

Grid point t of 47 stages rows 6400 t … 6400 t + 6399 of the two endpoint arrays and the seven weight arrays whole, and
writes columns 6400 t … 6400 t + 6399 of the one-row result. -/

/-- Where each window's block sits at grid point t: the endpoint blocks at block row t, the weight blocks at the
    origin, the result block at block column t. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = t.val :=
  (by decide +kernel : ∀ t : Fin grid0.N, _)

/-- The edge score of row e of the two endpoint arrays, with the weight arrays, as the first launch finds them. -/
def rowScore0 (c : Dev nD) (e : Fin 300800) : EReal :=
  Cert.Spec.edgeScore (fun i => (V c main_v16 : S300800x128.Idx → EReal) (ix2 e i)) (fun i => (V c main_v17 : S300800x128.Idx → EReal) (ix2 e i))
    (V c main_v18) (V c main_v19) (V c main_arg5) (V c main_arg6) (V c main_arg7) (V c main_arg8) (V c main_arg9)

/-- The first launch's result array as one function of the arrays it reads: column e holds row e's edge score. -/
def scores0 (c : Dev nD) : S1x300800.Idx → EReal := fun i => rowScore0 V c ⟨(i 1).val, idx2_lt1 i⟩

/-- That function at a column named by its number. -/
theorem scores0_at (c : Dev nD) (i : S1x300800.Idx) (r : Fin 300800) (hr : (i 1).val = r.val) :
    scores0 V c i = rowScore0 V c r := by
  unfold scores0
  exact congrArg (rowScore0 V c) (Fin.ext hr)

/-- Row q of the source endpoints' block at point t is row 6400 t + q of their array. -/
theorem srcBlock0_apply (c : Dev nD) (t : Fin cfg0.N) (q : Fin 6400) (k : Fin 128) (r : Fin 300800)
    (hr : r.val = 6400 * t.val + q.val) :
    (iblk0 V c 0 t : Vec Ideal S6400x128 .bf16) (ix2 q k) = (V c main_v16 : S300800x128.Idx → EReal) (ix2 r k) := by
  obtain ⟨e0, e1, -⟩ := blockIndex0 t
  unfold iblk0
  rw [View.read_apply]
  show V c main_v16 (((cfg0.win 0).blk t).view.emb (ix2 q k)) = V c main_v16 (ix2 r k)
  have h : ((cfg0.win 0).blk t).view.emb (ix2 q k) = ix2 r k := by
    funext a; apply Fin.ext
    match a with
    | ⟨0, _⟩ => show win0_0.index t (0 : Fin 2) * 6400 + 1 * q.val = r.val; omega
    | ⟨1, _⟩ => show win0_0.index t (1 : Fin 2) * 128 + 1 * k.val = k.val; omega
  rw [h]

/-- Row q of the target endpoints' block at point t is row 6400 t + q of their array. -/
theorem dstBlock0_apply (c : Dev nD) (t : Fin cfg0.N) (q : Fin 6400) (k : Fin 128) (r : Fin 300800)
    (hr : r.val = 6400 * t.val + q.val) :
    (iblk0 V c 1 t : Vec Ideal S6400x128 .bf16) (ix2 q k) = (V c main_v17 : S300800x128.Idx → EReal) (ix2 r k) := by
  obtain ⟨-, -, e0, e1, -⟩ := blockIndex0 t
  unfold iblk0
  rw [View.read_apply]
  show V c main_v17 (((cfg0.win 1).blk t).view.emb (ix2 q k)) = V c main_v17 (ix2 r k)
  have h : ((cfg0.win 1).blk t).view.emb (ix2 q k) = ix2 r k := by
    funext a; apply Fin.ext
    match a with
    | ⟨0, _⟩ => show win0_1.index t (0 : Fin 2) * 6400 + 1 * q.val = r.val; omega
    | ⟨1, _⟩ => show win0_1.index t (1 : Fin 2) * 128 + 1 * k.val = k.val; omega
  rw [h]

/-- Each weight window's one block is its whole array, at every point. -/
theorem weightBlock0_2 (c : Dev nD) (t : Fin cfg0.N) : (iblk0 V c 2 t : Vec Ideal S128x128 .f32) = V c main_v18 := by
  obtain ⟨-, -, -, -, e0, e1, -⟩ := blockIndex0 t
  funext y
  unfold iblk0
  rw [View.read_apply]
  show V c main_v18 (((cfg0.win 2).blk t).view.emb y) = V c main_v18 y
  have h : ((cfg0.win 2).blk t).view.emb y = y := by
    funext a; apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  rw [h]

theorem weightBlock0_3 (c : Dev nD) (t : Fin cfg0.N) : (iblk0 V c 3 t : Vec Ideal S128x128 .f32) = V c main_v19 := by
  obtain ⟨-, -, -, -, -, -, e0, e1, -⟩ := blockIndex0 t
  funext y
  unfold iblk0
  rw [View.read_apply]
  show V c main_v19 (((cfg0.win 3).blk t).view.emb y) = V c main_v19 y
  have h : ((cfg0.win 3).blk t).view.emb y = y := by
    funext a; apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  rw [h]

theorem weightBlock0_4 (c : Dev nD) (t : Fin cfg0.N) : (iblk0 V c 4 t : Vec Ideal S128 .f32) = V c main_arg5 := by
  obtain ⟨-, -, -, -, -, -, -, -, e0, -⟩ := blockIndex0 t
  funext y
  unfold iblk0
  rw [View.read_apply]
  show V c main_arg5 (((cfg0.win 4).blk t).view.emb y) = V c main_arg5 y
  have h : ((cfg0.win 4).blk t).view.emb y = y := by
    funext a; apply Fin.ext
    match a with
    | ⟨0, _⟩ => show win0_4.index t (0 : Fin 1) * 128 + 1 * (y 0).val = (y 0).val; omega
  rw [h]

theorem weightBlock0_5 (c : Dev nD) (t : Fin cfg0.N) : (iblk0 V c 5 t : Vec Ideal S128x128 .f32) = V c main_arg6 := by
  obtain ⟨-, -, -, -, -, -, -, -, -, e0, e1, -⟩ := blockIndex0 t
  funext y
  unfold iblk0
  rw [View.read_apply]
  show V c main_arg6 (((cfg0.win 5).blk t).view.emb y) = V c main_arg6 y
  have h : ((cfg0.win 5).blk t).view.emb y = y := by
    funext a; apply Fin.ext
    match a with
    | ⟨0, _⟩ => show win0_5.index t (0 : Fin 2) * 128 + 1 * (y 0).val = (y 0).val; omega
    | ⟨1, _⟩ => show win0_5.index t (1 : Fin 2) * 128 + 1 * (y 1).val = (y 1).val; omega
  rw [h]

theorem weightBlock0_6 (c : Dev nD) (t : Fin cfg0.N) : (iblk0 V c 6 t : Vec Ideal S128 .f32) = V c main_arg7 := by
  obtain ⟨-, -, -, -, -, -, -, -, -, -, -, e0, -⟩ := blockIndex0 t
  funext y
  unfold iblk0
  rw [View.read_apply]
  show V c main_arg7 (((cfg0.win 6).blk t).view.emb y) = V c main_arg7 y
  have h : ((cfg0.win 6).blk t).view.emb y = y := by
    funext a; apply Fin.ext
    match a with
    | ⟨0, _⟩ => show win0_6.index t (0 : Fin 1) * 128 + 1 * (y 0).val = (y 0).val; omega
  rw [h]

theorem weightBlock0_7 (c : Dev nD) (t : Fin cfg0.N) : (iblk0 V c 7 t : Vec Ideal S128x1 .f32) = V c main_arg8 := by
  obtain ⟨-, -, -, -, -, -, -, -, -, -, -, -, e0, e1, -⟩ := blockIndex0 t
  funext y
  unfold iblk0
  rw [View.read_apply]
  show V c main_arg8 (((cfg0.win 7).blk t).view.emb y) = V c main_arg8 y
  have h : ((cfg0.win 7).blk t).view.emb y = y := by
    funext a; apply Fin.ext
    match a with
    | ⟨0, _⟩ => show win0_7.index t (0 : Fin 2) * 128 + 1 * (y 0).val = (y 0).val; omega
    | ⟨1, _⟩ => show win0_7.index t (1 : Fin 2) * 1 + 1 * (y 1).val = (y 1).val; omega
  rw [h]

theorem weightBlock0_8 (c : Dev nD) (t : Fin cfg0.N) : (iblk0 V c 8 t : Vec Ideal S1 .f32) = V c main_arg9 := by
  obtain ⟨-, -, -, -, -, -, -, -, -, -, -, -, -, -, e0, -⟩ := blockIndex0 t
  funext y
  unfold iblk0
  rw [View.read_apply]
  show V c main_arg9 (((cfg0.win 8).blk t).view.emb y) = V c main_arg9 y
  have h : ((cfg0.win 8).blk t).view.emb y = y := by
    funext a; apply Fin.ext
    match a with
    | ⟨0, _⟩ => show win0_8.index t (0 : Fin 1) * 1 + 1 * (y 0).val = (y 0).val; omega
  rw [h]

/-- What the body leaves at a column of its one-row result block: the edge score of that row of the two endpoint blocks. -/
theorem out0_column (x0 x1 : Vec Ideal S6400x128 .bf16) (x2 x3 : Vec Ideal S128x128 .f32) (x4 : Vec Ideal S128 .f32)
    (x5 : Vec Ideal S128x128 .f32) (x6 : Vec Ideal S128 .f32) (x7 : Vec Ideal S128x1 .f32) (x8 : Vec Ideal S1 .f32)
    (j : S1x6400.Idx) (q : Fin 6400) (hq : (j 1).val = q.val) :
    out0_9 (F := Ideal) x0 x1 x2 x3 x4 x5 x6 x7 x8 j
      = Cert.Spec.edgeScore (fun i => x0 (ix2 q i)) (fun i => x1 (ix2 q i)) x2 x3 x4 x5 x6 x7 x8 := by
  have hj : j = ix2 0 q := by
    funext a; apply Fin.ext
    match a with
    | ⟨0, _⟩ => have h0 : (j 0).val < 1 := idx2_lt0 j; show (j 0).val = 0; omega
    | ⟨1, _⟩ => exact hq
  rw [hj]
  exact Cert.KernelIdeal.Body.out0_9_apply x0 x1 x2 x3 x4 x5 x6 x7 x8 q

/-- WHAT POINT t WRITES BACK is its block of columns of the score function. -/
theorem flushed0 (c : Dev nD) (t : Fin cfg0.N) :
    (dat0 V c).flushed 9 t = ((cfg0.win 9).blk t).view.read (Elt Ideal) (scores0 V c) := by
  have hN : grid0.N = 47 := N_0
  have ht : t.val < 47 := hN ▸ t.isLt
  obtain ⟨-, -, -, -, -, -, -, -, -, -, -, -, -, -, -, e0, e1⟩ := blockIndex0 t
  show (cfg0.win 9).cut (grid0.coords t) ((dat0 V c).after 9 t) = _
  rw [after0_9]
  funext j
  have hj1 : (j 1).val < 6400 := (j 1).isLt
  show out0_9 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) j
      = scores0 V c (((cfg0.win 9).blk t).view.emb j)
  rw [out0_column (iblk0 V c 0 t) (iblk0 V c 1 t) (iblk0 V c 2 t) (iblk0 V c 3 t) (iblk0 V c 4 t) (iblk0 V c 5 t) (iblk0 V c 6 t) (iblk0 V c 7 t) (iblk0 V c 8 t) j ⟨(j 1).val, hj1⟩ rfl]
  have hcol : ((((cfg0.win 9).blk t).view.emb j) 1).val = 6400 * t.val + (j 1).val := by
    show win0_9.index t (1 : Fin 2) * 6400 + 1 * (j 1).val = _; omega
  rw [scores0_at V c (((cfg0.win 9).blk t).view.emb j) ⟨6400 * t.val + (j 1).val, by omega⟩ hcol]
  unfold rowScore0
  rw [weightBlock0_2 V c t, weightBlock0_3 V c t, weightBlock0_4 V c t, weightBlock0_5 V c t, weightBlock0_6 V c t, weightBlock0_7 V c t, weightBlock0_8 V c t]
  have hs : (fun i : Fin 128 => (iblk0 V c 0 t : Vec Ideal S6400x128 .bf16) (ix2 (⟨(j 1).val, hj1⟩ : Fin 6400) i))
      = fun i => (V c main_v16 : S300800x128.Idx → EReal) (ix2 (⟨6400 * t.val + (j 1).val, by omega⟩ : Fin 300800) i) :=
    funext fun i => srcBlock0_apply V c t ⟨(j 1).val, hj1⟩ i ⟨6400 * t.val + (j 1).val, by omega⟩ rfl
  have hd : (fun i : Fin 128 => (iblk0 V c 1 t : Vec Ideal S6400x128 .bf16) (ix2 (⟨(j 1).val, hj1⟩ : Fin 6400) i))
      = fun i => (V c main_v17 : S300800x128.Idx → EReal) (ix2 (⟨6400 * t.val + (j 1).val, by omega⟩ : Fin 300800) i) :=
    funext fun i => dstBlock0_apply V c t ⟨(j 1).val, hj1⟩ i ⟨6400 * t.val + (j 1).val, by omega⟩ rfl
  rw [hs, hd]

/-- A column of the result array is in point t's block iff each coordinate is in the block's range on its axis. -/
theorem mem_block0 (t : Fin cfg0.N) (i : S1x300800.Idx) :
    i ∈ ((cfg0.win 9).blk t).view.set ↔ ∀ a : Fin 2, win0_9.index t a * S1x6400.size a ≤ (i a).val ∧ (i a).val < win0_9.index t a * S1x6400.size a + S1x6400.size a := by
  show i ∈ ((View.whole main_v20).slice (win0_9.rect t)).set ↔ _
  rw [View.set_slice_whole, Rect.mem_set_unit]
  exact Iff.rfl

/-- Every column e is in the block of point e / 6400. -/
theorem covered0 (i : S1x300800.Idx) :
    ∃ t : Fin cfg0.N, (cfg0.win 9).flush t = true ∧ i ∈ ((cfg0.win 9).blk t).view.set := by
  have hN : grid0.N = 47 := N_0
  have hi0 : (i 0).val < 1 := idx2_lt0 i
  have hi1 : (i 1).val < 300800 := idx2_lt1 i
  have hlt : (i 1).val / 6400 < grid0.N := by rw [hN]; omega
  obtain ⟨-, -, -, -, -, -, -, -, -, -, -, -, -, -, -, e0, e1⟩ := blockIndex0 ⟨(i 1).val / 6400, hlt⟩
  refine ⟨⟨(i 1).val / 6400, hlt⟩, flush0_9 _, ?_⟩
  rw [mem_block0]
  intro a
  match a with
  | ⟨0, _⟩ => show win0_9.index ⟨(i 1).val / 6400, hlt⟩ (0 : Fin 2) * 1 ≤ (i 0).val ∧ (i 0).val < win0_9.index ⟨(i 1).val / 6400, hlt⟩ (0 : Fin 2) * 1 + 1; omega
  | ⟨1, _⟩ => show win0_9.index ⟨(i 1).val / 6400, hlt⟩ (1 : Fin 2) * 6400 ≤ (i 1).val ∧ (i 1).val < win0_9.index ⟨(i 1).val / 6400, hlt⟩ (1 : Fin 2) * 6400 + 6400
              rw [e1]; show (i 1).val / 6400 * 6400 ≤ (i 1).val ∧ (i 1).val < (i 1).val / 6400 * 6400 + 6400; omega

/-- So the result array ends holding the score function. -/
theorem final0 (c : Dev nD) : (dat0 V c).arrAt 9 cfg0.N = scores0 V c :=
  (dat0 V c).arrAt_eq_of_cover 9 (scores0 V c) (fun t _ => flushed0 V c t) covered0

/-- Region 0's result array after its run, at column e: the edge score of row e of the two padded endpoint arrays. -/
theorem arrAt0 (c : Dev nD) (e : Fin 300800) :
    ((dat0 (F := Ideal) V c).arrAt 9 cfg0.N : S1x300800.Idx → EReal) (ix2 0 e)
      = Cert.Spec.edgeScore (fun i => (V c main_v16 : S300800x128.Idx → EReal) (ix2 e i)) (fun i => (V c main_v17 : S300800x128.Idx → EReal) (ix2 e i))
          (V c main_v18) (V c main_v19) (V c main_arg5) (V c main_arg6) (V c main_arg7) (V c main_arg8) (V c main_arg9) := by
  rw [final0 V c]
  exact scores0_at V c (ix2 0 e) e rfl

/-! ## The second launch

Grid point t of 47 stages rows 6400 t … 6400 t + 6399 of the two endpoint arrays and the seven weight arrays whole, and
writes columns 6400 t … 6400 t + 6399 of the one-row result. -/

/-- Where each window's block sits at grid point t: the endpoint blocks at block row t, the weight blocks at the
    origin, the result block at block column t. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = 0 ∧ win1_9.index t (1 : Fin 2) = t.val :=
  (by decide +kernel : ∀ t : Fin grid1.N, _)

/-- The edge score of row e of the two endpoint arrays, with the weight arrays, as the second launch finds them. -/
def rowScore1 (c : Dev nD) (e : Fin 300800) : EReal :=
  Cert.Spec.edgeScore (fun i => (V c main_v23 : S300800x128.Idx → EReal) (ix2 e i)) (fun i => (V c main_v24 : S300800x128.Idx → EReal) (ix2 e i))
    (V c main_v25) (V c main_v26) (V c main_arg11) (V c main_arg12) (V c main_arg13) (V c main_arg14) (V c main_arg15)

/-- The second launch's result array as one function of the arrays it reads: column e holds row e's edge score. -/
def scores1 (c : Dev nD) : S1x300800.Idx → EReal := fun i => rowScore1 V c ⟨(i 1).val, idx2_lt1 i⟩

/-- That function at a column named by its number. -/
theorem scores1_at (c : Dev nD) (i : S1x300800.Idx) (r : Fin 300800) (hr : (i 1).val = r.val) :
    scores1 V c i = rowScore1 V c r := by
  unfold scores1
  exact congrArg (rowScore1 V c) (Fin.ext hr)

/-- Row q of the source endpoints' block at point t is row 6400 t + q of their array. -/
theorem srcBlock1_apply (c : Dev nD) (t : Fin cfg1.N) (q : Fin 6400) (k : Fin 128) (r : Fin 300800)
    (hr : r.val = 6400 * t.val + q.val) :
    (iblk1 V c 0 t : Vec Ideal S6400x128 .bf16) (ix2 q k) = (V c main_v23 : S300800x128.Idx → EReal) (ix2 r k) := by
  obtain ⟨e0, e1, -⟩ := blockIndex1 t
  unfold iblk1
  rw [View.read_apply]
  show V c main_v23 (((cfg1.win 0).blk t).view.emb (ix2 q k)) = V c main_v23 (ix2 r k)
  have h : ((cfg1.win 0).blk t).view.emb (ix2 q k) = ix2 r k := by
    funext a; apply Fin.ext
    match a with
    | ⟨0, _⟩ => show win1_0.index t (0 : Fin 2) * 6400 + 1 * q.val = r.val; omega
    | ⟨1, _⟩ => show win1_0.index t (1 : Fin 2) * 128 + 1 * k.val = k.val; omega
  rw [h]

/-- Row q of the target endpoints' block at point t is row 6400 t + q of their array. -/
theorem dstBlock1_apply (c : Dev nD) (t : Fin cfg1.N) (q : Fin 6400) (k : Fin 128) (r : Fin 300800)
    (hr : r.val = 6400 * t.val + q.val) :
    (iblk1 V c 1 t : Vec Ideal S6400x128 .bf16) (ix2 q k) = (V c main_v24 : S300800x128.Idx → EReal) (ix2 r k) := by
  obtain ⟨-, -, e0, e1, -⟩ := blockIndex1 t
  unfold iblk1
  rw [View.read_apply]
  show V c main_v24 (((cfg1.win 1).blk t).view.emb (ix2 q k)) = V c main_v24 (ix2 r k)
  have h : ((cfg1.win 1).blk t).view.emb (ix2 q k) = ix2 r k := by
    funext a; apply Fin.ext
    match a with
    | ⟨0, _⟩ => show win1_1.index t (0 : Fin 2) * 6400 + 1 * q.val = r.val; omega
    | ⟨1, _⟩ => show win1_1.index t (1 : Fin 2) * 128 + 1 * k.val = k.val; omega
  rw [h]

/-- Each weight window's one block is its whole array, at every point. -/
theorem weightBlock1_2 (c : Dev nD) (t : Fin cfg1.N) : (iblk1 V c 2 t : Vec Ideal S128x128 .f32) = V c main_v25 := by
  obtain ⟨-, -, -, -, e0, e1, -⟩ := blockIndex1 t
  funext y
  unfold iblk1
  rw [View.read_apply]
  show V c main_v25 (((cfg1.win 2).blk t).view.emb y) = V c main_v25 y
  have h : ((cfg1.win 2).blk t).view.emb y = y := by
    funext a; apply Fin.ext
    match a with
    | ⟨0, _⟩ => show win1_2.index t (0 : Fin 2) * 128 + 1 * (y 0).val = (y 0).val; omega
    | ⟨1, _⟩ => show win1_2.index t (1 : Fin 2) * 128 + 1 * (y 1).val = (y 1).val; omega
  rw [h]

theorem weightBlock1_3 (c : Dev nD) (t : Fin cfg1.N) : (iblk1 V c 3 t : Vec Ideal S128x128 .f32) = V c main_v26 := by
  obtain ⟨-, -, -, -, -, -, e0, e1, -⟩ := blockIndex1 t
  funext y
  unfold iblk1
  rw [View.read_apply]
  show V c main_v26 (((cfg1.win 3).blk t).view.emb y) = V c main_v26 y
  have h : ((cfg1.win 3).blk t).view.emb y = y := by
    funext a; apply Fin.ext
    match a with
    | ⟨0, _⟩ => show win1_3.index t (0 : Fin 2) * 128 + 1 * (y 0).val = (y 0).val; omega
    | ⟨1, _⟩ => show win1_3.index t (1 : Fin 2) * 128 + 1 * (y 1).val = (y 1).val; omega
  rw [h]

theorem weightBlock1_4 (c : Dev nD) (t : Fin cfg1.N) : (iblk1 V c 4 t : Vec Ideal S128 .f32) = V c main_arg11 := by
  obtain ⟨-, -, -, -, -, -, -, -, e0, -⟩ := blockIndex1 t
  funext y
  unfold iblk1
  rw [View.read_apply]
  show V c main_arg11 (((cfg1.win 4).blk t).view.emb y) = V c main_arg11 y
  have h : ((cfg1.win 4).blk t).view.emb y = y := by
    funext a; apply Fin.ext
    match a with
    | ⟨0, _⟩ => show win1_4.index t (0 : Fin 1) * 128 + 1 * (y 0).val = (y 0).val; omega
  rw [h]

theorem weightBlock1_5 (c : Dev nD) (t : Fin cfg1.N) : (iblk1 V c 5 t : Vec Ideal S128x128 .f32) = V c main_arg12 := by
  obtain ⟨-, -, -, -, -, -, -, -, -, e0, e1, -⟩ := blockIndex1 t
  funext y
  unfold iblk1
  rw [View.read_apply]
  show V c main_arg12 (((cfg1.win 5).blk t).view.emb y) = V c main_arg12 y
  have h : ((cfg1.win 5).blk t).view.emb y = y := by
    funext a; apply Fin.ext
    match a with
    | ⟨0, _⟩ => show win1_5.index t (0 : Fin 2) * 128 + 1 * (y 0).val = (y 0).val; omega
    | ⟨1, _⟩ => show win1_5.index t (1 : Fin 2) * 128 + 1 * (y 1).val = (y 1).val; omega
  rw [h]

theorem weightBlock1_6 (c : Dev nD) (t : Fin cfg1.N) : (iblk1 V c 6 t : Vec Ideal S128 .f32) = V c main_arg13 := by
  obtain ⟨-, -, -, -, -, -, -, -, -, -, -, e0, -⟩ := blockIndex1 t
  funext y
  unfold iblk1
  rw [View.read_apply]
  show V c main_arg13 (((cfg1.win 6).blk t).view.emb y) = V c main_arg13 y
  have h : ((cfg1.win 6).blk t).view.emb y = y := by
    funext a; apply Fin.ext
    match a with
    | ⟨0, _⟩ => show win1_6.index t (0 : Fin 1) * 128 + 1 * (y 0).val = (y 0).val; omega
  rw [h]

theorem weightBlock1_7 (c : Dev nD) (t : Fin cfg1.N) : (iblk1 V c 7 t : Vec Ideal S128x1 .f32) = V c main_arg14 := by
  obtain ⟨-, -, -, -, -, -, -, -, -, -, -, -, e0, e1, -⟩ := blockIndex1 t
  funext y
  unfold iblk1
  rw [View.read_apply]
  show V c main_arg14 (((cfg1.win 7).blk t).view.emb y) = V c main_arg14 y
  have h : ((cfg1.win 7).blk t).view.emb y = y := by
    funext a; apply Fin.ext
    match a with
    | ⟨0, _⟩ => show win1_7.index t (0 : Fin 2) * 128 + 1 * (y 0).val = (y 0).val; omega
    | ⟨1, _⟩ => show win1_7.index t (1 : Fin 2) * 1 + 1 * (y 1).val = (y 1).val; omega
  rw [h]

theorem weightBlock1_8 (c : Dev nD) (t : Fin cfg1.N) : (iblk1 V c 8 t : Vec Ideal S1 .f32) = V c main_arg15 := by
  obtain ⟨-, -, -, -, -, -, -, -, -, -, -, -, -, -, e0, -⟩ := blockIndex1 t
  funext y
  unfold iblk1
  rw [View.read_apply]
  show V c main_arg15 (((cfg1.win 8).blk t).view.emb y) = V c main_arg15 y
  have h : ((cfg1.win 8).blk t).view.emb y = y := by
    funext a; apply Fin.ext
    match a with
    | ⟨0, _⟩ => show win1_8.index t (0 : Fin 1) * 1 + 1 * (y 0).val = (y 0).val; omega
  rw [h]

/-- What the body leaves at a column of its one-row result block: the edge score of that row of the two endpoint blocks. -/
theorem out1_column (x0 x1 : Vec Ideal S6400x128 .bf16) (x2 x3 : Vec Ideal S128x128 .f32) (x4 : Vec Ideal S128 .f32)
    (x5 : Vec Ideal S128x128 .f32) (x6 : Vec Ideal S128 .f32) (x7 : Vec Ideal S128x1 .f32) (x8 : Vec Ideal S1 .f32)
    (j : S1x6400.Idx) (q : Fin 6400) (hq : (j 1).val = q.val) :
    out1_9 (F := Ideal) x0 x1 x2 x3 x4 x5 x6 x7 x8 j
      = Cert.Spec.edgeScore (fun i => x0 (ix2 q i)) (fun i => x1 (ix2 q i)) x2 x3 x4 x5 x6 x7 x8 := by
  have hj : j = ix2 0 q := by
    funext a; apply Fin.ext
    match a with
    | ⟨0, _⟩ => have h0 : (j 0).val < 1 := idx2_lt0 j; show (j 0).val = 0; omega
    | ⟨1, _⟩ => exact hq
  rw [hj]
  exact Cert.KernelIdeal.Body.out1_9_apply x0 x1 x2 x3 x4 x5 x6 x7 x8 q

/-- WHAT POINT t WRITES BACK is its block of columns of the score function. -/
theorem flushed1 (c : Dev nD) (t : Fin cfg1.N) :
    (dat1 V c).flushed 9 t = ((cfg1.win 9).blk t).view.read (Elt Ideal) (scores1 V c) := by
  have hN : grid1.N = 47 := N_1
  have ht : t.val < 47 := hN ▸ t.isLt
  obtain ⟨-, -, -, -, -, -, -, -, -, -, -, -, -, -, -, e0, e1⟩ := blockIndex1 t
  show (cfg1.win 9).cut (grid1.coords t) ((dat1 V c).after 9 t) = _
  rw [after1_9]
  funext j
  have hj1 : (j 1).val < 6400 := (j 1).isLt
  show out1_9 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) j
      = scores1 V c (((cfg1.win 9).blk t).view.emb j)
  rw [out1_column (iblk1 V c 0 t) (iblk1 V c 1 t) (iblk1 V c 2 t) (iblk1 V c 3 t) (iblk1 V c 4 t) (iblk1 V c 5 t) (iblk1 V c 6 t) (iblk1 V c 7 t) (iblk1 V c 8 t) j ⟨(j 1).val, hj1⟩ rfl]
  have hcol : ((((cfg1.win 9).blk t).view.emb j) 1).val = 6400 * t.val + (j 1).val := by
    show win1_9.index t (1 : Fin 2) * 6400 + 1 * (j 1).val = _; omega
  rw [scores1_at V c (((cfg1.win 9).blk t).view.emb j) ⟨6400 * t.val + (j 1).val, by omega⟩ hcol]
  unfold rowScore1
  rw [weightBlock1_2 V c t, weightBlock1_3 V c t, weightBlock1_4 V c t, weightBlock1_5 V c t, weightBlock1_6 V c t, weightBlock1_7 V c t, weightBlock1_8 V c t]
  have hs : (fun i : Fin 128 => (iblk1 V c 0 t : Vec Ideal S6400x128 .bf16) (ix2 (⟨(j 1).val, hj1⟩ : Fin 6400) i))
      = fun i => (V c main_v23 : S300800x128.Idx → EReal) (ix2 (⟨6400 * t.val + (j 1).val, by omega⟩ : Fin 300800) i) :=
    funext fun i => srcBlock1_apply V c t ⟨(j 1).val, hj1⟩ i ⟨6400 * t.val + (j 1).val, by omega⟩ rfl
  have hd : (fun i : Fin 128 => (iblk1 V c 1 t : Vec Ideal S6400x128 .bf16) (ix2 (⟨(j 1).val, hj1⟩ : Fin 6400) i))
      = fun i => (V c main_v24 : S300800x128.Idx → EReal) (ix2 (⟨6400 * t.val + (j 1).val, by omega⟩ : Fin 300800) i) :=
    funext fun i => dstBlock1_apply V c t ⟨(j 1).val, hj1⟩ i ⟨6400 * t.val + (j 1).val, by omega⟩ rfl
  rw [hs, hd]

/-- A column of the result array is in point t's block iff each coordinate is in the block's range on its axis. -/
theorem mem_block1 (t : Fin cfg1.N) (i : S1x300800.Idx) :
    i ∈ ((cfg1.win 9).blk t).view.set ↔ ∀ a : Fin 2, win1_9.index t a * S1x6400.size a ≤ (i a).val ∧ (i a).val < win1_9.index t a * S1x6400.size a + S1x6400.size a := by
  show i ∈ ((View.whole main_v27).slice (win1_9.rect t)).set ↔ _
  rw [View.set_slice_whole, Rect.mem_set_unit]
  exact Iff.rfl

/-- Every column e is in the block of point e / 6400. -/
theorem covered1 (i : S1x300800.Idx) :
    ∃ t : Fin cfg1.N, (cfg1.win 9).flush t = true ∧ i ∈ ((cfg1.win 9).blk t).view.set := by
  have hN : grid1.N = 47 := N_1
  have hi0 : (i 0).val < 1 := idx2_lt0 i
  have hi1 : (i 1).val < 300800 := idx2_lt1 i
  have hlt : (i 1).val / 6400 < grid1.N := by rw [hN]; omega
  obtain ⟨-, -, -, -, -, -, -, -, -, -, -, -, -, -, -, e0, e1⟩ := blockIndex1 ⟨(i 1).val / 6400, hlt⟩
  refine ⟨⟨(i 1).val / 6400, hlt⟩, flush1_9 _, ?_⟩
  rw [mem_block1]
  intro a
  match a with
  | ⟨0, _⟩ => show win1_9.index ⟨(i 1).val / 6400, hlt⟩ (0 : Fin 2) * 1 ≤ (i 0).val ∧ (i 0).val < win1_9.index ⟨(i 1).val / 6400, hlt⟩ (0 : Fin 2) * 1 + 1; omega
  | ⟨1, _⟩ => show win1_9.index ⟨(i 1).val / 6400, hlt⟩ (1 : Fin 2) * 6400 ≤ (i 1).val ∧ (i 1).val < win1_9.index ⟨(i 1).val / 6400, hlt⟩ (1 : Fin 2) * 6400 + 6400
              rw [e1]; show (i 1).val / 6400 * 6400 ≤ (i 1).val ∧ (i 1).val < (i 1).val / 6400 * 6400 + 6400; omega

/-- So the result array ends holding the score function. -/
theorem final1 (c : Dev nD) : (dat1 V c).arrAt 9 cfg1.N = scores1 V c :=
  (dat1 V c).arrAt_eq_of_cover 9 (scores1 V c) (fun t _ => flushed1 V c t) covered1

/-- Region 1's result array after its run, at column e. -/
theorem arrAt1 (c : Dev nD) (e : Fin 300800) :
    ((dat1 (F := Ideal) V c).arrAt 9 cfg1.N : S1x300800.Idx → EReal) (ix2 0 e)
      = Cert.Spec.edgeScore (fun i => (V c main_v23 : S300800x128.Idx → EReal) (ix2 e i)) (fun i => (V c main_v24 : S300800x128.Idx → EReal) (ix2 e i))
          (V c main_v25) (V c main_v26) (V c main_arg11) (V c main_arg12) (V c main_arg13) (V c main_arg14) (V c main_arg15) := by
  rw [final1 V c]
  exact scores1_at V c (ix2 0 e) e rfl

end Cert.KernelIdeal.Region

end
-- ==== Proof.KGather.lean ====
/-
  The four gathered endpoint arrays on the kernel's host side.

  Before its first launch the kernel program takes, four times, whole rows of a [100000, 128] table by a row of the
  [2, 300000] edge index array: each word w of the row is read as w + 100000 when negative, the table row of that number
  is fetched, and a row whose number fell outside [0, 99999] would be filled with a NaN instead. With every index word
  in [-100000, 100000) the wrapped number is always in [0, 99999], so the fill never applies and the array is exactly
  the table's rows named by the wrapped words: Cert.Spec.takeRows.
-/
import proofs.«406386_j24481313587756_2_alg».proof.Proof.Gen.KernelIdeal.Frame
import proofs.«406386_j24481313587756_2_alg».proof.Proof.Spec
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.Gather

open Cert.KernelIdeal Cert.KernelIdeal.Gen Idealize.ShloMosaic Idealize.ShloMosaic.TcCoe Idealize.SL.Sem Idealize.ShloMosaic.ValueIdx

/-! ## The host's take as one function of the table and the index vector -/

/-- The index vector with each negative word moved up by 100000, as a column. -/
def wrapCol (idx : IVec S300000 32) : IVec S300000x1 32 :=
  broadcastInDim S300000x1 ![0] Facts₀.bcast_S300000_S300000x1_0
    (select (cmpi .slt idx (broadcastInDim S300000 ![] Facts₀.bcast_S_S300000 (constantI S_ 32 0#32)))
      (addi idx (broadcastInDim S300000 ![] Facts₀.bcast_S_S300000 (constantI S_ 32 100000#32))) idx)

/-- Per row: are all its words (one) within [0, 99999]. -/
def inb (col : IVec S300000x1 32) : IVec S300000 1 :=
  Host.reduce IntOp.andi
    (andi (cmpi .sge col (broadcastInDim S300000x1 ![] Facts₀.bcast_S_S300000x1 (constantI S_ 32 0#32)))
          (cmpi .sle col (broadcastInDim S300000x1 ![0, 1] Facts₀.bcast_S1x1_S300000x1_0_1
              (broadcastInDim S1x1 ![1] Facts₀.bcast_S1_S1x1_1 (constantI S1 32 99999#32)))))
    (constantI S_ 1 1#1) Facts₀.reducesTo_S300000x1_S300000_d1 Facts₀.h_S_

/-- The host's take: the gathered rows where the row number is in bounds, a NaN elsewhere. -/
def hostTake (tbl : FVec Ideal S100000x128 .f32) (idx : IVec S300000 32) : FVec Ideal S300000x128 .f32 :=
  select (broadcastInDim S300000x128 ![0] Facts₀.bcast_S300000_S300000x128_0 (inb (wrapCol idx)))
    (Host.gather gather_S100000x128_S300000x1_S300000x128_1_0_n_n_0_1_1128 tbl (wrapCol idx))
    (broadcastInDim S300000x128 ![] Facts₀.bcast_S_S300000x128 (constant (F := Ideal) S_ .f32 0x7FC00000#32))

/-- Row r of the [2, 300000] index array as a vector of 300000 words. -/
def rowVec (r : Nat) (hs : S2x300000.Slices ![r, 0] S1x300000) (ei : IVec S2x300000 32) : IVec S300000 32 :=
  shapeCast S300000 (extractStridedSlice S1x300000 ![r, 0] ei hs) Facts₀.shapeCasts_S1x300000_S300000

/-! ## Words -/

/-- A signed word in [-100000, 100000) is, unsigned, below 100000 (and not negative) or within 100000 of 2^32 (and negative). -/
theorem range_toNat (w : BitVec 32) (hlo : IntOp.cmpi .sge w 4294867296#32 = 1#1)
    (hhi : IntOp.cmpi .slt w 100000#32 = 1#1) :
    (w.toNat < 100000 ∧ w.slt 0#32 = false) ∨ (4294867296 ≤ w.toNat ∧ w.slt 0#32 = true) := by
  unfold IntOp.cmpi at hlo hhi
  rw [StableHlo.Predicate.ofBool_eq_one_iff] at hlo hhi
  have h32 := w.isLt
  simp only [BitVec.slt, BitVec.sle, decide_eq_true_eq, BitVec.toInt_eq_toNat_cond, BitVec.toNat_ofNat] at hlo hhi ⊢
  norm_num at hlo hhi ⊢
  split at hhi <;> omega

/-- Such a word, a negative one moved up by 100000, is a row number below 100000. -/
theorem wrap_toNat (w : BitVec 32) (hlo : IntOp.cmpi .sge w 4294867296#32 = 1#1)
    (hhi : IntOp.cmpi .slt w 100000#32 = 1#1) : (Cert.Spec.wrapWord w).toNat < 100000 := by
  unfold Cert.Spec.wrapWord IntOp.cmpi IntOp.addi Scalar.select
  have h32 := w.isLt
  rcases range_toNat w hlo hhi with ⟨h, e⟩ | ⟨h, e⟩
  · rw [e]; simpa using h
  · rw [e]; simp only [BitVec.ofBool_true, if_true]; rw [BitVec.toNat_add]; simp only [BitVec.toNat_ofNat]; omega

/-- So both bound tests of the wrapped word hold. -/
theorem wrap_inb (w : BitVec 32) (hlo : IntOp.cmpi .sge w 4294867296#32 = 1#1)
    (hhi : IntOp.cmpi .slt w 100000#32 = 1#1) :
    IntOp.andi (IntOp.cmpi .sge (Cert.Spec.wrapWord w) 0#32) (IntOp.cmpi .sle (Cert.Spec.wrapWord w) 99999#32) = 1#1 := by
  have h := wrap_toNat w hlo hhi
  have h1 : IntOp.cmpi .sge (Cert.Spec.wrapWord w) 0#32 = 1#1 :=
    (StableHlo.Predicate.sge_iff_toNat (by omega) (by decide)).mpr (Nat.zero_le _)
  have h2 : IntOp.cmpi .sle (Cert.Spec.wrapWord w) 99999#32 = 1#1 :=
    (StableHlo.Predicate.sle_iff_toNat (by omega) (by decide)).mpr (by
      show (Cert.Spec.wrapWord w).toNat ≤ 99999; omega)
  rw [h1, h2]; rfl

/-- A conjunction ('and' from one) over any family of indices of an array that is one everywhere is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  generalize ((List.finRange s.numel).filter fun n => h.drop (s.rowMajor.symm n) = j) = l
  induction l with
  | nil => rfl
  | cons n l ih => rw [List.foldl_cons, hx]; exact ih

/-! ## The index column, the bounds test, the fill -/

/-- Entry e of row r of the index array is the array's entry (r, e). -/
theorem rowVec_apply (r : Nat) (hr : r < 2) (hs : S2x300000.Slices ![r, 0] S1x300000) (ei : IVec S2x300000 32) (e : Fin 300000) :
    rowVec r hs ei (ix1 e) = ei (ix2 ⟨r, hr⟩ e) := by
  unfold rowVec
  rw [shapeCast_apply _ _ (ix1 e) (ix2 (0 : Fin 1) e) (by
    rw [Shape.rowMajor_val_two, Shape.rowMajor_val_one]; show 0 * 300000 + e.val = e.val; omega)]
  exact extractStridedSlice_apply _ _ _ _ _ (fun a => match a with
    | ⟨0, _⟩ => by show r = r + 0; omega
    | ⟨1, _⟩ => by show e.val = 0 + e.val; omega)

/-- The wrapped index column at a row is that row's word, wrapped. -/
theorem wrapCol_apply (idx : IVec S300000 32) (p : S300000x1.Idx) :
    wrapCol idx p = Cert.Spec.wrapWord (idx (ix1 (p 0))) := by
  unfold wrapCol
  refine (broadcastInDim_apply _ _ _ p (ix1 (p 0)) (fun a => match a with
    | ⟨0, _⟩ => by
      split
      · next h1 => change 300000 = 1 at h1; omega
      · rfl)).trans ?_
  rfl

/-- With every word of the vector in range, every row passes the bounds test. -/
theorem inb_wrapCol (idx : IVec S300000 32)
    (h : ∀ e, IntOp.cmpi .sge (idx e) 4294867296#32 = 1#1 ∧ IntOp.cmpi .slt (idx e) 100000#32 = 1#1) (j : S300000.Idx) :
    inb (wrapCol idx) j = 1#1 := by
  unfold inb
  refine reduce_andi_ones _ _ _ _ (fun i => ?_) rfl j
  show IntOp.andi (IntOp.cmpi .sge (wrapCol idx i) 0#32) (IntOp.cmpi .sle (wrapCol idx i) 99999#32) = 1#1
  rw [wrapCol_apply]
  exact wrap_inb _ (h _).1 (h _).2

/-- The printed gather record is the take's: the same dimension numbers and slice sizes. -/
theorem dims_eq : gather_S100000x128_S300000x1_S300000x128_1_0_n_n_0_1_1128 = Cert.Spec.takeDims := rfl

/-- So the host's take is the gather at the wrapped column: the fill never applies. -/
theorem hostTake_eq (tbl : FVec Ideal S100000x128 .f32) (idx : IVec S300000 32)
    (h : ∀ e, IntOp.cmpi .sge (idx e) 4294867296#32 = 1#1 ∧ IntOp.cmpi .slt (idx e) 100000#32 = 1#1) :
    hostTake tbl idx = Host.gather Cert.Spec.takeDims tbl (fun p => Cert.Spec.wrapWord (idx (ix1 (p 0)))) := by
  have hm : inb (wrapCol idx) = fun _ => 1#1 := funext (inb_wrapCol idx h)
  have hc : wrapCol idx = fun p => Cert.Spec.wrapWord (idx (ix1 (p 0))) := funext (wrapCol_apply idx)
  unfold hostTake
  rw [hm, hc, dims_eq]
  funext j
  rw [select_apply]
  exact select_one _ _

/-- The host's take by row r of an index array whose every word is in range: the table's rows named by that row. -/
theorem take_row (tbl : FVec Ideal S100000x128 .f32) (ei : IVec S2x300000 32) (r : Nat) (hr : r < 2)
    (hs : S2x300000.Slices ![r, 0] S1x300000) (h : Cert.Spec.InRange ei) :
    hostTake tbl (rowVec r hs ei) = Cert.Spec.takeRows tbl ei ⟨r, hr⟩ := by
  rw [hostTake_eq tbl (rowVec r hs ei) (fun e => by
    obtain ⟨q, rfl⟩ : ∃ q : Fin 300000, e = ix1 q := ⟨e 0, eq_ix1 e⟩
    rw [rowVec_apply r hr hs ei q]; exact h _)]
  exact congrArg (Host.gather Cert.Spec.takeDims tbl)
    (funext fun p => congrArg Cert.Spec.wrapWord (rowVec_apply r hr hs ei (p 0)))

/-! ## Each stretch of host operations, at any contents before it

A row of the index array is cut out and flattened; the 23 operations of the take compute hostTake of a table and that
vector; the conversion to the narrower float type is the identity on extended reals. -/

/-- The take's stretch: the operations' composed value, its transports between equal buffer types removed, is hostTake. -/
local macro "take_stage" : tactic =>
  `(tactic| (after_results_simp; simp only [cast_cast, cast_eq]; unfold hostTake inb wrapCol; rfl))

theorem slice0 (V : Valuation τ sig (Elt Ideal)) :
    (StableHlo.after hostOps0 V (Proc.devRef .tc main_v1) : IVec S300000 32)
      = rowVec 0 Facts₀.slices_S2x300000_S1x300000_0_0 (V (Proc.devRef .tc main_arg2)) := by
  after_results
  rfl

set_option maxRecDepth 16384 in
theorem stage1 (V : Valuation τ sig (Elt Ideal)) :
    (StableHlo.after hostOps0_1 V (Proc.devRef .tc main_v2) : S300000x128.Idx → EReal)
      = hostTake (V (Proc.devRef .tc main_arg0)) (V (Proc.devRef .tc main_v1)) := by
  take_stage

theorem conv3 (V : Valuation τ sig (Elt Ideal)) :
    (StableHlo.after hostOps0_2 V (Proc.devRef .tc main_v3) : S300000x128.Idx → EReal) = V (Proc.devRef .tc main_v2) := by
  after_results
  rfl

theorem slice1 (V : Valuation τ sig (Elt Ideal)) :
    (StableHlo.after hostOps0_2 V (Proc.devRef .tc main_v5) : IVec S300000 32)
      = rowVec 1 Facts₀.slices_S2x300000_S1x300000_1_0 (V (Proc.devRef .tc main_arg2)) := by
  after_results
  rfl

set_option maxRecDepth 16384 in
theorem stage3 (V : Valuation τ sig (Elt Ideal)) :
    (StableHlo.after hostOps0_3 V (Proc.devRef .tc main_v6) : S300000x128.Idx → EReal)
      = hostTake (V (Proc.devRef .tc main_arg1)) (V (Proc.devRef .tc main_v5)) := by
  take_stage

theorem conv7 (V : Valuation τ sig (Elt Ideal)) :
    (StableHlo.after hostOps0_4 V (Proc.devRef .tc main_v7) : S300000x128.Idx → EReal) = V (Proc.devRef .tc main_v6) := by
  after_results
  rfl

theorem slice2 (V : Valuation τ sig (Elt Ideal)) :
    (StableHlo.after hostOps0_4 V (Proc.devRef .tc main_v9) : IVec S300000 32)
      = rowVec 0 Facts₀.slices_S2x300000_S1x300000_0_0 (V (Proc.devRef .tc main_arg3)) := by
  after_results
  rfl

set_option maxRecDepth 16384 in
theorem stage5 (V : Valuation τ sig (Elt Ideal)) :
    (StableHlo.after hostOps0_5 V (Proc.devRef .tc main_v10) : S300000x128.Idx → EReal)
      = hostTake (V (Proc.devRef .tc main_arg1)) (V (Proc.devRef .tc main_v9)) := by
  take_stage

theorem conv11 (V : Valuation τ sig (Elt Ideal)) :
    (StableHlo.after hostOps0_6 V (Proc.devRef .tc main_v11) : S300000x128.Idx → EReal) = V (Proc.devRef .tc main_v10) := by
  after_results
  rfl

theorem slice3 (V : Valuation τ sig (Elt Ideal)) :
    (StableHlo.after hostOps0_6 V (Proc.devRef .tc main_v13) : IVec S300000 32)
      = rowVec 1 Facts₀.slices_S2x300000_S1x300000_1_0 (V (Proc.devRef .tc main_arg3)) := by
  after_results
  rfl

set_option maxRecDepth 16384 in
theorem stage7 (V : Valuation τ sig (Elt Ideal)) :
    (StableHlo.after hostOps0_7 V (Proc.devRef .tc main_v14) : S300000x128.Idx → EReal)
      = hostTake (V (Proc.devRef .tc main_arg0)) (V (Proc.devRef .tc main_v13)) := by
  take_stage

theorem conv15 (V : Valuation τ sig (Elt Ideal)) :
    (StableHlo.after hostOps0_8 V (Proc.devRef .tc main_v15) : S300000x128.Idx → EReal) = V (Proc.devRef .tc main_v14) := by
  after_results
  rfl

/-! ## Reading a buffer back through the stretches that do not write it -/

/-- One stretch back: none of its operations writes the buffer read. -/
local macro "skip_stretch" : tactic => `(tactic|
  exact StableHlo.after_of_forall_not_mem _ _ (List.forall_iff_forall_mem.mp (by
    simp only [hostOps0, hostOps0_1, hostOps0_2, hostOps0_3, hostOps0_4, hostOps0_5, hostOps0_6, hostOps0_7, hostOps0_8,
      hostOps0_9, hostOps0_10, hostOps0_11, hostOps0_12, List.Forall, StableHlo.nullary_writes, StableHlo.unary_writes,
      StableHlo.binary_writes, StableHlo.ternary_writes, StableHlo.reshape_writes, Finset.mem_singleton]
    repeat' apply And.intro
    all_goals exact StableHlo.devRef_ne_of_ne (by decide))))

variable (m : (ℓ : Loc nD τ sig) → Buf (Elt Ideal) ℓ) (ρ : Dev nD → PrngReg)

theorem back_v3 (c : Dev nD) : (W13 m ρ c (Proc.devRef .tc main_v3) : S300000x128.Idx → EReal) = W3 m ρ c (Proc.devRef .tc main_v3) :=
  calc (W13 m ρ c (Proc.devRef .tc main_v3) : S300000x128.Idx → EReal)
    _ = W12 m ρ c (Proc.devRef .tc main_v3) := by skip_stretch
    _ = W11 m ρ c (Proc.devRef .tc main_v3) := by skip_stretch
    _ = W10 m ρ c (Proc.devRef .tc main_v3) := by skip_stretch
    _ = W9 m ρ c (Proc.devRef .tc main_v3) := by skip_stretch
    _ = W8 m ρ c (Proc.devRef .tc main_v3) := by skip_stretch
    _ = W7 m ρ c (Proc.devRef .tc main_v3) := by skip_stretch
    _ = W6 m ρ c (Proc.devRef .tc main_v3) := by skip_stretch
    _ = W5 m ρ c (Proc.devRef .tc main_v3) := by skip_stretch
    _ = W4 m ρ c (Proc.devRef .tc main_v3) := by skip_stretch
    _ = W3 m ρ c (Proc.devRef .tc main_v3) := by skip_stretch

theorem back_v7 (c : Dev nD) : (W13 m ρ c (Proc.devRef .tc main_v7) : S300000x128.Idx → EReal) = W5 m ρ c (Proc.devRef .tc main_v7) :=
  calc (W13 m ρ c (Proc.devRef .tc main_v7) : S300000x128.Idx → EReal)
    _ = W12 m ρ c (Proc.devRef .tc main_v7) := by skip_stretch
    _ = W11 m ρ c (Proc.devRef .tc main_v7) := by skip_stretch
    _ = W10 m ρ c (Proc.devRef .tc main_v7) := by skip_stretch
    _ = W9 m ρ c (Proc.devRef .tc main_v7) := by skip_stretch
    _ = W8 m ρ c (Proc.devRef .tc main_v7) := by skip_stretch
    _ = W7 m ρ c (Proc.devRef .tc main_v7) := by skip_stretch
    _ = W6 m ρ c (Proc.devRef .tc main_v7) := by skip_stretch
    _ = W5 m ρ c (Proc.devRef .tc main_v7) := by skip_stretch

theorem back_v11 (c : Dev nD) : (W13 m ρ c (Proc.devRef .tc main_v11) : S300000x128.Idx → EReal) = W7 m ρ c (Proc.devRef .tc main_v11) :=
  calc (W13 m ρ c (Proc.devRef .tc main_v11) : S300000x128.Idx → EReal)
    _ = W12 m ρ c (Proc.devRef .tc main_v11) := by skip_stretch
    _ = W11 m ρ c (Proc.devRef .tc main_v11) := by skip_stretch
    _ = W10 m ρ c (Proc.devRef .tc main_v11) := by skip_stretch
    _ = W9 m ρ c (Proc.devRef .tc main_v11) := by skip_stretch
    _ = W8 m ρ c (Proc.devRef .tc main_v11) := by skip_stretch
    _ = W7 m ρ c (Proc.devRef .tc main_v11) := by skip_stretch

theorem back_v15 (c : Dev nD) : (W13 m ρ c (Proc.devRef .tc main_v15) : S300000x128.Idx → EReal) = W9 m ρ c (Proc.devRef .tc main_v15) :=
  calc (W13 m ρ c (Proc.devRef .tc main_v15) : S300000x128.Idx → EReal)
    _ = W12 m ρ c (Proc.devRef .tc main_v15) := by skip_stretch
    _ = W11 m ρ c (Proc.devRef .tc main_v15) := by skip_stretch
    _ = W10 m ρ c (Proc.devRef .tc main_v15) := by skip_stretch
    _ = W9 m ρ c (Proc.devRef .tc main_v15) := by skip_stretch

theorem W1_arg0 (c : Dev nD) : (W1 m ρ c (Proc.devRef .tc main_arg0) : S100000x128.Idx → EReal) = m ((c : Thread nD τ).loc main_arg0) :=
  calc (W1 m ρ c (Proc.devRef .tc main_arg0) : S100000x128.Idx → EReal)
    _ = W0 m ρ c (Proc.devRef .tc main_arg0) := by skip_stretch
    _ = m ((c : Thread nD τ).loc main_arg0) := rfl

theorem W7_arg0 (c : Dev nD) : (W7 m ρ c (Proc.devRef .tc main_arg0) : S100000x128.Idx → EReal) = W1 m ρ c (Proc.devRef .tc main_arg0) :=
  calc (W7 m ρ c (Proc.devRef .tc main_arg0) : S100000x128.Idx → EReal)
    _ = W6 m ρ c (Proc.devRef .tc main_arg0) := by skip_stretch
    _ = W5 m ρ c (Proc.devRef .tc main_arg0) := by skip_stretch
    _ = W4 m ρ c (Proc.devRef .tc main_arg0) := by skip_stretch
    _ = W3 m ρ c (Proc.devRef .tc main_arg0) := by skip_stretch
    _ = W2 m ρ c (Proc.devRef .tc main_arg0) := by skip_stretch
    _ = W1 m ρ c (Proc.devRef .tc main_arg0) := by skip_stretch

theorem W3_arg1 (c : Dev nD) : (W3 m ρ c (Proc.devRef .tc main_arg1) : S100000x128.Idx → EReal) = m ((c : Thread nD τ).loc main_arg1) :=
  calc (W3 m ρ c (Proc.devRef .tc main_arg1) : S100000x128.Idx → EReal)
    _ = W2 m ρ c (Proc.devRef .tc main_arg1) := by skip_stretch
    _ = W1 m ρ c (Proc.devRef .tc main_arg1) := by skip_stretch
    _ = W0 m ρ c (Proc.devRef .tc main_arg1) := by skip_stretch
    _ = m ((c : Thread nD τ).loc main_arg1) := rfl

theorem W5_arg1 (c : Dev nD) : (W5 m ρ c (Proc.devRef .tc main_arg1) : S100000x128.Idx → EReal) = W3 m ρ c (Proc.devRef .tc main_arg1) :=
  calc (W5 m ρ c (Proc.devRef .tc main_arg1) : S100000x128.Idx → EReal)
    _ = W4 m ρ c (Proc.devRef .tc main_arg1) := by skip_stretch
    _ = W3 m ρ c (Proc.devRef .tc main_arg1) := by skip_stretch

theorem W2_arg2 (c : Dev nD) : (W2 m ρ c (Proc.devRef .tc main_arg2) : IVec S2x300000 32) = m ((c : Thread nD τ).loc main_arg2) :=
  calc (W2 m ρ c (Proc.devRef .tc main_arg2) : IVec S2x300000 32)
    _ = W1 m ρ c (Proc.devRef .tc main_arg2) := by skip_stretch
    _ = W0 m ρ c (Proc.devRef .tc main_arg2) := by skip_stretch
    _ = m ((c : Thread nD τ).loc main_arg2) := rfl

theorem W4_arg3 (c : Dev nD) : (W4 m ρ c (Proc.devRef .tc main_arg3) : IVec S2x300000 32) = m ((c : Thread nD τ).loc main_arg3) :=
  calc (W4 m ρ c (Proc.devRef .tc main_arg3) : IVec S2x300000 32)
    _ = W3 m ρ c (Proc.devRef .tc main_arg3) := by skip_stretch
    _ = W2 m ρ c (Proc.devRef .tc main_arg3) := by skip_stretch
    _ = W1 m ρ c (Proc.devRef .tc main_arg3) := by skip_stretch
    _ = W0 m ρ c (Proc.devRef .tc main_arg3) := by skip_stretch
    _ = m ((c : Thread nD τ).loc main_arg3) := rfl

theorem W6_arg3 (c : Dev nD) : (W6 m ρ c (Proc.devRef .tc main_arg3) : IVec S2x300000 32) = W4 m ρ c (Proc.devRef .tc main_arg3) :=
  calc (W6 m ρ c (Proc.devRef .tc main_arg3) : IVec S2x300000 32)
    _ = W5 m ρ c (Proc.devRef .tc main_arg3) := by skip_stretch
    _ = W4 m ρ c (Proc.devRef .tc main_arg3) := by skip_stretch

/-! ## The four gathered endpoint arrays, before the first launch: with every index word in range the
    out-of-range fill never applies, and each array is the table's rows named by the (wrapped) index words -/

theorem W13_v3 (c : Dev nD) (h : Cert.Spec.InRange (m ((c : Thread nD τ).loc main_arg2))) :
    (W13 m ρ c (Proc.devRef .tc main_v3) : S300000x128.Idx → EReal)
      = Cert.Spec.takeRows (m ((c : Thread nD τ).loc main_arg0)) (m ((c : Thread nD τ).loc main_arg2)) 0 := by
  refine (back_v3 m ρ c).trans ?_
  refine (conv3 (W2 m ρ c)).trans ?_
  refine (stage1 (W1 m ρ c)).trans ?_
  refine (congrArg₂ hostTake (W1_arg0 m ρ c) (slice0 (W0 m ρ c))).trans ?_
  exact take_row _ _ 0 (by decide) _ h

theorem W13_v7 (c : Dev nD) (h : Cert.Spec.InRange (m ((c : Thread nD τ).loc main_arg2))) :
    (W13 m ρ c (Proc.devRef .tc main_v7) : S300000x128.Idx → EReal)
      = Cert.Spec.takeRows (m ((c : Thread nD τ).loc main_arg1)) (m ((c : Thread nD τ).loc main_arg2)) 1 := by
  refine (back_v7 m ρ c).trans ?_
  refine (conv7 (W4 m ρ c)).trans ?_
  refine (stage3 (W3 m ρ c)).trans ?_
  refine (congrArg₂ hostTake (W3_arg1 m ρ c)
    ((slice1 (W2 m ρ c)).trans (congrArg (rowVec 1 _) (W2_arg2 m ρ c)))).trans ?_
  exact take_row _ _ 1 (by decide) _ h

theorem W13_v11 (c : Dev nD) (h : Cert.Spec.InRange (m ((c : Thread nD τ).loc main_arg3))) :
    (W13 m ρ c (Proc.devRef .tc main_v11) : S300000x128.Idx → EReal)
      = Cert.Spec.takeRows (m ((c : Thread nD τ).loc main_arg1)) (m ((c : Thread nD τ).loc main_arg3)) 0 := by
  refine (back_v11 m ρ c).trans ?_
  refine (conv11 (W6 m ρ c)).trans ?_
  refine (stage5 (W5 m ρ c)).trans ?_
  refine (congrArg₂ hostTake ((W5_arg1 m ρ c).trans (W3_arg1 m ρ c))
    ((slice2 (W4 m ρ c)).trans (congrArg (rowVec 0 _) (W4_arg3 m ρ c)))).trans ?_
  exact take_row _ _ 0 (by decide) _ h

theorem W13_v15 (c : Dev nD) (h : Cert.Spec.InRange (m ((c : Thread nD τ).loc main_arg3))) :
    (W13 m ρ c (Proc.devRef .tc main_v15) : S300000x128.Idx → EReal)
      = Cert.Spec.takeRows (m ((c : Thread nD τ).loc main_arg0)) (m ((c : Thread nD τ).loc main_arg3)) 1 := by
  refine (back_v15 m ρ c).trans ?_
  refine (conv15 (W8 m ρ c)).trans ?_
  refine (stage7 (W7 m ρ c)).trans ?_
  refine (congrArg₂ hostTake ((W7_arg0 m ρ c).trans (W1_arg0 m ρ c))
    ((slice3 (W6 m ρ c)).trans (congrArg (rowVec 1 _) ((W6_arg3 m ρ c).trans (W4_arg3 m ρ c))))).trans ?_
  exact take_row _ _ 1 (by decide) _ h

end Cert.KernelIdeal.Gather

end
-- ==== Proof.KHost.lean ====
import proofs.«406386_j24481313587756_2_alg».proof.Proof.Gen.KernelIdeal.Frame
import proofs.«406386_j24481313587756_2_alg».proof.Proof.Spec
import proofs.«406386_j24481313587756_2_alg».proof.Proof.KGather
import Idealize.ShloMosaic.Lib.ValueIdx
import Idealize.ShloMosaic.Lib.KernelVsHost
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-! ## Which references the last four stretches of host operations before the first launch write

The two gathered arrays are padded in the tenth and the twelfth stretch; the eleventh writes a constant and the
thirteenth cuts the weight matrix in two. Each stretch is two operations at most, and the references it writes
are read off its operations. -/

/-- Every operation of the line writes only references of the list `W`. -/
abbrev WritesIn (ops : List (HloOp τ sig (Elt Ideal))) (W : List (Ref sig .tc)) : Prop :=
  ops.Forall fun op => op.writes ⊆ (W.map (Proc.devRef (τ := τ) .tc)).toFinset

/-- Reads each operation's written set off its builder and finds its reference in the list. -/
local macro "writes_in" : tactic =>
  `(tactic| (simp only [WritesIn, List.Forall, StableHlo.nullary_writes, StableHlo.unary_writes, StableHlo.binary_writes,
      Finset.singleton_subset_iff, List.mem_toFinset]
             repeat' apply And.intro
             all_goals exact List.mem_map_of_mem (by decide)))

theorem writes0_9 : WritesIn hostOps0_9 [main_call4_v0, main_v16] := by writes_in
theorem writes0_10 : WritesIn hostOps0_10 [main_c_0] := by writes_in
theorem writes0_11 : WritesIn hostOps0_11 [main_call5_v0, main_v17] := by writes_in
theorem writes0_12 : WritesIn hostOps0_12 [main_v18, main_v19] := by writes_in

/-! ## A reference a stretch does not write is as the stretch found it -/

section Keep
variable (c : Dev nD) (r : Ref sig .tc)

theorem keep0_9 (h : r ∉ ([main_call4_v0, main_v16] : List (Ref sig .tc))) :
    W10 m ρ c (Proc.devRef .tc r) = W9 m ρ c (Proc.devRef .tc r) := StableHlo.after_of_writes_sub hostOps0_9 _ writes0_9 h
theorem keep0_10 (h : r ∉ ([main_c_0] : List (Ref sig .tc))) :
    W11 m ρ c (Proc.devRef .tc r) = W10 m ρ c (Proc.devRef .tc r) := StableHlo.after_of_writes_sub hostOps0_10 _ writes0_10 h
theorem keep0_11 (h : r ∉ ([main_call5_v0, main_v17] : List (Ref sig .tc))) :
    W12 m ρ c (Proc.devRef .tc r) = W11 m ρ c (Proc.devRef .tc r) := StableHlo.after_of_writes_sub hostOps0_11 _ writes0_11 h
theorem keep0_12 (h : r ∉ ([main_v18, main_v19] : List (Ref sig .tc))) :
    W13 m ρ c (Proc.devRef .tc r) = W12 m ρ c (Proc.devRef .tc r) := StableHlo.after_of_writes_sub hostOps0_12 _ writes0_12 h

end Keep

/-! ## The pad by 800 rows at the high end of axis 0, read at a row of the operand -/

/-- Row `e < 300000` of the padded array is row `e` of the operand, whatever the padding value: no low padding and
    no interior padding, so the padded index is the operand's own on both axes. -/
theorem pad_rows_apply {α : Type} (x : S300000x128.Idx → α) (v : S_.Idx → α) (e : Fin 300000) (i : Fin 128) :
    pad S300800x128 ![0, 0] ![800, 0] ![0, 0] x v pads_S300000x128_S300800x128_08000_000 h_S_
        (ix2 ⟨e.val, Nat.lt_trans e.isLt (by decide)⟩ i) = x (ix2 e i) :=
  pad_apply_of_inside _ _ _ x v _ _ _ (ix2 e i) (fun a => by
    match a with
    | ⟨0, _⟩ => show e.val = 0 + e.val * (0 + 1); omega
    | ⟨1, _⟩ => show i.val = 0 + i.val * (0 + 1); omega)

/-! ## The two padding stretches: what each leaves in its result array -/

/-- After the tenth stretch the first padded array is the pad of the first gathered array as that stretch found it,
    by some padding value (the converted constant, which a row below 300000 never reads). -/
theorem W10_v16 (c : Dev nD) : ∃ v : S_.Idx → EReal,
    (W10 m ρ c (Proc.devRef .tc main_v16) : S300800x128.Idx → EReal)
      = pad S300800x128 ![0, 0] ![800, 0] ![0, 0] (W9 m ρ c (Proc.devRef .tc main_v3) : S300000x128.Idx → EReal) v
          pads_S300000x128_S300800x128_08000_000 h_S_ := by
  refine ⟨?v, ?_⟩
  show StableHlo.after hostOps0_9 (W9 m ρ c) (Proc.devRef .tc main_v16) = _
  simp only [StableHlo.after_cons, StableHlo.after_nil]
  rw [StableHlo.binary_result]
  rw [StableHlo.unary_result_ne _ _ _ _ _ _ (by decide)]
  rfl

/-- After the twelfth stretch the second padded array is the pad of the second gathered array as that stretch found
    it, by some padding value. -/
theorem W12_v17 (c : Dev nD) : ∃ v : S_.Idx → EReal,
    (W12 m ρ c (Proc.devRef .tc main_v17) : S300800x128.Idx → EReal)
      = pad S300800x128 ![0, 0] ![800, 0] ![0, 0] (W11 m ρ c (Proc.devRef .tc main_v7) : S300000x128.Idx → EReal) v
          pads_S300000x128_S300800x128_08000_000 h_S_ := by
  refine ⟨?v, ?_⟩
  show StableHlo.after hostOps0_11 (W11 m ρ c) (Proc.devRef .tc main_v17) = _
  simp only [StableHlo.after_cons, StableHlo.after_nil]
  rw [StableHlo.binary_result]
  rw [StableHlo.unary_result_ne _ _ _ _ _ _ (by decide)]
  rfl

/-! ## Before the first launch: the two gathered endpoint arrays, padded, read at a row below 300000

The padded array is carried unchanged from its padding stretch to the launch; at a row below 300000 it is the
gathered array as the padding stretch found it, and that array too is unchanged from there to the launch, where it
is the table's rows named by the index words. -/

theorem V13_src (c : Dev nD) (h : Cert.Spec.InRange (m ((c : Thread nD τ).loc main_arg2))) (e : Fin 300000) (i : Fin 128) :
    (V13 m ρ c main_v16 : S300800x128.Idx → EReal) (ix2 ⟨e.val, Nat.lt_trans e.isLt (by decide)⟩ i)
      = Cert.Spec.takeRows (m ((c : Thread nD τ).loc main_arg0)) (m ((c : Thread nD τ).loc main_arg2)) 0 (ix2 e i) := by
  obtain ⟨v, hv⟩ := W10_v16 m ρ c
  have h16 : (W13 m ρ c (Proc.devRef .tc main_v16) : S300800x128.Idx → EReal) = W10 m ρ c (Proc.devRef .tc main_v16) :=
    (keep0_12 m ρ c main_v16 (by decide)).trans ((keep0_11 m ρ c main_v16 (by decide)).trans (keep0_10 m ρ c main_v16 (by decide)))
  have h3 : (W13 m ρ c (Proc.devRef .tc main_v3) : S300000x128.Idx → EReal) = W9 m ρ c (Proc.devRef .tc main_v3) :=
    (keep0_12 m ρ c main_v3 (by decide)).trans ((keep0_11 m ρ c main_v3 (by decide)).trans
      ((keep0_10 m ρ c main_v3 (by decide)).trans (keep0_9 m ρ c main_v3 (by decide))))
  exact (congrFun h16 _).trans ((congrFun hv _).trans ((pad_rows_apply _ v e i).trans
    ((congrFun h3 _).symm.trans (congrFun (Cert.KernelIdeal.Gather.W13_v3 m ρ c h) _))))

theorem V13_dst (c : Dev nD) (h : Cert.Spec.InRange (m ((c : Thread nD τ).loc main_arg2))) (e : Fin 300000) (i : Fin 128) :
    (V13 m ρ c main_v17 : S300800x128.Idx → EReal) (ix2 ⟨e.val, Nat.lt_trans e.isLt (by decide)⟩ i)
      = Cert.Spec.takeRows (m ((c : Thread nD τ).loc main_arg1)) (m ((c : Thread nD τ).loc main_arg2)) 1 (ix2 e i) := by
  obtain ⟨v, hv⟩ := W12_v17 m ρ c
  have h17 : (W13 m ρ c (Proc.devRef .tc main_v17) : S300800x128.Idx → EReal) = W12 m ρ c (Proc.devRef .tc main_v17) :=
    keep0_12 m ρ c main_v17 (by decide)
  have h7 : (W13 m ρ c (Proc.devRef .tc main_v7) : S300000x128.Idx → EReal) = W11 m ρ c (Proc.devRef .tc main_v7) :=
    (keep0_12 m ρ c main_v7 (by decide)).trans (keep0_11 m ρ c main_v7 (by decide))
  exact (congrFun h17 _).trans ((congrFun hv _).trans ((pad_rows_apply _ v e i).trans
    ((congrFun h7 _).symm.trans (congrFun (Cert.KernelIdeal.Gather.W13_v7 m ρ c h) _))))

end Cert.KernelIdeal.Host

end
-- ==== Proof.KPost.lean ====
/-
  After the two launches. Launch 0's output array holds one probability per (padded) edge of the first edge type,
  launch 1's of the second. The host keeps the first 300000 columns of each (slice, reshape to a vector), makes
  each a [1, 300000] row and stacks the two rows: entry (r, e) of the result is column e of launch r's output.
-/
import proofs.«406386_j24481313587756_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Post

open Cert.KernelIdeal Cert.KernelIdeal.Gen Idealize.ShloMosaic Idealize.ShloMosaic.TcCoe Idealize.SL.Sem Idealize.ShloMosaic.ValueIdx
open Idealize.ShloMosaic.StableHlo

/-- A stretch of host operations none of which writes the buffer leaves it as it was. -/
macro "stretch_keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, Finset.mem_singleton]
      repeat' apply And.intro
      all_goals exact StableHlo.devRef_ne_of_ne (by decide))))

/-- A vector made a [1, n] row, read at (0, e). -/
theorem row_apply (x : S300000.Idx → EReal) (e : Fin 300000) :
    broadcastInDim S1x300000 ![1] bcast_S300000_S1x300000_1 x (ix2 0 e) = x (ix1 e) :=
  broadcastInDim_apply _ _ x (ix2 0 e) (ix1 e) (fun a => by
    match a with
    | ⟨0, _⟩ => exact (if_neg (show ¬ (300000 : ℕ) = 1 by decide)).symm)

/-- The first 300000 columns of a [1, 300800] array as a vector, read at e. -/
theorem cut_apply (y : S1x300800.Idx → EReal) (e : Fin 300000) :
    shapeCast S300000 (extractStridedSlice S1x300000 ![0, 0] y slices_S1x300800_S1x300000_0_0) shapeCasts_S1x300000_S300000 (ix1 e)
      = y (ix2 0 ⟨e.val, Nat.lt_trans e.isLt (by decide)⟩) := by
  refine (shapeCast_apply _ _ (ix1 e) (ix2 0 e) ?_).trans ?_
  · rw [Shape.rowMajor_val_two, Shape.rowMajor_val_one]
    show 0 * 300000 + e.val = e.val
    omega
  · exact extractStridedSlice_apply _ _ _ (ix2 0 e) (ix2 0 ⟨e.val, Nat.lt_trans e.isLt (by decide)⟩) (fun a => by
      match a with
      | ⟨0, _⟩ => rfl
      | ⟨1, _⟩ => exact (Nat.zero_add _).symm)

/-- Two [1, n] rows stacked, read at (r, e): row r's entry e. -/
theorem stack_apply (x₁ x₂ : S1x300000.Idx → EReal) (r : Fin 2) (e : Fin 300000) :
    concatenate S2x300000 0 [⟨S1x300000, x₁⟩, ⟨S1x300000, x₂⟩] concatenates_S1x300000_S1x300000_S2x300000_d0 (ix2 r e)
      = if r.val = 0 then x₁ (ix2 0 e) else x₂ (ix2 0 e) := by
  by_cases hr : r.val = 0
  · rw [if_pos hr]
    exact concatenate_pair_apply_left 0 x₁ x₂ _ (ix2 r e) rfl (ix2 0 e) (fun b => by
      match b with
      | ⟨0, _⟩ => exact hr.symm
      | ⟨1, _⟩ => rfl)
  · rw [if_neg hr]
    have h1 : r.val = 1 := by have := r.isLt; omega
    exact concatenate_pair_apply_right 0 x₁ x₂ _ (ix2 r e) rfl rfl (ix2 0 e) (fun b hb => by
      match b with
      | ⟨0, _⟩ => exact absurd rfl hb
      | ⟨1, _⟩ => rfl) (by show 0 + 1 = r.val; omega)

variable (m : (ℓ : Loc nD τ sig) → Buf (Elt Ideal) ℓ) (ρ : Dev nD → PrngReg)

/-- The first launch's kept columns, as the second launch's exit still holds them. -/
theorem W20_v22 (c : Dev nD) :
    (W20 m ρ c (Proc.devRef .tc main_v22) : S300000.Idx → EReal)
      = shapeCast S300000 (extractStridedSlice S1x300000 ![0, 0] ((dat0 (V13 m ρ) c).arrAt 9 cfg0.N : S1x300800.Idx → EReal) slices_S1x300800_S1x300000_0_0) shapeCasts_S1x300000_S300000 :=
  calc W20 m ρ c (Proc.devRef .tc main_v22)
    _ = W19 m ρ c (Proc.devRef .tc main_v22) := W20_of_ne m ρ c main_v22 (by decide)
    _ = W18 m ρ c (Proc.devRef .tc main_v22) := by stretch_keeps hostOps1_4
    _ = W17 m ρ c (Proc.devRef .tc main_v22) := by stretch_keeps hostOps1_3
    _ = W16 m ρ c (Proc.devRef .tc main_v22) := by stretch_keeps hostOps1_2
    _ = W15 m ρ c (Proc.devRef .tc main_v22) := by stretch_keeps hostOps1_1
    _ = _ := by
      show StableHlo.after hostOps1 (W14 m ρ c) (Proc.devRef .tc main_v22) = _
      after_results
      rw [W14_arr m ρ c 9]
      rfl

/-- The result array read at (r, e): column e of launch r's output. -/
theorem result_apply (c : Dev nD) (r : Fin 2) (e : Fin 300000) :
    (W21 m ρ c (Proc.devRef .tc main_v32) : S2x300000.Idx → EReal) (ix2 r e)
      = if r.val = 0 then ((dat0 (V13 m ρ) c).arrAt 9 cfg0.N : S1x300800.Idx → EReal) (ix2 0 ⟨e.val, Nat.lt_trans e.isLt (by decide)⟩)
        else ((dat1 (V19 m ρ) c).arrAt 9 cfg1.N : S1x300800.Idx → EReal) (ix2 0 ⟨e.val, Nat.lt_trans e.isLt (by decide)⟩) := by
  have hA : (W21 m ρ c (Proc.devRef .tc main_v32) : S2x300000.Idx → EReal)
      = concatenate S2x300000 0
          [⟨S1x300000, broadcastInDim S1x300000 ![1] bcast_S300000_S1x300000_1 (W20 m ρ c (Proc.devRef .tc main_v22) : S300000.Idx → EReal)⟩,
           ⟨S1x300000, broadcastInDim S1x300000 ![1] bcast_S300000_S1x300000_1
              (shapeCast S300000 (extractStridedSlice S1x300000 ![0, 0] (W20 m ρ c (Proc.devRef .tc main_v27) : S1x300800.Idx → EReal) slices_S1x300800_S1x300000_0_0) shapeCasts_S1x300000_S300000)⟩]
          concatenates_S1x300000_S1x300000_S2x300000_d0 := by
    show StableHlo.after hostOps2 (W20 m ρ c) (Proc.devRef .tc main_v32) = _
    after_results
    rfl
  rw [hA, stack_apply, row_apply, row_apply, W20_v22, cut_apply, cut_apply]
  rw [show (W20 m ρ c (Proc.devRef .tc main_v27) : S1x300800.Idx → EReal) = (dat1 (V19 m ρ) c).arrAt 9 cfg1.N from W20_arr m ρ c 9]

end Cert.KernelIdeal.Post

end
-- ==== Proof.KHost19.lean ====
/-
  Before the second launch. Its two endpoint operands are the second edge type's gathered arrays, each padded behind
  with 800 rows of the padding value and with nothing in front; a row below 300000 of a padded array is that row of
  the gathered array. Nothing between the gather and the launch writes a gathered array, and nothing after a pad
  writes its result, so each buffer is read where it was last written.
-/
import proofs.«406386_j24481313587756_2_alg».proof.Proof.Gen.KernelIdeal.Frame
import proofs.«406386_j24481313587756_2_alg».proof.Proof.Spec
import proofs.«406386_j24481313587756_2_alg».proof.Proof.KGather
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.Host19

open Cert.KernelIdeal Cert.KernelIdeal.Gen Idealize.ShloMosaic Idealize.ShloMosaic.TcCoe Idealize.SL.Sem Idealize.ShloMosaic.ValueIdx
open Idealize.ShloMosaic.StableHlo

/-- A stretch of host operations none of which writes the buffer leaves it as it was. -/
macro "stretch_keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, Finset.mem_singleton]
      repeat' apply And.intro
      all_goals exact StableHlo.devRef_ne_of_ne (by decide))))

/-- An array padded behind only, read at a row below the array's extent: the array's own entry. -/
theorem padBehind_apply {u : Shape} (x : S300000x128.Idx → EReal) (v : u.Idx → EReal) (hu : 0 < u.numel)
    (e : Fin 300000) (i : Fin 128) :
    pad S300800x128 ![0, 0] ![800, 0] ![0, 0] x v pads_S300000x128_S300800x128_08000_000 hu
        (ix2 ⟨e.val, Nat.lt_trans e.isLt (by decide)⟩ i)
      = x (ix2 e i) :=
  pad_apply_of_inside _ _ _ x v _ hu _ (ix2 e i) (fun a => by
    match a with
    | ⟨0, _⟩ => show e.val = 0 + e.val * (0 + 1); omega
    | ⟨1, _⟩ => show i.val = 0 + i.val * (0 + 1); omega)

variable (m : (ℓ : Loc nD τ sig) → Buf (Elt Ideal) ℓ) (ρ : Dev nD → PrngReg)

/-- The second edge type's gathered source rows, still as gathered when the pad reads them. -/
theorem W15_v11 (c : Dev nD) (h : Cert.Spec.InRange (m ((c : Thread nD τ).loc main_arg3))) :
    (W15 m ρ c (Proc.devRef .tc main_v11) : S300000x128.Idx → EReal)
      = Cert.Spec.takeRows (m ((c : Thread nD τ).loc main_arg1)) (m ((c : Thread nD τ).loc main_arg3)) 0 :=
  calc W15 m ρ c (Proc.devRef .tc main_v11)
    _ = W14 m ρ c (Proc.devRef .tc main_v11) := by stretch_keeps hostOps1
    _ = W13 m ρ c (Proc.devRef .tc main_v11) := W14_of_ne m ρ c main_v11 (by decide)
    _ = _ := Cert.KernelIdeal.Gather.W13_v11 m ρ c h

/-- The second edge type's gathered target rows, still as gathered when the pad reads them. -/
theorem W17_v15 (c : Dev nD) (h : Cert.Spec.InRange (m ((c : Thread nD τ).loc main_arg3))) :
    (W17 m ρ c (Proc.devRef .tc main_v15) : S300000x128.Idx → EReal)
      = Cert.Spec.takeRows (m ((c : Thread nD τ).loc main_arg0)) (m ((c : Thread nD τ).loc main_arg3)) 1 :=
  calc W17 m ρ c (Proc.devRef .tc main_v15)
    _ = W16 m ρ c (Proc.devRef .tc main_v15) := by stretch_keeps hostOps1_2
    _ = W15 m ρ c (Proc.devRef .tc main_v15) := by stretch_keeps hostOps1_1
    _ = W14 m ρ c (Proc.devRef .tc main_v15) := by stretch_keeps hostOps1
    _ = W13 m ρ c (Proc.devRef .tc main_v15) := W14_of_ne m ρ c main_v15 (by decide)
    _ = _ := Cert.KernelIdeal.Gather.W13_v15 m ρ c h

/-- The source operand of the second launch, as the pad left it. -/
theorem W19_v23 (c : Dev nD) :
    (W19 m ρ c (Proc.devRef .tc main_v23) : S300800x128.Idx → EReal)
      = pad S300800x128 ![0, 0] ![800, 0] ![0, 0] (W15 m ρ c (Proc.devRef .tc main_v11) : S300000x128.Idx → EReal)
          (sitofp (F := Ideal) .bf16 (W15 m ρ c (Proc.devRef .tc main_c_1) : IVec S_ 32)) pads_S300000x128_S300800x128_08000_000 h_S_ :=
  calc W19 m ρ c (Proc.devRef .tc main_v23)
    _ = W18 m ρ c (Proc.devRef .tc main_v23) := by stretch_keeps hostOps1_4
    _ = W17 m ρ c (Proc.devRef .tc main_v23) := by stretch_keeps hostOps1_3
    _ = W16 m ρ c (Proc.devRef .tc main_v23) := by stretch_keeps hostOps1_2
    _ = _ := by
      show StableHlo.after hostOps1_1 (W15 m ρ c) (Proc.devRef .tc main_v23) = _
      after_results
      rfl

/-- The target operand of the second launch, as the pad left it. -/
theorem W19_v24 (c : Dev nD) :
    (W19 m ρ c (Proc.devRef .tc main_v24) : S300800x128.Idx → EReal)
      = pad S300800x128 ![0, 0] ![800, 0] ![0, 0] (W17 m ρ c (Proc.devRef .tc main_v15) : S300000x128.Idx → EReal)
          (sitofp (F := Ideal) .bf16 (W17 m ρ c (Proc.devRef .tc main_c_2) : IVec S_ 32)) pads_S300000x128_S300800x128_08000_000 h_S_ :=
  calc W19 m ρ c (Proc.devRef .tc main_v24)
    _ = W18 m ρ c (Proc.devRef .tc main_v24) := by stretch_keeps hostOps1_4
    _ = _ := by
      show StableHlo.after hostOps1_3 (W17 m ρ c) (Proc.devRef .tc main_v24) = _
      after_results
      rfl

/-! ## Before the second launch: its two endpoint operands are the gathered arrays padded behind with 800 rows of the padding value (which these theorems do not read); below row 300000 they are the gathered rows -/

theorem V19_src (c : Dev nD) (h : Cert.Spec.InRange (m ((c : Thread nD τ).loc main_arg3))) (e : Fin 300000) (i : Fin 128) :
    (V19 m ρ c main_v23 : S300800x128.Idx → EReal) (ix2 ⟨e.val, Nat.lt_trans e.isLt (by decide)⟩ i)
      = Cert.Spec.takeRows (m ((c : Thread nD τ).loc main_arg1)) (m ((c : Thread nD τ).loc main_arg3)) 0 (ix2 e i) := by
  show (W19 m ρ c (Proc.devRef .tc main_v23) : S300800x128.Idx → EReal) (ix2 ⟨e.val, Nat.lt_trans e.isLt (by decide)⟩ i) = _
  rw [W19_v23, padBehind_apply, W15_v11 m ρ c h]

theorem V19_dst (c : Dev nD) (h : Cert.Spec.InRange (m ((c : Thread nD τ).loc main_arg3))) (e : Fin 300000) (i : Fin 128) :
    (V19 m ρ c main_v24 : S300800x128.Idx → EReal) (ix2 ⟨e.val, Nat.lt_trans e.isLt (by decide)⟩ i)
      = Cert.Spec.takeRows (m ((c : Thread nD τ).loc main_arg0)) (m ((c : Thread nD τ).loc main_arg3)) 1 (ix2 e i) := by
  show (W19 m ρ c (Proc.devRef .tc main_v24) : S300800x128.Idx → EReal) (ix2 ⟨e.val, Nat.lt_trans e.isLt (by decide)⟩ i) = _
  rw [W19_v24, padBehind_apply, W17_v15 m ρ c h]

end Cert.KernelIdeal.Host19

end
-- ==== Proof.KArgs.lean ====
/-
  The host side of the kernel program, at the operands of its two launches.

  Before each launch the host cuts the 256×128 bilinear matrix into its upper and lower 128×128 halves (two slices);
  every other weight operand is an argument array read as it was launched. A buffer holds, where a launch is entered,
  what it held at the launch of the program unless a host operation in between wrote it or the first launch left it
  as one of its arrays; no host operation writes an argument, and the second launch's operands are not arrays of the
  first. So each half is the upper or lower half of the launch contents of its matrix, and each of the other operands
  is the launch contents of its argument.
-/
import proofs.«406386_j24481313587756_2_alg».proof.Proof.Gen.KernelIdeal.Frame
import proofs.«406386_j24481313587756_2_alg».proof.Proof.Spec
import Idealize.ShloMosaic.Lib.ValueIdx
import Idealize.ShloMosaic.Lib.Pipeline.Value
import Idealize.ShloMosaic.Lib.StableHlo.Run

noncomputable section

namespace Cert.KernelIdeal.Args

open Cert.KernelIdeal Cert.KernelIdeal.Gen Idealize.ShloMosaic Idealize.ShloMosaic.TcCoe Idealize.SL.Sem Idealize.ShloMosaic.ValueIdx
open Idealize.ShloMosaic.StableHlo

variable (m : (ℓ : Loc nD τ sig) → Buf (Elt Ideal) ℓ) (ρ : Dev nD → PrngReg)

/-! ## A buffer no host operation writes -/

/-- No operation of the line writes the buffer of reference `b`. -/
abbrev Keeps (ops : List (HloOp τ sig (Elt Ideal))) (b : Ref sig .tc) : Prop :=
  ∀ op ∈ ops, Proc.devRef (τ := τ) .tc b ∉ op.writes

/-- Each operation of a literal line writes one reference; the buffer's is another. -/
macro "not_written " ops:ident : tactic =>
  `(tactic| exact List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- Before the last host line ahead of the first launch, a buffer none of the twelve lines so far writes holds its launch contents. -/
theorem W12_launch (c : Dev nD) (b : Ref sig .tc)
    (h0 : Keeps hostOps0 b) (h1 : Keeps hostOps0_1 b) (h2 : Keeps hostOps0_2 b) (h3 : Keeps hostOps0_3 b)
    (h4 : Keeps hostOps0_4 b) (h5 : Keeps hostOps0_5 b) (h6 : Keeps hostOps0_6 b) (h7 : Keeps hostOps0_7 b)
    (h8 : Keeps hostOps0_8 b) (h9 : Keeps hostOps0_9 b) (h10 : Keeps hostOps0_10 b) (h11 : Keeps hostOps0_11 b) :
    W12 m ρ c (Proc.devRef .tc b) = m ((c : Thread nD τ).loc b) :=
  calc W12 m ρ c (Proc.devRef .tc b)
    _ = W11 m ρ c (Proc.devRef .tc b) := StableHlo.after_of_forall_not_mem _ _ h11
    _ = W10 m ρ c (Proc.devRef .tc b) := StableHlo.after_of_forall_not_mem _ _ h10
    _ = W9 m ρ c (Proc.devRef .tc b) := StableHlo.after_of_forall_not_mem _ _ h9
    _ = W8 m ρ c (Proc.devRef .tc b) := StableHlo.after_of_forall_not_mem _ _ h8
    _ = W7 m ρ c (Proc.devRef .tc b) := StableHlo.after_of_forall_not_mem _ _ h7
    _ = W6 m ρ c (Proc.devRef .tc b) := StableHlo.after_of_forall_not_mem _ _ h6
    _ = W5 m ρ c (Proc.devRef .tc b) := StableHlo.after_of_forall_not_mem _ _ h5
    _ = W4 m ρ c (Proc.devRef .tc b) := StableHlo.after_of_forall_not_mem _ _ h4
    _ = W3 m ρ c (Proc.devRef .tc b) := StableHlo.after_of_forall_not_mem _ _ h3
    _ = W2 m ρ c (Proc.devRef .tc b) := StableHlo.after_of_forall_not_mem _ _ h2
    _ = W1 m ρ c (Proc.devRef .tc b) := StableHlo.after_of_forall_not_mem _ _ h1
    _ = W0 m ρ c (Proc.devRef .tc b) := StableHlo.after_of_forall_not_mem _ _ h0
    _ = m ((c : Thread nD τ).loc b) := rfl

/-- Where the first launch is entered from, a buffer none of the thirteen host lines writes holds its launch contents. -/
theorem W13_launch (c : Dev nD) (b : Ref sig .tc)
    (h0 : Keeps hostOps0 b) (h1 : Keeps hostOps0_1 b) (h2 : Keeps hostOps0_2 b) (h3 : Keeps hostOps0_3 b)
    (h4 : Keeps hostOps0_4 b) (h5 : Keeps hostOps0_5 b) (h6 : Keeps hostOps0_6 b) (h7 : Keeps hostOps0_7 b)
    (h8 : Keeps hostOps0_8 b) (h9 : Keeps hostOps0_9 b) (h10 : Keeps hostOps0_10 b) (h11 : Keeps hostOps0_11 b)
    (h12 : Keeps hostOps0_12 b) :
    W13 m ρ c (Proc.devRef .tc b) = m ((c : Thread nD τ).loc b) :=
  (StableHlo.after_of_forall_not_mem _ _ h12).trans (W12_launch m ρ c b h0 h1 h2 h3 h4 h5 h6 h7 h8 h9 h10 h11)

/-- The twelve facts for a named reference, then the walk. -/
macro "before_last_line0 " b:ident : tactic =>
  `(tactic| exact W12_launch _ _ _ $b (by not_written hostOps0) (by not_written hostOps0_1) (by not_written hostOps0_2)
      (by not_written hostOps0_3) (by not_written hostOps0_4) (by not_written hostOps0_5) (by not_written hostOps0_6)
      (by not_written hostOps0_7) (by not_written hostOps0_8) (by not_written hostOps0_9) (by not_written hostOps0_10)
      (by not_written hostOps0_11))

/-- The thirteen facts for a named reference, then the walk. -/
macro "before_launch0 " b:ident : tactic =>
  `(tactic| exact W13_launch _ _ _ $b (by not_written hostOps0) (by not_written hostOps0_1) (by not_written hostOps0_2)
      (by not_written hostOps0_3) (by not_written hostOps0_4) (by not_written hostOps0_5) (by not_written hostOps0_6)
      (by not_written hostOps0_7) (by not_written hostOps0_8) (by not_written hostOps0_9) (by not_written hostOps0_10)
      (by not_written hostOps0_11) (by not_written hostOps0_12))

/-! ## The two halves of a 256-row matrix as slices -/

/-- The slice of rows 0..127 is the upper half. -/
theorem slice_upper (M : S256x128.Idx → EReal) :
    extractStridedSlice S128x128 ![0, 0] M slices_S256x128_S128x128_0_0 = Cert.Spec.upper M := by
  funext p
  unfold Cert.Spec.upper
  exact extractStridedSlice_apply _ _ _ p _ (fun a => by
    match a with
    | ⟨0, _⟩ => exact (Nat.zero_add _).symm
    | ⟨1, _⟩ => exact (Nat.zero_add _).symm)

/-- The slice of rows 128..255 is the lower half. -/
theorem slice_lower (M : S256x128.Idx → EReal) :
    extractStridedSlice S128x128 ![128, 0] M slices_S256x128_S128x128_128_0 = Cert.Spec.lower M := by
  funext p
  unfold Cert.Spec.lower
  exact extractStridedSlice_apply _ _ _ p _ (fun a => by
    match a with
    | ⟨0, _⟩ => rfl
    | ⟨1, _⟩ => exact (Nat.zero_add _).symm)

/-! ## Through the first launch to the second -/

/-- Before the last host line ahead of the second launch: a buffer that is none of the first launch's arrays and that no
    host line so far writes holds its launch contents. -/
theorem W18_launch (c : Dev nD) (b : Ref sig .tc) (hne : ∀ w, Pipeline.arrRef spec0 w ≠ b)
    (g0 : Keeps hostOps1 b) (g1 : Keeps hostOps1_1 b) (g2 : Keeps hostOps1_2 b) (g3 : Keeps hostOps1_3 b)
    (h0 : Keeps hostOps0 b) (h1 : Keeps hostOps0_1 b) (h2 : Keeps hostOps0_2 b) (h3 : Keeps hostOps0_3 b)
    (h4 : Keeps hostOps0_4 b) (h5 : Keeps hostOps0_5 b) (h6 : Keeps hostOps0_6 b) (h7 : Keeps hostOps0_7 b)
    (h8 : Keeps hostOps0_8 b) (h9 : Keeps hostOps0_9 b) (h10 : Keeps hostOps0_10 b) (h11 : Keeps hostOps0_11 b)
    (h12 : Keeps hostOps0_12 b) :
    W18 m ρ c (Proc.devRef .tc b) = m ((c : Thread nD τ).loc b) :=
  calc W18 m ρ c (Proc.devRef .tc b)
    _ = W17 m ρ c (Proc.devRef .tc b) := StableHlo.after_of_forall_not_mem _ _ g3
    _ = W16 m ρ c (Proc.devRef .tc b) := StableHlo.after_of_forall_not_mem _ _ g2
    _ = W15 m ρ c (Proc.devRef .tc b) := StableHlo.after_of_forall_not_mem _ _ g1
    _ = W14 m ρ c (Proc.devRef .tc b) := StableHlo.after_of_forall_not_mem _ _ g0
    _ = W13 m ρ c (Proc.devRef .tc b) := W14_of_ne m ρ c b hne
    _ = m ((c : Thread nD τ).loc b) := W13_launch m ρ c b h0 h1 h2 h3 h4 h5 h6 h7 h8 h9 h10 h11 h12

/-- Where the second launch is entered from, likewise. -/
theorem W19_launch (c : Dev nD) (b : Ref sig .tc) (hne : ∀ w, Pipeline.arrRef spec0 w ≠ b)
    (g0 : Keeps hostOps1 b) (g1 : Keeps hostOps1_1 b) (g2 : Keeps hostOps1_2 b) (g3 : Keeps hostOps1_3 b)
    (g4 : Keeps hostOps1_4 b)
    (h0 : Keeps hostOps0 b) (h1 : Keeps hostOps0_1 b) (h2 : Keeps hostOps0_2 b) (h3 : Keeps hostOps0_3 b)
    (h4 : Keeps hostOps0_4 b) (h5 : Keeps hostOps0_5 b) (h6 : Keeps hostOps0_6 b) (h7 : Keeps hostOps0_7 b)
    (h8 : Keeps hostOps0_8 b) (h9 : Keeps hostOps0_9 b) (h10 : Keeps hostOps0_10 b) (h11 : Keeps hostOps0_11 b)
    (h12 : Keeps hostOps0_12 b) :
    W19 m ρ c (Proc.devRef .tc b) = m ((c : Thread nD τ).loc b) :=
  (StableHlo.after_of_forall_not_mem _ _ g4).trans
    (W18_launch m ρ c b hne g0 g1 g2 g3 h0 h1 h2 h3 h4 h5 h6 h7 h8 h9 h10 h11 h12)

/-- The facts for a named reference, then the walk. -/
macro "before_last_line1 " b:ident : tactic =>
  `(tactic| exact W18_launch _ _ _ $b (by decide) (by not_written hostOps1) (by not_written hostOps1_1)
      (by not_written hostOps1_2) (by not_written hostOps1_3)
      (by not_written hostOps0) (by not_written hostOps0_1) (by not_written hostOps0_2)
      (by not_written hostOps0_3) (by not_written hostOps0_4) (by not_written hostOps0_5) (by not_written hostOps0_6)
      (by not_written hostOps0_7) (by not_written hostOps0_8) (by not_written hostOps0_9) (by not_written hostOps0_10)
      (by not_written hostOps0_11) (by not_written hostOps0_12))

/-- The facts for a named reference, then the walk. -/
macro "before_launch1 " b:ident : tactic =>
  `(tactic| exact W19_launch _ _ _ $b (by decide) (by not_written hostOps1) (by not_written hostOps1_1)
      (by not_written hostOps1_2) (by not_written hostOps1_3) (by not_written hostOps1_4)
      (by not_written hostOps0) (by not_written hostOps0_1) (by not_written hostOps0_2)
      (by not_written hostOps0_3) (by not_written hostOps0_4) (by not_written hostOps0_5) (by not_written hostOps0_6)
      (by not_written hostOps0_7) (by not_written hostOps0_8) (by not_written hostOps0_9) (by not_written hostOps0_10)
      (by not_written hostOps0_11) (by not_written hostOps0_12))

/-! ## The two matrices the slices are cut from -/

/-- The first launch's bilinear matrix is as launched when its halves are cut. -/
theorem W12_arg4 (c : Dev nD) : W12 m ρ c (Proc.devRef .tc main_arg4) = m ((c : Thread nD τ).loc main_arg4) := by
  before_last_line0 main_arg4

/-- The second launch's bilinear matrix is as launched when its halves are cut. -/
theorem W18_arg10 (c : Dev nD) : W18 m ρ c (Proc.devRef .tc main_arg10) = m ((c : Thread nD τ).loc main_arg10) := by
  before_last_line1 main_arg10

/-! ## The weight operands of the two launches: the two halves of the bilinear matrix (slices), and the argument arrays themselves -/

theorem V13_wa (c : Dev nD) : (V13 m ρ c main_v18 : S128x128.Idx → EReal) = Cert.Spec.upper (m ((c : Thread nD τ).loc main_arg4)) := by
  have e : (W13 m ρ c (Proc.devRef .tc main_v18) : S128x128.Idx → EReal)
      = extractStridedSlice S128x128 ![0, 0] (W12 m ρ c (Proc.devRef .tc main_arg4) : S256x128.Idx → EReal)
          slices_S256x128_S128x128_0_0 := by
    show StableHlo.after hostOps0_12 (W12 m ρ c) (Proc.devRef .tc main_v18) = _
    after_results
    try rfl
  refine e.trans ?_
  rw [W12_arg4]
  exact slice_upper _
theorem V13_wb (c : Dev nD) : (V13 m ρ c main_v19 : S128x128.Idx → EReal) = Cert.Spec.lower (m ((c : Thread nD τ).loc main_arg4)) := by
  have e : (W13 m ρ c (Proc.devRef .tc main_v19) : S128x128.Idx → EReal)
      = extractStridedSlice S128x128 ![128, 0] (W12 m ρ c (Proc.devRef .tc main_arg4) : S256x128.Idx → EReal)
          slices_S256x128_S128x128_128_0 := by
    show StableHlo.after hostOps0_12 (W12 m ρ c) (Proc.devRef .tc main_v19) = _
    after_results
    try rfl
  refine e.trans ?_
  rw [W12_arg4]
  exact slice_lower _
theorem V13_arg5 (c : Dev nD) : V13 m ρ c main_arg5 = m ((c : Thread nD τ).loc main_arg5) := by before_launch0 main_arg5
theorem V13_arg6 (c : Dev nD) : V13 m ρ c main_arg6 = m ((c : Thread nD τ).loc main_arg6) := by before_launch0 main_arg6
theorem V13_arg7 (c : Dev nD) : V13 m ρ c main_arg7 = m ((c : Thread nD τ).loc main_arg7) := by before_launch0 main_arg7
theorem V13_arg8 (c : Dev nD) : V13 m ρ c main_arg8 = m ((c : Thread nD τ).loc main_arg8) := by before_launch0 main_arg8
theorem V13_arg9 (c : Dev nD) : V13 m ρ c main_arg9 = m ((c : Thread nD τ).loc main_arg9) := by before_launch0 main_arg9

theorem V19_wa (c : Dev nD) : (V19 m ρ c main_v25 : S128x128.Idx → EReal) = Cert.Spec.upper (m ((c : Thread nD τ).loc main_arg10)) := by
  have e : (W19 m ρ c (Proc.devRef .tc main_v25) : S128x128.Idx → EReal)
      = extractStridedSlice S128x128 ![0, 0] (W18 m ρ c (Proc.devRef .tc main_arg10) : S256x128.Idx → EReal)
          slices_S256x128_S128x128_0_0 := by
    show StableHlo.after hostOps1_4 (W18 m ρ c) (Proc.devRef .tc main_v25) = _
    after_results
    try rfl
  refine e.trans ?_
  rw [W18_arg10]
  exact slice_upper _
theorem V19_wb (c : Dev nD) : (V19 m ρ c main_v26 : S128x128.Idx → EReal) = Cert.Spec.lower (m ((c : Thread nD τ).loc main_arg10)) := by
  have e : (W19 m ρ c (Proc.devRef .tc main_v26) : S128x128.Idx → EReal)
      = extractStridedSlice S128x128 ![128, 0] (W18 m ρ c (Proc.devRef .tc main_arg10) : S256x128.Idx → EReal)
          slices_S256x128_S128x128_128_0 := by
    show StableHlo.after hostOps1_4 (W18 m ρ c) (Proc.devRef .tc main_v26) = _
    after_results
    try rfl
  refine e.trans ?_
  rw [W18_arg10]
  exact slice_lower _
theorem V19_arg11 (c : Dev nD) : V19 m ρ c main_arg11 = m ((c : Thread nD τ).loc main_arg11) := by before_launch1 main_arg11
theorem V19_arg12 (c : Dev nD) : V19 m ρ c main_arg12 = m ((c : Thread nD τ).loc main_arg12) := by before_launch1 main_arg12
theorem V19_arg13 (c : Dev nD) : V19 m ρ c main_arg13 = m ((c : Thread nD τ).loc main_arg13) := by before_launch1 main_arg13
theorem V19_arg14 (c : Dev nD) : V19 m ρ c main_arg14 = m ((c : Thread nD τ).loc main_arg14) := by before_launch1 main_arg14
theorem V19_arg15 (c : Dev nD) : V19 m ρ c main_arg15 = m ((c : Thread nD τ).loc main_arg15) := by before_launch1 main_arg15

end Cert.KernelIdeal.Args

end
-- ==== Proof.KValue.lean ====
/-
  The kernel program's result as one function of its arguments: row r, column e of the result array is column e of
  launch r's output, which is the edge score of row e of that launch's two padded endpoint arrays; below column
  300000 those rows are the gathered table rows, so the entry is the decoder's value for edge e of type r.
-/
import proofs.«406386_j24481313587756_2_alg».proof.Proof.Gen.KernelIdeal.Frame
import proofs.«406386_j24481313587756_2_alg».proof.Proof.Spec
import proofs.«406386_j24481313587756_2_alg».proof.Proof.KRegion
import proofs.«406386_j24481313587756_2_alg».proof.Proof.KHost
import proofs.«406386_j24481313587756_2_alg».proof.Proof.KPost
import proofs.«406386_j24481313587756_2_alg».proof.Proof.KHost19
import proofs.«406386_j24481313587756_2_alg».proof.Proof.KArgs
import proofs.«406386_j24481313587756_2_alg».proof.Proof.KRun
import Idealize.ShloMosaic.Lib.ValueIdx

noncomputable section

namespace Cert.KernelIdeal.Result

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-- The last boundary's contents at the result buffer: the decoder's result array. -/
theorem W21_result (c : Dev nD)
    (h2 : Cert.Spec.InRange (m ((c : Thread nD τ).loc main_arg2))) (h3 : Cert.Spec.InRange (m ((c : Thread nD τ).loc main_arg3))) :
    (W21 m ρ c (Proc.devRef .tc main_v32) : S2x300000.Idx → EReal)
      = Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15)) := by
  funext j
  obtain ⟨r, e, rfl⟩ : ∃ (r : Fin 2) (e : Fin 300000), j = ix2 r e := ⟨j 0, j 1, eq_ix2 j⟩
  rw [Cert.KernelIdeal.Post.result_apply m ρ c r e]
  unfold Cert.Spec.result Cert.Spec.branch
  by_cases hr : r.val = 0
  · rw [if_pos hr, if_pos (show ((ix2 r e : S2x300000.Idx) 0).val = 0 from hr)]
    rw [Cert.KernelIdeal.Region.arrAt0 (V13 m ρ) c]
    simp only [Cert.KernelIdeal.Host.V13_src m ρ c h2 e, Cert.KernelIdeal.Host.V13_dst m ρ c h2 e]
    rw [Cert.KernelIdeal.Args.V13_wa, Cert.KernelIdeal.Args.V13_wb, Cert.KernelIdeal.Args.V13_arg5, Cert.KernelIdeal.Args.V13_arg6,
      Cert.KernelIdeal.Args.V13_arg7, Cert.KernelIdeal.Args.V13_arg8, Cert.KernelIdeal.Args.V13_arg9]
  · rw [if_neg hr, if_neg (show ¬ ((ix2 r e : S2x300000.Idx) 0).val = 0 from hr)]
    rw [Cert.KernelIdeal.Region.arrAt1 (V19 m ρ) c]
    simp only [Cert.KernelIdeal.Host19.V19_src m ρ c h3 e, Cert.KernelIdeal.Host19.V19_dst m ρ c h3 e]
    rw [Cert.KernelIdeal.Args.V19_wa, Cert.KernelIdeal.Args.V19_wb, Cert.KernelIdeal.Args.V19_arg11, Cert.KernelIdeal.Args.V19_arg12,
      Cert.KernelIdeal.Args.V19_arg13, Cert.KernelIdeal.Args.V19_arg14, Cert.KernelIdeal.Args.V19_arg15]

end Cert.KernelIdeal.Result

end
-- ==== Proof.RefRun.lean ====
/- The reference program's @main as a list of its host operations, and its run read back.
   The three module-local functions (@elu, and @_where and @_where_0 which it calls) are substituted at
   their call sites, over each call's record of buffers: a call of @elu is fifteen operations. The list is
   kept as consecutive stretches, a stretch ending where a call of @elu begins and where it ends and where
   one value of the reference's result term is complete; the two printed windows of @main are the
   concatenations of their stretches. -/
import proofs.«406386_j24481313587756_2_alg».proof.Proof.Gen.ReferenceIdeal
import Idealize.ShloMosaic.Lib.StableHlo.Run
import Idealize.ShloMosaic.Lib.Pipeline.Regions

noncomputable section

namespace Cert.ReferenceIdeal.Run

open Cert.ReferenceIdeal Cert.ReferenceIdeal.Gen Idealize.ShloMosaic Idealize.ShloMosaic.TcCoe Idealize.SL.Sem

variable {F : FTy → Type} [FloatOps F]

/-- An operation whose one written buffer is the reference y writes inside any list of references holding y. -/
theorem writes_sub {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-! ## The operations, stretch by stretch (151 in all)

Per stretch: the operations; the references they write; that they touch TensorCore references only; that each
determines its results; that each writes inside the stretch's list of written references. -/

/-- 11 operations. -/
abbrev ops0 : List (HloOp τ sig (Elt F)) :=
  [ StableHlo.unary main_arg2 main_v0 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v0 main_v1 rfl shapeCasts_S1x300000_S300000,
    StableHlo.nullary main_c (constantI S_ 32 0#32),
    StableHlo.unary main_c main_v2 (broadcastInDim S300000 ![] bcast_S_S300000 : (⟨S_, .i32⟩ : BufTy).Contents (Elt F) → (⟨S300000, .i32⟩ : BufTy).Contents (Elt F)),
    StableHlo.binary main_v1 main_v2 main_v3 (cmpi .slt : (⟨S300000, .i32⟩ : BufTy).Contents (Elt F) → (⟨S300000, .i32⟩ : BufTy).Contents (Elt F) → (⟨S300000, .i1⟩ : BufTy).Contents (Elt F)),
    StableHlo.nullary main_c_0 (constantI S_ 32 100000#32),
    StableHlo.unary main_c_0 main_v4 (broadcastInDim S300000 ![] bcast_S_S300000 : (⟨S_, .i32⟩ : BufTy).Contents (Elt F) → (⟨S300000, .i32⟩ : BufTy).Contents (Elt F)),
    StableHlo.binary main_v1 main_v4 main_v5 (addi : (⟨S300000, .i32⟩ : BufTy).Contents (Elt F) → (⟨S300000, .i32⟩ : BufTy).Contents (Elt F) → (⟨S300000, .i32⟩ : BufTy).Contents (Elt F)),
    StableHlo.ternary main_v3 main_v5 main_v1 main_v6 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v6 main_v7 (broadcastInDim S300000x1 ![0] bcast_S300000_S300000x1_0 : (⟨S300000, .i32⟩ : BufTy).Contents (Elt F) → (⟨S300000x1, .i32⟩ : BufTy).Contents (Elt F)),
    StableHlo.binary main_arg0 main_v7 main_v8 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)) ]
/-- The references they write, in order. -/
abbrev ops0_w : List (Ref sig .tc) :=
  [main_v0, main_v1, main_c, main_v2, main_v3, main_c_0, main_v4, main_v5, main_v6, main_v7, main_v8]
theorem ops0_sub : (ops0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem ops0_fresh : (ops0 : List (HloOp τ sig (Elt F))).Forall fun op => op.fresh = ∅ :=
  ⟨rfl, rfl, rfl, rfl, rfl, rfl, rfl, rfl, rfl, rfl, rfl⟩
theorem ops0_writes : (ops0 : List (HloOp τ sig (Elt F))).Forall fun op => op.writes ⊆ (ops0_w.map (Proc.devRef (τ := τ) .tc)).toFinset :=
  ⟨writes_sub (y := main_v0) (by decide), writes_sub (y := main_v1) (by decide), writes_sub (y := main_c) (by decide), writes_sub (y := main_v2) (by decide), writes_sub (y := main_v3) (by decide), writes_sub (y := main_c_0) (by decide), writes_sub (y := main_v4) (by decide), writes_sub (y := main_v5) (by decide), writes_sub (y := main_v6) (by decide), writes_sub (y := main_v7) (by decide), writes_sub (y := main_v8) (by decide)⟩

/-- 11 operations. -/
abbrev ops1 : List (HloOp τ sig (Elt F)) :=
  [ StableHlo.unary main_arg2 main_v9 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v9 main_v10 rfl shapeCasts_S1x300000_S300000,
    StableHlo.nullary main_c_1 (constantI S_ 32 0#32),
    StableHlo.unary main_c_1 main_v11 (broadcastInDim S300000 ![] bcast_S_S300000 : (⟨S_, .i32⟩ : BufTy).Contents (Elt F) → (⟨S300000, .i32⟩ : BufTy).Contents (Elt F)),
    StableHlo.binary main_v10 main_v11 main_v12 (cmpi .slt : (⟨S300000, .i32⟩ : BufTy).Contents (Elt F) → (⟨S300000, .i32⟩ : BufTy).Contents (Elt F) → (⟨S300000, .i1⟩ : BufTy).Contents (Elt F)),
    StableHlo.nullary main_c_2 (constantI S_ 32 100000#32),
    StableHlo.unary main_c_2 main_v13 (broadcastInDim S300000 ![] bcast_S_S300000 : (⟨S_, .i32⟩ : BufTy).Contents (Elt F) → (⟨S300000, .i32⟩ : BufTy).Contents (Elt F)),
    StableHlo.binary main_v10 main_v13 main_v14 (addi : (⟨S300000, .i32⟩ : BufTy).Contents (Elt F) → (⟨S300000, .i32⟩ : BufTy).Contents (Elt F) → (⟨S300000, .i32⟩ : BufTy).Contents (Elt F)),
    StableHlo.ternary main_v12 main_v14 main_v10 main_v15 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v15 main_v16 (broadcastInDim S300000x1 ![0] bcast_S300000_S300000x1_0 : (⟨S300000, .i32⟩ : BufTy).Contents (Elt F) → (⟨S300000x1, .i32⟩ : BufTy).Contents (Elt F)),
    StableHlo.binary main_arg1 main_v16 main_v17 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)) ]
/-- The references they write, in order. -/
abbrev ops1_w : List (Ref sig .tc) :=
  [main_v9, main_v10, main_c_1, main_v11, main_v12, main_c_2, main_v13, main_v14, main_v15, main_v16, main_v17]
theorem ops1_sub : (ops1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem ops1_fresh : (ops1 : List (HloOp τ sig (Elt F))).Forall fun op => op.fresh = ∅ :=
  ⟨rfl, rfl, rfl, rfl, rfl, rfl, rfl, rfl, rfl, rfl, rfl⟩
theorem ops1_writes : (ops1 : List (HloOp τ sig (Elt F))).Forall fun op => op.writes ⊆ (ops1_w.map (Proc.devRef (τ := τ) .tc)).toFinset :=
  ⟨writes_sub (y := main_v9) (by decide), writes_sub (y := main_v10) (by decide), writes_sub (y := main_c_1) (by decide), writes_sub (y := main_v11) (by decide), writes_sub (y := main_v12) (by decide), writes_sub (y := main_c_2) (by decide), writes_sub (y := main_v13) (by decide), writes_sub (y := main_v14) (by decide), writes_sub (y := main_v15) (by decide), writes_sub (y := main_v16) (by decide), writes_sub (y := main_v17) (by decide)⟩

/-- 5 operations. -/
abbrev ops2 : List (HloOp τ sig (Elt F)) :=
  [ StableHlo.binary main_v8 main_v17 main_v18 ((fun a b => concatenate S300000x256 1 [⟨S300000x128, a⟩, ⟨S300000x128, b⟩] concatenates_S300000x128_S300000x128_S300000x256_d1) : (⟨S300000x128, .f32⟩ : BufTy).Contents (Elt F) → (⟨S300000x128, .f32⟩ : BufTy).Contents (Elt F) → (⟨S300000x256, .f32⟩ : BufTy).Contents (Elt F)),
    StableHlo.binary main_v18 main_arg4 main_v19 ((fun l r => Host.dotGeneral dot_S300000x256_S256x128_S300000x128_1_0_0_1_n_n none l r) : (⟨S300000x256, .f32⟩ : BufTy).Contents (Elt F) → (⟨S256x128, .f32⟩ : BufTy).Contents (Elt F) → (⟨S300000x128, .f32⟩ : BufTy).Contents (Elt F)),
    StableHlo.unary main_arg5 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S300000x128 ![0, 1] bcast_S1x128_S300000x128_0_1 : (⟨S1x128, .f32⟩ : BufTy).Contents (Elt F) → (⟨S300000x128, .f32⟩ : BufTy).Contents (Elt F)),
    StableHlo.binary main_v19 main_v21 main_v22 (addf : (⟨S300000x128, .f32⟩ : BufTy).Contents (Elt F) → (⟨S300000x128, .f32⟩ : BufTy).Contents (Elt F) → (⟨S300000x128, .f32⟩ : BufTy).Contents (Elt F)) ]
/-- The references they write, in order. -/
abbrev ops2_w : List (Ref sig .tc) :=
  [main_v18, main_v19, main_v20, main_v21, main_v22]
theorem ops2_sub : (ops2 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub ..⟩
theorem ops2_fresh : (ops2 : List (HloOp τ sig (Elt F))).Forall fun op => op.fresh = ∅ :=
  ⟨rfl, rfl, rfl, rfl, rfl⟩
theorem ops2_writes : (ops2 : List (HloOp τ sig (Elt F))).Forall fun op => op.writes ⊆ (ops2_w.map (Proc.devRef (τ := τ) .tc)).toFinset :=
  ⟨writes_sub (y := main_v18) (by decide), writes_sub (y := main_v19) (by decide), writes_sub (y := main_v20) (by decide), writes_sub (y := main_v21) (by decide), writes_sub (y := main_v22) (by decide)⟩

/-- 15 operations. -/
abbrev ops3 : List (HloOp τ sig (Elt F)) :=
  [ StableHlo.TRef.nullary main_call0.cst (constant S_ .f32 0x00000000#32),
    StableHlo.TRef.unary main_call0.cst main_call0.v0 (broadcastInDim S300000x128 ![] bcast_S_S300000x128),
    StableHlo.TRef.binary (.of main_v22 : StableHlo.TRef sig ⟨S300000x128, .f32⟩) main_call0.v0 main_call0.v1 (cmpf .ogt),
    StableHlo.TRef.nullary main_call0.cst_0 (constant S_ .f32 0x00000000#32),
    StableHlo.TRef.unary main_call0.cst_0 main_call0.v2 (broadcastInDim S300000x128 ![] bcast_S_S300000x128),
    StableHlo.TRef.binary (.of main_v22 : StableHlo.TRef sig ⟨S300000x128, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S300000x128 ![] bcast_S_S300000x128),
    StableHlo.TRef.ternary main_call0.v3 main_call0.call0.v1 (.of main_v22 : StableHlo.TRef sig ⟨S300000x128, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S300000x128 ![] bcast_S_S300000x128),
    StableHlo.TRef.binary main_call0.v6 main_call0.v5 main_call0.v7 mulf,
    StableHlo.TRef.ternary main_call0.v1 (.of main_v22 : StableHlo.TRef sig ⟨S300000x128, .f32⟩) main_call0.v7 main_call0.call1.v0 select ]
/-- The references they write, in order. -/
abbrev ops3_w : List (Ref sig .tc) :=
  [main_call0.cst.ref, main_call0.v0.ref, main_call0.v1.ref, main_call0.cst_0.ref, main_call0.v2.ref, main_call0.v3.ref, main_call0.cst_1.ref, main_call0.call0.v0.ref, main_call0.call0.v1.ref, main_call0.call0.v2.ref, main_call0.v5.ref, main_call0.cst_2.ref, main_call0.v6.ref, main_call0.v7.ref, main_call0.call1.v0.ref]
theorem ops3_sub : (ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem ops3_fresh : (ops3 : List (HloOp τ sig (Elt F))).Forall fun op => op.fresh = ∅ :=
  ⟨rfl, rfl, rfl, rfl, rfl, rfl, rfl, rfl, rfl, rfl, rfl, rfl, rfl, rfl, rfl⟩
theorem ops3_writes : (ops3 : List (HloOp τ sig (Elt F))).Forall fun op => op.writes ⊆ (ops3_w.map (Proc.devRef (τ := τ) .tc)).toFinset :=
  ⟨writes_sub (y := main_call0.cst.ref) (by decide), writes_sub (y := main_call0.v0.ref) (by decide), writes_sub (y := main_call0.v1.ref) (by decide), writes_sub (y := main_call0.cst_0.ref) (by decide), writes_sub (y := main_call0.v2.ref) (by decide), writes_sub (y := main_call0.v3.ref) (by decide), writes_sub (y := main_call0.cst_1.ref) (by decide), writes_sub (y := main_call0.call0.v0.ref) (by decide), writes_sub (y := main_call0.call0.v1.ref) (by decide), writes_sub (y := main_call0.call0.v2.ref) (by decide), writes_sub (y := main_call0.v5.ref) (by decide), writes_sub (y := main_call0.cst_2.ref) (by decide), writes_sub (y := main_call0.v6.ref) (by decide), writes_sub (y := main_call0.v7.ref) (by decide), writes_sub (y := main_call0.call1.v0.ref) (by decide)⟩

/-- 4 operations. -/
abbrev ops4 : List (HloOp τ sig (Elt F)) :=
  [ StableHlo.binary main_v23 main_arg6 main_v24 ((fun l r => Host.dotGeneral dot_S300000x128_S128x128_S300000x128_1_0_0_1_n_n none l r) : (⟨S300000x128, .f32⟩ : BufTy).Contents (Elt F) → (⟨S128x128, .f32⟩ : BufTy).Contents (Elt F) → (⟨S300000x128, .f32⟩ : BufTy).Contents (Elt F)),
    StableHlo.unary main_arg7 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S300000x128 ![0, 1] bcast_S1x128_S300000x128_0_1 : (⟨S1x128, .f32⟩ : BufTy).Contents (Elt F) → (⟨S300000x128, .f32⟩ : BufTy).Contents (Elt F)),
    StableHlo.binary main_v24 main_v26 main_v27 (addf : (⟨S300000x128, .f32⟩ : BufTy).Contents (Elt F) → (⟨S300000x128, .f32⟩ : BufTy).Contents (Elt F) → (⟨S300000x128, .f32⟩ : BufTy).Contents (Elt F)) ]
/-- The references they write, in order. -/
abbrev ops4_w : List (Ref sig .tc) :=
  [main_v24, main_v25, main_v26, main_v27]
theorem ops4_sub : (ops4 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem ops4_fresh : (ops4 : List (HloOp τ sig (Elt F))).Forall fun op => op.fresh = ∅ :=
  ⟨rfl, rfl, rfl, rfl⟩
theorem ops4_writes : (ops4 : List (HloOp τ sig (Elt F))).Forall fun op => op.writes ⊆ (ops4_w.map (Proc.devRef (τ := τ) .tc)).toFinset :=
  ⟨writes_sub (y := main_v24) (by decide), writes_sub (y := main_v25) (by decide), writes_sub (y := main_v26) (by decide), writes_sub (y := main_v27) (by decide)⟩

/-- 15 operations. -/
abbrev ops5 : List (HloOp τ sig (Elt F)) :=
  [ StableHlo.TRef.nullary main_call1.cst (constant S_ .f32 0x00000000#32),
    StableHlo.TRef.unary main_call1.cst main_call1.v0 (broadcastInDim S300000x128 ![] bcast_S_S300000x128),
    StableHlo.TRef.binary (.of main_v27 : StableHlo.TRef sig ⟨S300000x128, .f32⟩) main_call1.v0 main_call1.v1 (cmpf .ogt),
    StableHlo.TRef.nullary main_call1.cst_0 (constant S_ .f32 0x00000000#32),
    StableHlo.TRef.unary main_call1.cst_0 main_call1.v2 (broadcastInDim S300000x128 ![] bcast_S_S300000x128),
    StableHlo.TRef.binary (.of main_v27 : StableHlo.TRef sig ⟨S300000x128, .f32⟩) main_call1.v2 main_call1.v3 (cmpf .ogt),
    StableHlo.TRef.nullary main_call1.cst_1 (constant S_ .f32 0x00000000#32),
    StableHlo.TRef.unary main_call1.cst_1 main_call1.call0.v0 id,
    StableHlo.TRef.unary main_call1.call0.v0 main_call1.call0.v1 (broadcastInDim S300000x128 ![] bcast_S_S300000x128),
    StableHlo.TRef.ternary main_call1.v3 main_call1.call0.v1 (.of main_v27 : StableHlo.TRef sig ⟨S300000x128, .f32⟩) main_call1.call0.v2 select,
    StableHlo.TRef.unary main_call1.call0.v2 main_call1.v5 Host.expm1,
    StableHlo.TRef.nullary main_call1.cst_2 (constant S_ .f32 0x3F800000#32),
    StableHlo.TRef.unary main_call1.cst_2 main_call1.v6 (broadcastInDim S300000x128 ![] bcast_S_S300000x128),
    StableHlo.TRef.binary main_call1.v6 main_call1.v5 main_call1.v7 mulf,
    StableHlo.TRef.ternary main_call1.v1 (.of main_v27 : StableHlo.TRef sig ⟨S300000x128, .f32⟩) main_call1.v7 main_call1.call1.v0 select ]
/-- The references they write, in order. -/
abbrev ops5_w : List (Ref sig .tc) :=
  [main_call1.cst.ref, main_call1.v0.ref, main_call1.v1.ref, main_call1.cst_0.ref, main_call1.v2.ref, main_call1.v3.ref, main_call1.cst_1.ref, main_call1.call0.v0.ref, main_call1.call0.v1.ref, main_call1.call0.v2.ref, main_call1.v5.ref, main_call1.cst_2.ref, main_call1.v6.ref, main_call1.v7.ref, main_call1.call1.v0.ref]
theorem ops5_sub : (ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem ops5_fresh : (ops5 : List (HloOp τ sig (Elt F))).Forall fun op => op.fresh = ∅ :=
  ⟨rfl, rfl, rfl, rfl, rfl, rfl, rfl, rfl, rfl, rfl, rfl, rfl, rfl, rfl, rfl⟩
theorem ops5_writes : (ops5 : List (HloOp τ sig (Elt F))).Forall fun op => op.writes ⊆ (ops5_w.map (Proc.devRef (τ := τ) .tc)).toFinset :=
  ⟨writes_sub (y := main_call1.cst.ref) (by decide), writes_sub (y := main_call1.v0.ref) (by decide), writes_sub (y := main_call1.v1.ref) (by decide), writes_sub (y := main_call1.cst_0.ref) (by decide), writes_sub (y := main_call1.v2.ref) (by decide), writes_sub (y := main_call1.v3.ref) (by decide), writes_sub (y := main_call1.cst_1.ref) (by decide), writes_sub (y := main_call1.call0.v0.ref) (by decide), writes_sub (y := main_call1.call0.v1.ref) (by decide), writes_sub (y := main_call1.call0.v2.ref) (by decide), writes_sub (y := main_call1.v5.ref) (by decide), writes_sub (y := main_call1.cst_2.ref) (by decide), writes_sub (y := main_call1.v6.ref) (by decide), writes_sub (y := main_call1.v7.ref) (by decide), writes_sub (y := main_call1.call1.v0.ref) (by decide)⟩

/-- 13 operations. -/
abbrev ops6 : List (HloOp τ sig (Elt F)) :=
  [ StableHlo.binary main_v28 main_arg8 main_v29 ((fun l r => Host.dotGeneral dot_S300000x128_S128x1_S300000x1_1_0_0_1_n_n none l r) : (⟨S300000x128, .f32⟩ : BufTy).Contents (Elt F) → (⟨S128x1, .f32⟩ : BufTy).Contents (Elt F) → (⟨S300000x1, .f32⟩ : BufTy).Contents (Elt F)),
    StableHlo.unary main_arg9 main_v30 (broadcastInDim S1x1 ![1] bcast_S1_S1x1_1 : (⟨S1, .f32⟩ : BufTy).Contents (Elt F) → (⟨S1x1, .f32⟩ : BufTy).Contents (Elt F)),
    StableHlo.unary main_v30 main_v31 (broadcastInDim S300000x1 ![0, 1] bcast_S1x1_S300000x1_0_1 : (⟨S1x1, .f32⟩ : BufTy).Contents (Elt F) → (⟨S300000x1, .f32⟩ : BufTy).Contents (Elt F)),
    StableHlo.binary main_v29 main_v31 main_v32 (addf : (⟨S300000x1, .f32⟩ : BufTy).Contents (Elt F) → (⟨S300000x1, .f32⟩ : BufTy).Contents (Elt F) → (⟨S300000x1, .f32⟩ : BufTy).Contents (Elt F)),
    StableHlo.unary main_v32 main_v33 (Host.negf : (⟨S300000x1, .f32⟩ : BufTy).Contents (Elt F) → (⟨S300000x1, .f32⟩ : BufTy).Contents (Elt F)),
    StableHlo.unary main_v33 main_v34 (Host.exp : (⟨S300000x1, .f32⟩ : BufTy).Contents (Elt F) → (⟨S300000x1, .f32⟩ : BufTy).Contents (Elt F)),
    StableHlo.nullary main_cst (constant S_ .f32 0x3F800000#32),
    StableHlo.unary main_cst main_v35 (broadcastInDim S300000x1 ![] bcast_S_S300000x1 : (⟨S_, .f32⟩ : BufTy).Contents (Elt F) → (⟨S300000x1, .f32⟩ : BufTy).Contents (Elt F)),
    StableHlo.binary main_v35 main_v34 main_v36 (addf : (⟨S300000x1, .f32⟩ : BufTy).Contents (Elt F) → (⟨S300000x1, .f32⟩ : BufTy).Contents (Elt F) → (⟨S300000x1, .f32⟩ : BufTy).Contents (Elt F)),
    StableHlo.nullary main_cst_3 (constant S_ .f32 0x3F800000#32),
    StableHlo.unary main_cst_3 main_v37 (broadcastInDim S300000x1 ![] bcast_S_S300000x1 : (⟨S_, .f32⟩ : BufTy).Contents (Elt F) → (⟨S300000x1, .f32⟩ : BufTy).Contents (Elt F)),
    StableHlo.binary main_v37 main_v36 main_v38 (Host.divf : (⟨S300000x1, .f32⟩ : BufTy).Contents (Elt F) → (⟨S300000x1, .f32⟩ : BufTy).Contents (Elt F) → (⟨S300000x1, .f32⟩ : BufTy).Contents (Elt F)),
    StableHlo.reshape main_v38 main_v39 rfl shapeCasts_S300000x1_S300000 ]
/-- The references they write, in order. -/
abbrev ops6_w : List (Ref sig .tc) :=
  [main_v29, main_v30, main_v31, main_v32, main_v33, main_v34, main_cst, main_v35, main_v36, main_cst_3, main_v37, main_v38, main_v39]
theorem ops6_sub : (ops6 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub ..⟩
theorem ops6_fresh : (ops6 : List (HloOp τ sig (Elt F))).Forall fun op => op.fresh = ∅ :=
  ⟨rfl, rfl, rfl, rfl, rfl, rfl, rfl, rfl, rfl, rfl, rfl, rfl, rfl⟩
theorem ops6_writes : (ops6 : List (HloOp τ sig (Elt F))).Forall fun op => op.writes ⊆ (ops6_w.map (Proc.devRef (τ := τ) .tc)).toFinset :=
  ⟨writes_sub (y := main_v29) (by decide), writes_sub (y := main_v30) (by decide), writes_sub (y := main_v31) (by decide), writes_sub (y := main_v32) (by decide), writes_sub (y := main_v33) (by decide), writes_sub (y := main_v34) (by decide), writes_sub (y := main_cst) (by decide), writes_sub (y := main_v35) (by decide), writes_sub (y := main_v36) (by decide), writes_sub (y := main_cst_3) (by decide), writes_sub (y := main_v37) (by decide), writes_sub (y := main_v38) (by decide), writes_sub (y := main_v39) (by decide)⟩

/-- 11 operations. -/
abbrev ops7 : List (HloOp τ sig (Elt F)) :=
  [ StableHlo.unary main_arg3 main_v40 ((extractStridedSlice S1x300000 ![0, 0] · slices_S2x300000_S1x300000_0_0) : (⟨S2x300000, .i32⟩ : BufTy).Contents (Elt F) → (⟨S1x300000, .i32⟩ : BufTy).Contents (Elt F)),
    StableHlo.reshape main_v40 main_v41 rfl shapeCasts_S1x300000_S300000,
    StableHlo.nullary main_c_4 (constantI S_ 32 0#32),
    StableHlo.unary main_c_4 main_v42 (broadcastInDim S300000 ![] bcast_S_S300000 : (⟨S_, .i32⟩ : BufTy).Contents (Elt F) → (⟨S300000, .i32⟩ : BufTy).Contents (Elt F)),
    StableHlo.binary main_v41 main_v42 main_v43 (cmpi .slt : (⟨S300000, .i32⟩ : BufTy).Contents (Elt F) → (⟨S300000, .i32⟩ : BufTy).Contents (Elt F) → (⟨S300000, .i1⟩ : BufTy).Contents (Elt F)),
    StableHlo.nullary main_c_5 (constantI S_ 32 100000#32),
    StableHlo.unary main_c_5 main_v44 (broadcastInDim S300000 ![] bcast_S_S300000 : (⟨S_, .i32⟩ : BufTy).Contents (Elt F) → (⟨S300000, .i32⟩ : BufTy).Contents (Elt F)),
    StableHlo.binary main_v41 main_v44 main_v45 (addi : (⟨S300000, .i32⟩ : BufTy).Contents (Elt F) → (⟨S300000, .i32⟩ : BufTy).Contents (Elt F) → (⟨S300000, .i32⟩ : BufTy).Contents (Elt F)),
    StableHlo.ternary main_v43 main_v45 main_v41 main_v46 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v46 main_v47 (broadcastInDim S300000x1 ![0] bcast_S300000_S300000x1_0 : (⟨S300000, .i32⟩ : BufTy).Contents (Elt F) → (⟨S300000x1, .i32⟩ : BufTy).Contents (Elt F)),
    StableHlo.binary main_arg1 main_v47 main_v48 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)) ]
/-- The references they write, in order. -/
abbrev ops7_w : List (Ref sig .tc) :=
  [main_v40, main_v41, main_c_4, main_v42, main_v43, main_c_5, main_v44, main_v45, main_v46, main_v47, main_v48]
theorem ops7_sub : (ops7 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem ops7_fresh : (ops7 : List (HloOp τ sig (Elt F))).Forall fun op => op.fresh = ∅ :=
  ⟨rfl, rfl, rfl, rfl, rfl, rfl, rfl, rfl, rfl, rfl, rfl⟩
theorem ops7_writes : (ops7 : List (HloOp τ sig (Elt F))).Forall fun op => op.writes ⊆ (ops7_w.map (Proc.devRef (τ := τ) .tc)).toFinset :=
  ⟨writes_sub (y := main_v40) (by decide), writes_sub (y := main_v41) (by decide), writes_sub (y := main_c_4) (by decide), writes_sub (y := main_v42) (by decide), writes_sub (y := main_v43) (by decide), writes_sub (y := main_c_5) (by decide), writes_sub (y := main_v44) (by decide), writes_sub (y := main_v45) (by decide), writes_sub (y := main_v46) (by decide), writes_sub (y := main_v47) (by decide), writes_sub (y := main_v48) (by decide)⟩

/-- 3 operations. -/
abbrev ops8 : List (HloOp τ sig (Elt F)) :=
  [ StableHlo.unary main_arg3 main_v49 ((extractStridedSlice S1x300000 ![1, 0] · slices_S2x300000_S1x300000_1_0) : (⟨S2x300000, .i32⟩ : BufTy).Contents (Elt F) → (⟨S1x300000, .i32⟩ : BufTy).Contents (Elt F)),
    StableHlo.reshape main_v49 main_v50 rfl shapeCasts_S1x300000_S300000,
    StableHlo.nullary main_c_6 (constantI S_ 32 0#32) ]
/-- The references they write, in order. -/
abbrev ops8_w : List (Ref sig .tc) :=
  [main_v49, main_v50, main_c_6]
theorem ops8_sub : (ops8 : List (HloOp τ sig (Elt F))).Forall fun op => op.bufs ⊆ StableHlo.tcRefs τ sig :=
  ⟨StableHlo.unary_bufs_sub .., StableHlo.reshape_bufs_sub .., StableHlo.nullary_bufs_sub ..⟩
theorem ops8_fresh : (ops8 : List (HloOp τ sig (Elt F))).Forall fun op => op.fresh = ∅ :=
  ⟨rfl, rfl, rfl⟩
theorem ops8_writes : (ops8 : List (HloOp τ sig (Elt F))).Forall fun op => op.writes ⊆ (ops8_w.map (Proc.devRef (τ := τ) .tc)).toFinset :=
  ⟨writes_sub (y := main_v49) (by decide), writes_sub (y := main_v50) (by decide), writes_sub (y := main_c_6) (by decide)⟩

/-- 8 operations. -/
abbrev ops9 : List (HloOp τ sig (Elt F)) :=
  [ StableHlo.unary main_c_6 main_v51 (broadcastInDim S300000 ![] bcast_S_S300000 : (⟨S_, .i32⟩ : BufTy).Contents (Elt F) → (⟨S300000, .i32⟩ : BufTy).Contents (Elt F)),
    StableHlo.binary main_v50 main_v51 main_v52 (cmpi .slt : (⟨S300000, .i32⟩ : BufTy).Contents (Elt F) → (⟨S300000, .i32⟩ : BufTy).Contents (Elt F) → (⟨S300000, .i1⟩ : BufTy).Contents (Elt F)),
    StableHlo.nullary main_c_7 (constantI S_ 32 100000#32),
    StableHlo.unary main_c_7 main_v53 (broadcastInDim S300000 ![] bcast_S_S300000 : (⟨S_, .i32⟩ : BufTy).Contents (Elt F) → (⟨S300000, .i32⟩ : BufTy).Contents (Elt F)),
    StableHlo.binary main_v50 main_v53 main_v54 (addi : (⟨S300000, .i32⟩ : BufTy).Contents (Elt F) → (⟨S300000, .i32⟩ : BufTy).Contents (Elt F) → (⟨S300000, .i32⟩ : BufTy).Contents (Elt F)),
    StableHlo.ternary main_v52 main_v54 main_v50 main_v55 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v55 main_v56 (broadcastInDim S300000x1 ![0] bcast_S300000_S300000x1_0 : (⟨S300000, .i32⟩ : BufTy).Contents (Elt F) → (⟨S300000x1, .i32⟩ : BufTy).Contents (Elt F)),
    StableHlo.binary main_arg0 main_v56 main_v57 ((fun x i => Host.gather gather_S100000x128_S300000x1_S300000x128_1_0_n_n_0_1_1128 x i) : (⟨S100000x128, .f32⟩ : BufTy).Contents (Elt F) → (⟨S300000x1, .i32⟩ : BufTy).Contents (Elt F) → (⟨S300000x128, .f32⟩ : BufTy).Contents (Elt F)) ]
/-- The references they write, in order. -/
abbrev ops9_w : List (Ref sig .tc) :=
  [main_v51, main_v52, main_c_7, main_v53, main_v54, main_v55, main_v56, main_v57]
theorem ops9_sub : (ops9 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
theorem ops9_fresh : (ops9 : List (HloOp τ sig (Elt F))).Forall fun op => op.fresh = ∅ :=
  ⟨rfl, rfl, rfl, rfl, rfl, rfl, rfl, rfl⟩
theorem ops9_writes : (ops9 : List (HloOp τ sig (Elt F))).Forall fun op => op.writes ⊆ (ops9_w.map (Proc.devRef (τ := τ) .tc)).toFinset :=
  ⟨writes_sub (y := main_v51) (by decide), writes_sub (y := main_v52) (by decide), writes_sub (y := main_c_7) (by decide), writes_sub (y := main_v53) (by decide), writes_sub (y := main_v54) (by decide), writes_sub (y := main_v55) (by decide), writes_sub (y := main_v56) (by decide), writes_sub (y := main_v57) (by decide)⟩

/-- 5 operations. -/
abbrev ops10 : List (HloOp τ sig (Elt F)) :=
  [ StableHlo.binary main_v48 main_v57 main_v58 ((fun a b => concatenate S300000x256 1 [⟨S300000x128, a⟩, ⟨S300000x128, b⟩] concatenates_S300000x128_S300000x128_S300000x256_d1) : (⟨S300000x128, .f32⟩ : BufTy).Contents (Elt F) → (⟨S300000x128, .f32⟩ : BufTy).Contents (Elt F) → (⟨S300000x256, .f32⟩ : BufTy).Contents (Elt F)),
    StableHlo.binary main_v58 main_arg10 main_v59 ((fun l r => Host.dotGeneral dot_S300000x256_S256x128_S300000x128_1_0_0_1_n_n none l r) : (⟨S300000x256, .f32⟩ : BufTy).Contents (Elt F) → (⟨S256x128, .f32⟩ : BufTy).Contents (Elt F) → (⟨S300000x128, .f32⟩ : BufTy).Contents (Elt F)),
    StableHlo.unary main_arg11 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S300000x128 ![0, 1] bcast_S1x128_S300000x128_0_1 : (⟨S1x128, .f32⟩ : BufTy).Contents (Elt F) → (⟨S300000x128, .f32⟩ : BufTy).Contents (Elt F)),
    StableHlo.binary main_v59 main_v61 main_v62 (addf : (⟨S300000x128, .f32⟩ : BufTy).Contents (Elt F) → (⟨S300000x128, .f32⟩ : BufTy).Contents (Elt F) → (⟨S300000x128, .f32⟩ : BufTy).Contents (Elt F)) ]
/-- The references they write, in order. -/
abbrev ops10_w : List (Ref sig .tc) :=
  [main_v58, main_v59, main_v60, main_v61, main_v62]
theorem ops10_sub : (ops10 : List (HloOp τ sig (Elt F))).Forall fun op => op.bufs ⊆ StableHlo.tcRefs τ sig :=
  ⟨StableHlo.binary_bufs_sub .., StableHlo.binary_bufs_sub .., StableHlo.unary_bufs_sub .., StableHlo.unary_bufs_sub .., StableHlo.binary_bufs_sub ..⟩
theorem ops10_fresh : (ops10 : List (HloOp τ sig (Elt F))).Forall fun op => op.fresh = ∅ :=
  ⟨rfl, rfl, rfl, rfl, rfl⟩
theorem ops10_writes : (ops10 : List (HloOp τ sig (Elt F))).Forall fun op => op.writes ⊆ (ops10_w.map (Proc.devRef (τ := τ) .tc)).toFinset :=
  ⟨writes_sub (y := main_v58) (by decide), writes_sub (y := main_v59) (by decide), writes_sub (y := main_v60) (by decide), writes_sub (y := main_v61) (by decide), writes_sub (y := main_v62) (by decide)⟩

/-- 15 operations. -/
abbrev ops11 : List (HloOp τ sig (Elt F)) :=
  [ StableHlo.TRef.nullary main_call2.cst (constant S_ .f32 0x00000000#32),
    StableHlo.TRef.unary main_call2.cst main_call2.v0 (broadcastInDim S300000x128 ![] bcast_S_S300000x128),
    StableHlo.TRef.binary (.of main_v62 : StableHlo.TRef sig ⟨S300000x128, .f32⟩) main_call2.v0 main_call2.v1 (cmpf .ogt),
    StableHlo.TRef.nullary main_call2.cst_0 (constant S_ .f32 0x00000000#32),
    StableHlo.TRef.unary main_call2.cst_0 main_call2.v2 (broadcastInDim S300000x128 ![] bcast_S_S300000x128),
    StableHlo.TRef.binary (.of main_v62 : StableHlo.TRef sig ⟨S300000x128, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S300000x128 ![] bcast_S_S300000x128),
    StableHlo.TRef.ternary main_call2.v3 main_call2.call0.v1 (.of main_v62 : StableHlo.TRef sig ⟨S300000x128, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S300000x128 ![] bcast_S_S300000x128),
    StableHlo.TRef.binary main_call2.v6 main_call2.v5 main_call2.v7 mulf,
    StableHlo.TRef.ternary main_call2.v1 (.of main_v62 : StableHlo.TRef sig ⟨S300000x128, .f32⟩) main_call2.v7 main_call2.call1.v0 select ]
/-- The references they write, in order. -/
abbrev ops11_w : List (Ref sig .tc) :=
  [main_call2.cst.ref, main_call2.v0.ref, main_call2.v1.ref, main_call2.cst_0.ref, main_call2.v2.ref, main_call2.v3.ref, main_call2.cst_1.ref, main_call2.call0.v0.ref, main_call2.call0.v1.ref, main_call2.call0.v2.ref, main_call2.v5.ref, main_call2.cst_2.ref, main_call2.v6.ref, main_call2.v7.ref, main_call2.call1.v0.ref]
theorem ops11_sub : (ops11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem ops11_fresh : (ops11 : List (HloOp τ sig (Elt F))).Forall fun op => op.fresh = ∅ :=
  ⟨rfl, rfl, rfl, rfl, rfl, rfl, rfl, rfl, rfl, rfl, rfl, rfl, rfl, rfl, rfl⟩
theorem ops11_writes : (ops11 : List (HloOp τ sig (Elt F))).Forall fun op => op.writes ⊆ (ops11_w.map (Proc.devRef (τ := τ) .tc)).toFinset :=
  ⟨writes_sub (y := main_call2.cst.ref) (by decide), writes_sub (y := main_call2.v0.ref) (by decide), writes_sub (y := main_call2.v1.ref) (by decide), writes_sub (y := main_call2.cst_0.ref) (by decide), writes_sub (y := main_call2.v2.ref) (by decide), writes_sub (y := main_call2.v3.ref) (by decide), writes_sub (y := main_call2.cst_1.ref) (by decide), writes_sub (y := main_call2.call0.v0.ref) (by decide), writes_sub (y := main_call2.call0.v1.ref) (by decide), writes_sub (y := main_call2.call0.v2.ref) (by decide), writes_sub (y := main_call2.v5.ref) (by decide), writes_sub (y := main_call2.cst_2.ref) (by decide), writes_sub (y := main_call2.v6.ref) (by decide), writes_sub (y := main_call2.v7.ref) (by decide), writes_sub (y := main_call2.call1.v0.ref) (by decide)⟩

/-- 4 operations. -/
abbrev ops12 : List (HloOp τ sig (Elt F)) :=
  [ StableHlo.binary main_v63 main_arg12 main_v64 ((fun l r => Host.dotGeneral dot_S300000x128_S128x128_S300000x128_1_0_0_1_n_n none l r) : (⟨S300000x128, .f32⟩ : BufTy).Contents (Elt F) → (⟨S128x128, .f32⟩ : BufTy).Contents (Elt F) → (⟨S300000x128, .f32⟩ : BufTy).Contents (Elt F)),
    StableHlo.unary main_arg13 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S300000x128 ![0, 1] bcast_S1x128_S300000x128_0_1 : (⟨S1x128, .f32⟩ : BufTy).Contents (Elt F) → (⟨S300000x128, .f32⟩ : BufTy).Contents (Elt F)),
    StableHlo.binary main_v64 main_v66 main_v67 (addf : (⟨S300000x128, .f32⟩ : BufTy).Contents (Elt F) → (⟨S300000x128, .f32⟩ : BufTy).Contents (Elt F) → (⟨S300000x128, .f32⟩ : BufTy).Contents (Elt F)) ]
/-- The references they write, in order. -/
abbrev ops12_w : List (Ref sig .tc) :=
  [main_v64, main_v65, main_v66, main_v67]
theorem ops12_sub : (ops12 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub ..⟩
theorem ops12_fresh : (ops12 : List (HloOp τ sig (Elt F))).Forall fun op => op.fresh = ∅ :=
  ⟨rfl, rfl, rfl, rfl⟩
theorem ops12_writes : (ops12 : List (HloOp τ sig (Elt F))).Forall fun op => op.writes ⊆ (ops12_w.map (Proc.devRef (τ := τ) .tc)).toFinset :=
  ⟨writes_sub (y := main_v64) (by decide), writes_sub (y := main_v65) (by decide), writes_sub (y := main_v66) (by decide), writes_sub (y := main_v67) (by decide)⟩

/-- 15 operations. -/
abbrev ops13 : List (HloOp τ sig (Elt F)) :=
  [ StableHlo.TRef.nullary main_call3.cst (constant S_ .f32 0x00000000#32),
    StableHlo.TRef.unary main_call3.cst main_call3.v0 (broadcastInDim S300000x128 ![] bcast_S_S300000x128),
    StableHlo.TRef.binary (.of main_v67 : StableHlo.TRef sig ⟨S300000x128, .f32⟩) main_call3.v0 main_call3.v1 (cmpf .ogt),
    StableHlo.TRef.nullary main_call3.cst_0 (constant S_ .f32 0x00000000#32),
    StableHlo.TRef.unary main_call3.cst_0 main_call3.v2 (broadcastInDim S300000x128 ![] bcast_S_S300000x128),
    StableHlo.TRef.binary (.of main_v67 : StableHlo.TRef sig ⟨S300000x128, .f32⟩) main_call3.v2 main_call3.v3 (cmpf .ogt),
    StableHlo.TRef.nullary main_call3.cst_1 (constant S_ .f32 0x00000000#32),
    StableHlo.TRef.unary main_call3.cst_1 main_call3.call0.v0 id,
    StableHlo.TRef.unary main_call3.call0.v0 main_call3.call0.v1 (broadcastInDim S300000x128 ![] bcast_S_S300000x128),
    StableHlo.TRef.ternary main_call3.v3 main_call3.call0.v1 (.of main_v67 : StableHlo.TRef sig ⟨S300000x128, .f32⟩) main_call3.call0.v2 select,
    StableHlo.TRef.unary main_call3.call0.v2 main_call3.v5 Host.expm1,
    StableHlo.TRef.nullary main_call3.cst_2 (constant S_ .f32 0x3F800000#32),
    StableHlo.TRef.unary main_call3.cst_2 main_call3.v6 (broadcastInDim S300000x128 ![] bcast_S_S300000x128),
    StableHlo.TRef.binary main_call3.v6 main_call3.v5 main_call3.v7 mulf,
    StableHlo.TRef.ternary main_call3.v1 (.of main_v67 : StableHlo.TRef sig ⟨S300000x128, .f32⟩) main_call3.v7 main_call3.call1.v0 select ]
/-- The references they write, in order. -/
abbrev ops13_w : List (Ref sig .tc) :=
  [main_call3.cst.ref, main_call3.v0.ref, main_call3.v1.ref, main_call3.cst_0.ref, main_call3.v2.ref, main_call3.v3.ref, main_call3.cst_1.ref, main_call3.call0.v0.ref, main_call3.call0.v1.ref, main_call3.call0.v2.ref, main_call3.v5.ref, main_call3.cst_2.ref, main_call3.v6.ref, main_call3.v7.ref, main_call3.call1.v0.ref]
theorem ops13_sub : (ops13 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.nullary_bufs_sub .., StableHlo.unary_bufs_sub .., StableHlo.binary_bufs_sub .., StableHlo.ternary_bufs_sub ..⟩
theorem ops13_fresh : (ops13 : List (HloOp τ sig (Elt F))).Forall fun op => op.fresh = ∅ :=
  ⟨rfl, rfl, rfl, rfl, rfl, rfl, rfl, rfl, rfl, rfl, rfl, rfl, rfl, rfl, rfl⟩
theorem ops13_writes : (ops13 : List (HloOp τ sig (Elt F))).Forall fun op => op.writes ⊆ (ops13_w.map (Proc.devRef (τ := τ) .tc)).toFinset :=
  ⟨writes_sub (y := main_call3.cst.ref) (by decide), writes_sub (y := main_call3.v0.ref) (by decide), writes_sub (y := main_call3.v1.ref) (by decide), writes_sub (y := main_call3.cst_0.ref) (by decide), writes_sub (y := main_call3.v2.ref) (by decide), writes_sub (y := main_call3.v3.ref) (by decide), writes_sub (y := main_call3.cst_1.ref) (by decide), writes_sub (y := main_call3.call0.v0.ref) (by decide), writes_sub (y := main_call3.call0.v1.ref) (by decide), writes_sub (y := main_call3.call0.v2.ref) (by decide), writes_sub (y := main_call3.v5.ref) (by decide), writes_sub (y := main_call3.cst_2.ref) (by decide), writes_sub (y := main_call3.v6.ref) (by decide), writes_sub (y := main_call3.v7.ref) (by decide), writes_sub (y := main_call3.call1.v0.ref) (by decide)⟩

/-- 13 operations. -/
abbrev ops14 : List (HloOp τ sig (Elt F)) :=
  [ StableHlo.binary main_v68 main_arg14 main_v69 ((fun l r => Host.dotGeneral dot_S300000x128_S128x1_S300000x1_1_0_0_1_n_n none l r) : (⟨S300000x128, .f32⟩ : BufTy).Contents (Elt F) → (⟨S128x1, .f32⟩ : BufTy).Contents (Elt F) → (⟨S300000x1, .f32⟩ : BufTy).Contents (Elt F)),
    StableHlo.unary main_arg15 main_v70 (broadcastInDim S1x1 ![1] bcast_S1_S1x1_1 : (⟨S1, .f32⟩ : BufTy).Contents (Elt F) → (⟨S1x1, .f32⟩ : BufTy).Contents (Elt F)),
    StableHlo.unary main_v70 main_v71 (broadcastInDim S300000x1 ![0, 1] bcast_S1x1_S300000x1_0_1 : (⟨S1x1, .f32⟩ : BufTy).Contents (Elt F) → (⟨S300000x1, .f32⟩ : BufTy).Contents (Elt F)),
    StableHlo.binary main_v69 main_v71 main_v72 (addf : (⟨S300000x1, .f32⟩ : BufTy).Contents (Elt F) → (⟨S300000x1, .f32⟩ : BufTy).Contents (Elt F) → (⟨S300000x1, .f32⟩ : BufTy).Contents (Elt F)),
    StableHlo.unary main_v72 main_v73 (Host.negf : (⟨S300000x1, .f32⟩ : BufTy).Contents (Elt F) → (⟨S300000x1, .f32⟩ : BufTy).Contents (Elt F)),
    StableHlo.unary main_v73 main_v74 (Host.exp : (⟨S300000x1, .f32⟩ : BufTy).Contents (Elt F) → (⟨S300000x1, .f32⟩ : BufTy).Contents (Elt F)),
    StableHlo.nullary main_cst_8 (constant S_ .f32 0x3F800000#32),
    StableHlo.unary main_cst_8 main_v75 (broadcastInDim S300000x1 ![] bcast_S_S300000x1 : (⟨S_, .f32⟩ : BufTy).Contents (Elt F) → (⟨S300000x1, .f32⟩ : BufTy).Contents (Elt F)),
    StableHlo.binary main_v75 main_v74 main_v76 (addf : (⟨S300000x1, .f32⟩ : BufTy).Contents (Elt F) → (⟨S300000x1, .f32⟩ : BufTy).Contents (Elt F) → (⟨S300000x1, .f32⟩ : BufTy).Contents (Elt F)),
    StableHlo.nullary main_cst_9 (constant S_ .f32 0x3F800000#32),
    StableHlo.unary main_cst_9 main_v77 (broadcastInDim S300000x1 ![] bcast_S_S300000x1 : (⟨S_, .f32⟩ : BufTy).Contents (Elt F) → (⟨S300000x1, .f32⟩ : BufTy).Contents (Elt F)),
    StableHlo.binary main_v77 main_v76 main_v78 (Host.divf : (⟨S300000x1, .f32⟩ : BufTy).Contents (Elt F) → (⟨S300000x1, .f32⟩ : BufTy).Contents (Elt F) → (⟨S300000x1, .f32⟩ : BufTy).Contents (Elt F)),
    StableHlo.reshape main_v78 main_v79 rfl shapeCasts_S300000x1_S300000 ]
/-- The references they write, in order. -/
abbrev ops14_w : List (Ref sig .tc) :=
  [main_v69, main_v70, main_v71, main_v72, main_v73, main_v74, main_cst_8, main_v75, main_v76, main_cst_9, main_v77, main_v78, main_v79]
theorem ops14_sub : (ops14 : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub ..⟩
theorem ops14_fresh : (ops14 : List (HloOp τ sig (Elt F))).Forall fun op => op.fresh = ∅ :=
  ⟨rfl, rfl, rfl, rfl, rfl, rfl, rfl, rfl, rfl, rfl, rfl, rfl, rfl⟩
theorem ops14_writes : (ops14 : List (HloOp τ sig (Elt F))).Forall fun op => op.writes ⊆ (ops14_w.map (Proc.devRef (τ := τ) .tc)).toFinset :=
  ⟨writes_sub (y := main_v69) (by decide), writes_sub (y := main_v70) (by decide), writes_sub (y := main_v71) (by decide), writes_sub (y := main_v72) (by decide), writes_sub (y := main_v73) (by decide), writes_sub (y := main_v74) (by decide), writes_sub (y := main_cst_8) (by decide), writes_sub (y := main_v75) (by decide), writes_sub (y := main_v76) (by decide), writes_sub (y := main_cst_9) (by decide), writes_sub (y := main_v77) (by decide), writes_sub (y := main_v78) (by decide), writes_sub (y := main_v79) (by decide)⟩

/-- 3 operations. -/
abbrev ops15 : List (HloOp τ sig (Elt F)) :=
  [ StableHlo.unary main_v39 main_v80 (broadcastInDim S1x300000 ![1] bcast_S300000_S1x300000_1 : (⟨S300000, .f32⟩ : BufTy).Contents (Elt F) → (⟨S1x300000, .f32⟩ : BufTy).Contents (Elt F)),
    StableHlo.unary main_v79 main_v81 (broadcastInDim S1x300000 ![1] bcast_S300000_S1x300000_1 : (⟨S300000, .f32⟩ : BufTy).Contents (Elt F) → (⟨S1x300000, .f32⟩ : BufTy).Contents (Elt F)),
    StableHlo.binary main_v80 main_v81 main_v82 ((fun a b => concatenate S2x300000 0 [⟨S1x300000, a⟩, ⟨S1x300000, b⟩] concatenates_S1x300000_S1x300000_S2x300000_d0) : (⟨S1x300000, .f32⟩ : BufTy).Contents (Elt F) → (⟨S1x300000, .f32⟩ : BufTy).Contents (Elt F) → (⟨S2x300000, .f32⟩ : BufTy).Contents (Elt F)) ]
/-- The references they write, in order. -/
abbrev ops15_w : List (Ref sig .tc) :=
  [main_v80, main_v81, main_v82]
theorem ops15_sub : (ops15 : List (HloOp τ sig (Elt F))).Forall fun op => op.bufs ⊆ StableHlo.tcRefs τ sig :=
  ⟨StableHlo.unary_bufs_sub .., StableHlo.unary_bufs_sub .., StableHlo.binary_bufs_sub ..⟩
theorem ops15_fresh : (ops15 : List (HloOp τ sig (Elt F))).Forall fun op => op.fresh = ∅ :=
  ⟨rfl, rfl, rfl⟩
theorem ops15_writes : (ops15 : List (HloOp τ sig (Elt F))).Forall fun op => op.writes ⊆ (ops15_w.map (Proc.devRef (τ := τ) .tc)).toFinset :=
  ⟨writes_sub (y := main_v80) (by decide), writes_sub (y := main_v81) (by decide), writes_sub (y := main_v82) (by decide)⟩

/-- The first printed window's operations. -/
abbrev opsW0 : List (HloOp τ sig (Elt F)) := ops0 ++ ops1 ++ ops2 ++ ops3 ++ ops4 ++ ops5 ++ ops6 ++ ops7 ++ ops8
/-- The second printed window's operations. -/
abbrev opsW1 : List (HloOp τ sig (Elt F)) := ops9 ++ ops10 ++ ops11 ++ ops12 ++ ops13 ++ ops14 ++ ops15
/-- @main's operations, in order. -/
abbrev ops : List (HloOp τ sig (Elt F)) := opsW0 ++ opsW1

/-! ## @main is that straight line -/

/-- The first window is the line of its operations: both sides are one chain of operation steps once the
    callees' definitions are opened at their calls and sequencing is re-associated, which is computation
    in the free monad (a bind of a step is a step, a bind of a return is its continuation). The window's
    last statement stands in tail position; the line ends it with a return, which the last step's
    continuation already is. -/
theorem window0_eq (c : Dev nD) : main_part0 (F := F) c = StableHlo.seq opsW0 := by
  chain_rfl

/-- The second window likewise (it ends with the function's return). -/
theorem window1_eq (c : Dev nD) : main_part1 (F := F) c = StableHlo.seq opsW1 := by
  chain_rfl

/-- @main runs its two windows in order: the line of the concatenation. -/
theorem main_eq (c : Dev nD) : main (F := F) c = StableHlo.seq ops := by
  rw [StableHlo.seq_append, ← window0_eq c, ← window1_eq c]
  rfl

/-! ## The side conditions of the run -/

-- 167 references enumerated
set_option maxRecDepth 4096 in
theorem scopedRefs_eq : (Finset.univ.filter fun b : Ref sig .tc => b.isScoped) = ∅ := by decide
theorem scopedSems_eq : (Finset.univ.filter fun sm : SemLoc sig => sm.isScoped .tc) = ∅ := by decide

/-- Touching TensorCore references only. -/
abbrev PSub : HloOp τ sig (Elt F) → Prop := fun op => op.bufs ⊆ StableHlo.tcRefs τ sig
/-- Determining its results. -/
abbrev PFresh : HloOp τ sig (Elt F) → Prop := fun op => op.fresh = ∅

/-- Every operation of the first window touches TensorCore references only: stretch by stretch, from the last. -/
theorem opsW0_sub : List.Forall (PSub (F := F)) (opsW0 : List (HloOp τ sig (Elt F))) := by
  have h8 : List.Forall (PSub (F := F)) ops8 := ops8_sub
  have h7 : List.Forall (PSub (F := F)) (ops7 ++ (ops8)) := List.forall_append.mpr ⟨ops7_sub, h8⟩
  have h6 : List.Forall (PSub (F := F)) (ops6 ++ (ops7 ++ ops8)) := List.forall_append.mpr ⟨ops6_sub, h7⟩
  have h5 : List.Forall (PSub (F := F)) (ops5 ++ (ops6 ++ ops7 ++ ops8)) := List.forall_append.mpr ⟨ops5_sub, h6⟩
  have h4 : List.Forall (PSub (F := F)) (ops4 ++ (ops5 ++ ops6 ++ ops7 ++ ops8)) := List.forall_append.mpr ⟨ops4_sub, h5⟩
  have h3 : List.Forall (PSub (F := F)) (ops3 ++ (ops4 ++ ops5 ++ ops6 ++ ops7 ++ ops8)) := List.forall_append.mpr ⟨ops3_sub, h4⟩
  have h2 : List.Forall (PSub (F := F)) (ops2 ++ (ops3 ++ ops4 ++ ops5 ++ ops6 ++ ops7 ++ ops8)) := List.forall_append.mpr ⟨ops2_sub, h3⟩
  have h1 : List.Forall (PSub (F := F)) (ops1 ++ (ops2 ++ ops3 ++ ops4 ++ ops5 ++ ops6 ++ ops7 ++ ops8)) := List.forall_append.mpr ⟨ops1_sub, h2⟩
  have h0 : List.Forall (PSub (F := F)) (ops0 ++ (ops1 ++ ops2 ++ ops3 ++ ops4 ++ ops5 ++ ops6 ++ ops7 ++ ops8)) := List.forall_append.mpr ⟨ops0_sub, h1⟩
  exact h0
theorem opsW1_sub : List.Forall (PSub (F := F)) (opsW1 : List (HloOp τ sig (Elt F))) := by
  have h6 : List.Forall (PSub (F := F)) ops15 := ops15_sub
  have h5 : List.Forall (PSub (F := F)) (ops14 ++ (ops15)) := List.forall_append.mpr ⟨ops14_sub, h6⟩
  have h4 : List.Forall (PSub (F := F)) (ops13 ++ (ops14 ++ ops15)) := List.forall_append.mpr ⟨ops13_sub, h5⟩
  have h3 : List.Forall (PSub (F := F)) (ops12 ++ (ops13 ++ ops14 ++ ops15)) := List.forall_append.mpr ⟨ops12_sub, h4⟩
  have h2 : List.Forall (PSub (F := F)) (ops11 ++ (ops12 ++ ops13 ++ ops14 ++ ops15)) := List.forall_append.mpr ⟨ops11_sub, h3⟩
  have h1 : List.Forall (PSub (F := F)) (ops10 ++ (ops11 ++ ops12 ++ ops13 ++ ops14 ++ ops15)) := List.forall_append.mpr ⟨ops10_sub, h2⟩
  have h0 : List.Forall (PSub (F := F)) (ops9 ++ (ops10 ++ ops11 ++ ops12 ++ ops13 ++ ops14 ++ ops15)) := List.forall_append.mpr ⟨ops9_sub, h1⟩
  exact h0
/-- Every operation touches TensorCore references only. -/
theorem ops_sub : (ops : List (HloOp τ sig (Elt F))).Forall fun op => op.bufs ⊆ StableHlo.tcRefs τ sig := by
  have h : List.Forall (PSub (F := F)) ((opsW0 : List (HloOp τ sig (Elt F))) ++ opsW1) := List.forall_append.mpr ⟨opsW0_sub, opsW1_sub⟩
  exact h

/-- Every operation of the first window determines its results: stretch by stretch, from the last. -/
theorem opsW0_fresh : List.Forall (PFresh (F := F)) (opsW0 : List (HloOp τ sig (Elt F))) := by
  have h8 : List.Forall (PFresh (F := F)) ops8 := ops8_fresh
  have h7 : List.Forall (PFresh (F := F)) (ops7 ++ (ops8)) := List.forall_append.mpr ⟨ops7_fresh, h8⟩
  have h6 : List.Forall (PFresh (F := F)) (ops6 ++ (ops7 ++ ops8)) := List.forall_append.mpr ⟨ops6_fresh, h7⟩
  have h5 : List.Forall (PFresh (F := F)) (ops5 ++ (ops6 ++ ops7 ++ ops8)) := List.forall_append.mpr ⟨ops5_fresh, h6⟩
  have h4 : List.Forall (PFresh (F := F)) (ops4 ++ (ops5 ++ ops6 ++ ops7 ++ ops8)) := List.forall_append.mpr ⟨ops4_fresh, h5⟩
  have h3 : List.Forall (PFresh (F := F)) (ops3 ++ (ops4 ++ ops5 ++ ops6 ++ ops7 ++ ops8)) := List.forall_append.mpr ⟨ops3_fresh, h4⟩
  have h2 : List.Forall (PFresh (F := F)) (ops2 ++ (ops3 ++ ops4 ++ ops5 ++ ops6 ++ ops7 ++ ops8)) := List.forall_append.mpr ⟨ops2_fresh, h3⟩
  have h1 : List.Forall (PFresh (F := F)) (ops1 ++ (ops2 ++ ops3 ++ ops4 ++ ops5 ++ ops6 ++ ops7 ++ ops8)) := List.forall_append.mpr ⟨ops1_fresh, h2⟩
  have h0 : List.Forall (PFresh (F := F)) (ops0 ++ (ops1 ++ ops2 ++ ops3 ++ ops4 ++ ops5 ++ ops6 ++ ops7 ++ ops8)) := List.forall_append.mpr ⟨ops0_fresh, h1⟩
  exact h0
theorem opsW1_fresh : List.Forall (PFresh (F := F)) (opsW1 : List (HloOp τ sig (Elt F))) := by
  have h6 : List.Forall (PFresh (F := F)) ops15 := ops15_fresh
  have h5 : List.Forall (PFresh (F := F)) (ops14 ++ (ops15)) := List.forall_append.mpr ⟨ops14_fresh, h6⟩
  have h4 : List.Forall (PFresh (F := F)) (ops13 ++ (ops14 ++ ops15)) := List.forall_append.mpr ⟨ops13_fresh, h5⟩
  have h3 : List.Forall (PFresh (F := F)) (ops12 ++ (ops13 ++ ops14 ++ ops15)) := List.forall_append.mpr ⟨ops12_fresh, h4⟩
  have h2 : List.Forall (PFresh (F := F)) (ops11 ++ (ops12 ++ ops13 ++ ops14 ++ ops15)) := List.forall_append.mpr ⟨ops11_fresh, h3⟩
  have h1 : List.Forall (PFresh (F := F)) (ops10 ++ (ops11 ++ ops12 ++ ops13 ++ ops14 ++ ops15)) := List.forall_append.mpr ⟨ops10_fresh, h2⟩
  have h0 : List.Forall (PFresh (F := F)) (ops9 ++ (ops10 ++ ops11 ++ ops12 ++ ops13 ++ ops14 ++ ops15)) := List.forall_append.mpr ⟨ops9_fresh, h1⟩
  exact h0
/-- Every operation determines its results. -/
theorem ops_fresh : (ops : List (HloOp τ sig (Elt F))).Forall fun op => op.fresh = ∅ := by
  have h : List.Forall (PFresh (F := F)) ((opsW0 : List (HloOp τ sig (Elt F))) ++ opsW1) := List.forall_append.mpr ⟨opsW0_fresh, opsW1_fresh⟩
  exact h

/-! ## The run -/

/-- At the compiled mesh, for any float values, from any memory with zero counters: every weakly fair execution of
    @main on the TensorCore terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ
    (fun _ => List.forall_iff_forall_mem.mp ops_fresh)

end Cert.ReferenceIdeal.Run

end
-- ==== Proof.RefTerm.lean ====
/-
  The reference program's result as one term of its sixteen argument arrays.

  Each definition below is the composition of the printed host operations of one stretch of @main, in the
  printed order, with the printed functions and the printed shape facts; nothing is simplified.
    refWord    one row of the edge index array as a vector of 300000 words (slice, then reshape)
    refWrap    a negative word w read as w + 100000 (compare with 0, add 100000, select)
    refCol     the wrapped words as a [300000,1] column of row numbers
    refRows    the table rows the column names (gather)
    refCat     two [300000,128] arrays side by side ([300000,256])
    refBias128, refBias1   a bias vector broadcast over the 300000 rows
    refElu     the body of @elu with its two calls of @_where inlined
    refSigm    1 / (1 + exp (negate z)), then [300000,1] read as [300000]
    refBranch  one edge type: gather, concatenate, three affine layers with @elu between, the logistic
    refTerm    the two edge types as the two rows of a [2,300000] array
-/
import proofs.«406386_j24481313587756_2_alg».proof.Proof.Gen.ReferenceIdeal

noncomputable section

namespace Cert.ReferenceIdeal.Term

open Idealize.ShloMosaic Cert.ReferenceIdeal Cert.ReferenceIdeal.Facts₀

variable {F : FTy → Type} [FloatOps F]

/-- Row `off 0` of the edge index array as a vector: stablehlo.slice, then stablehlo.reshape. -/
def refWord (ei : IVec S2x300000 32) (off : Fin S2x300000.rank → Nat) (h : S2x300000.Slices off S1x300000) :
    IVec S300000 32 :=
  shapeCast S300000 (extractStridedSlice S1x300000 off ei h) shapeCasts_S1x300000_S300000

/-- A negative word counts from the table's end: select (w < 0) (w + 100000) w, the two constants broadcast. -/
def refWrap (w : IVec S300000 32) : IVec S300000 32 :=
  select (cmpi .slt w (broadcastInDim S300000 ![] bcast_S_S300000 (constantI S_ 32 0#32)))
    (addi w (broadcastInDim S300000 ![] bcast_S_S300000 (constantI S_ 32 100000#32)))
    w

/-- The words as a column of row numbers. -/
def refCol (w : IVec S300000 32) : IVec S300000x1 32 :=
  broadcastInDim S300000x1 ![0] bcast_S300000_S300000x1_0 w

/-- The table rows named by one row of the edge index array. -/
def refRows (tbl : FVec F S100000x128 .f32) (ei : IVec S2x300000 32) (off : Fin S2x300000.rank → Nat)
    (h : S2x300000.Slices off S1x300000) : FVec F S300000x128 .f32 :=
  Host.gather gather_S100000x128_S300000x1_S300000x128_1_0_n_n_0_1_1128 tbl (refCol (refWrap (refWord ei off h)))

/-- Two [300000,128] arrays concatenated along axis 1. -/
def refCat (a b : FVec F S300000x128 .f32) : FVec F S300000x256 .f32 :=
  concatenate S300000x256 1 [⟨S300000x128, a⟩, ⟨S300000x128, b⟩] concatenates_S300000x128_S300000x128_S300000x256_d1

/-- A 128-vector broadcast to [1,128] and then to [300000,128]. -/
def refBias128 (b : FVec F S128 .f32) : FVec F S300000x128 .f32 :=
  broadcastInDim S300000x128 ![0, 1] bcast_S1x128_S300000x128_0_1 (broadcastInDim S1x128 ![1] bcast_S128_S1x128_1 b)

/-- A 1-vector broadcast to [1,1] and then to [300000,1]. -/
def refBias1 (b : FVec F S1 .f32) : FVec F S300000x1 .f32 :=
  broadcastInDim S300000x1 ![0, 1] bcast_S1x1_S300000x1_0_1 (broadcastInDim S1x1 ![1] bcast_S1_S1x1_1 b)

/-- @elu: select (x > 0) x (1 * expm1 (select (x > 0) 0 x)); the inner select is @_where (its scalar
    operand converted, which is the identity, and broadcast), the outer one @_where_0. -/
def refElu (x : FVec F S300000x128 .f32) : FVec F S300000x128 .f32 :=
  select (cmpf .ogt x (broadcastInDim S300000x128 ![] bcast_S_S300000x128 (constant S_ .f32 0x00000000#32)))
    x
    (mulf (broadcastInDim S300000x128 ![] bcast_S_S300000x128 (constant S_ .f32 0x3F800000#32))
      (Host.expm1
        (select (cmpf .ogt x (broadcastInDim S300000x128 ![] bcast_S_S300000x128 (constant S_ .f32 0x00000000#32)))
          (broadcastInDim S300000x128 ![] bcast_S_S300000x128 (id (constant S_ .f32 0x00000000#32)))
          x)))

/-- The logistic function of a [300000,1] column, read as a vector: divide 1 (add 1 (exp (negate z))), reshape. -/
def refSigm (z : FVec F S300000x1 .f32) : FVec F S300000 .f32 :=
  shapeCast S300000
    (Host.divf (broadcastInDim S300000x1 ![] bcast_S_S300000x1 (constant S_ .f32 0x3F800000#32))
      (addf (broadcastInDim S300000x1 ![] bcast_S_S300000x1 (constant S_ .f32 0x3F800000#32))
        (Host.exp (Host.negf z))))
    shapeCasts_S300000x1_S300000

/-- One edge type: source rows from `src` by row 0 of `ei`, target rows from `dst` by row 1, side by side;
    three affine layers with @elu after the first two; the logistic. -/
def refBranch (src dst : FVec F S100000x128 .f32) (ei : IVec S2x300000 32)
    (W : FVec F S256x128 .f32) (b : FVec F S128 .f32) (W1 : FVec F S128x128 .f32) (b1 : FVec F S128 .f32)
    (W2 : FVec F S128x1 .f32) (b2 : FVec F S1 .f32) : FVec F S300000 .f32 :=
  refSigm
    (addf
      (Host.dotGeneral dot_S300000x128_S128x1_S300000x1_1_0_0_1_n_n none
        (refElu
          (addf
            (Host.dotGeneral dot_S300000x128_S128x128_S300000x128_1_0_0_1_n_n none
              (refElu
                (addf
                  (Host.dotGeneral dot_S300000x256_S256x128_S300000x128_1_0_0_1_n_n none
                    (refCat (refRows src ei ![0, 0] slices_S2x300000_S1x300000_0_0)
                      (refRows dst ei ![1, 0] slices_S2x300000_S1x300000_1_0))
                    W)
                  (refBias128 b)))
              W1)
            (refBias128 b1)))
        W2)
      (refBias1 b2))

/-- @main's result: the first edge type reads the first table by row 0 and the second by row 1 of the first edge
    index array; the second edge type reads the tables the other way round by the second edge index array; each
    result broadcast to a [1,300000] row, the two rows concatenated along axis 0. -/
def refTerm (a0 a1 : FVec F S100000x128 .f32) (a2 a3 : IVec S2x300000 32)
    (a4 : FVec F S256x128 .f32) (a5 : FVec F S128 .f32) (a6 : FVec F S128x128 .f32) (a7 : FVec F S128 .f32)
    (a8 : FVec F S128x1 .f32) (a9 : FVec F S1 .f32)
    (a10 : FVec F S256x128 .f32) (a11 : FVec F S128 .f32) (a12 : FVec F S128x128 .f32) (a13 : FVec F S128 .f32)
    (a14 : FVec F S128x1 .f32) (a15 : FVec F S1 .f32) : FVec F S2x300000 .f32 :=
  concatenate S2x300000 0
    [⟨S1x300000, broadcastInDim S1x300000 ![1] bcast_S300000_S1x300000_1 (refBranch a0 a1 a2 a4 a5 a6 a7 a8 a9)⟩,
     ⟨S1x300000, broadcastInDim S1x300000 ![1] bcast_S300000_S1x300000_1 (refBranch a1 a0 a3 a10 a11 a12 a13 a14 a15)⟩]
    concatenates_S1x300000_S1x300000_S2x300000_d0

end Cert.ReferenceIdeal.Term

end
-- ==== Proof.RefOut.lean ====
/-
  The reference's result buffer after all its operations, as one term of the sixteen argument arrays.

  The operations are read stretch by stretch. A stretch that ends at a value of the result term leaves that value,
  as a term of the incoming contents at the buffers the stretch reads, in the buffer later stretches read; every
  buffer a stretch does not write it leaves alone. Going back from the last stretch to the first, each value is
  replaced by its term and every other buffer still read is carried through unchanged, until only the argument
  buffers at the launch contents are left.
-/
import proofs.«406386_j24481313587756_2_alg».proof.Proof.RefRun
import proofs.«406386_j24481313587756_2_alg».proof.Proof.RefTerm
import Idealize.ShloMosaic.Lib.StableHlo.Run
import Idealize.ShloMosaic.Lib.Pipeline.Frame

noncomputable section

namespace Cert.ReferenceIdeal.Out

open Cert.ReferenceIdeal Cert.ReferenceIdeal.Facts₀ Idealize.ShloMosaic Idealize.ShloMosaic.TcCoe Idealize.SL.Sem
open Idealize.ShloMosaic.StableHlo

variable {F : FTy → Type} [FloatOps F]

/-! ## The stretches

The sixteen stretches of the operation list under names of this module's own (plain definitions: a rewrite about
one stretch never opens another): the whole list is their concatenation, and each writes inside its list of
written references. -/

/-- Stretch 0: row 0 of the first edge index array gathers from the first table. -/
def s0 : List (HloOp τ sig (Elt F)) := Run.ops0
theorem s0_writes : (s0 : List (HloOp τ sig (Elt F))).Forall fun op => op.writes ⊆ (Run.ops0_w.map (Proc.devRef (τ := τ) .tc)).toFinset :=
  Run.ops0_writes
/-- Stretch 1: row 1 of the first edge index array gathers from the second table. -/
def s1 : List (HloOp τ sig (Elt F)) := Run.ops1
theorem s1_writes : (s1 : List (HloOp τ sig (Elt F))).Forall fun op => op.writes ⊆ (Run.ops1_w.map (Proc.devRef (τ := τ) .tc)).toFinset :=
  Run.ops1_writes
/-- Stretch 2: concatenate; the first edge type's first affine layer. -/
def s2 : List (HloOp τ sig (Elt F)) := Run.ops2
theorem s2_writes : (s2 : List (HloOp τ sig (Elt F))).Forall fun op => op.writes ⊆ (Run.ops2_w.map (Proc.devRef (τ := τ) .tc)).toFinset :=
  Run.ops2_writes
/-- Stretch 3: @elu, first call. -/
def s3 : List (HloOp τ sig (Elt F)) := Run.ops3
theorem s3_writes : (s3 : List (HloOp τ sig (Elt F))).Forall fun op => op.writes ⊆ (Run.ops3_w.map (Proc.devRef (τ := τ) .tc)).toFinset :=
  Run.ops3_writes
/-- Stretch 4: the first edge type's second affine layer. -/
def s4 : List (HloOp τ sig (Elt F)) := Run.ops4
theorem s4_writes : (s4 : List (HloOp τ sig (Elt F))).Forall fun op => op.writes ⊆ (Run.ops4_w.map (Proc.devRef (τ := τ) .tc)).toFinset :=
  Run.ops4_writes
/-- Stretch 5: @elu, second call. -/
def s5 : List (HloOp τ sig (Elt F)) := Run.ops5
theorem s5_writes : (s5 : List (HloOp τ sig (Elt F))).Forall fun op => op.writes ⊆ (Run.ops5_w.map (Proc.devRef (τ := τ) .tc)).toFinset :=
  Run.ops5_writes
/-- Stretch 6: the first edge type's output layer and logistic function. -/
def s6 : List (HloOp τ sig (Elt F)) := Run.ops6
theorem s6_writes : (s6 : List (HloOp τ sig (Elt F))).Forall fun op => op.writes ⊆ (Run.ops6_w.map (Proc.devRef (τ := τ) .tc)).toFinset :=
  Run.ops6_writes
/-- Stretch 7: row 0 of the second edge index array gathers from the second table. -/
def s7 : List (HloOp τ sig (Elt F)) := Run.ops7
theorem s7_writes : (s7 : List (HloOp τ sig (Elt F))).Forall fun op => op.writes ⊆ (Run.ops7_w.map (Proc.devRef (τ := τ) .tc)).toFinset :=
  Run.ops7_writes
/-- Stretch 8: row 1 of the second edge index array cut out; the end of the first printed window. -/
def s8 : List (HloOp τ sig (Elt F)) := Run.ops8
theorem s8_writes : (s8 : List (HloOp τ sig (Elt F))).Forall fun op => op.writes ⊆ (Run.ops8_w.map (Proc.devRef (τ := τ) .tc)).toFinset :=
  Run.ops8_writes
/-- Stretch 9: that row gathers from the first table. -/
def s9 : List (HloOp τ sig (Elt F)) := Run.ops9
theorem s9_writes : (s9 : List (HloOp τ sig (Elt F))).Forall fun op => op.writes ⊆ (Run.ops9_w.map (Proc.devRef (τ := τ) .tc)).toFinset :=
  Run.ops9_writes
/-- Stretch 10: concatenate; the second edge type's first affine layer. -/
def s10 : List (HloOp τ sig (Elt F)) := Run.ops10
theorem s10_writes : (s10 : List (HloOp τ sig (Elt F))).Forall fun op => op.writes ⊆ (Run.ops10_w.map (Proc.devRef (τ := τ) .tc)).toFinset :=
  Run.ops10_writes
/-- Stretch 11: @elu, third call. -/
def s11 : List (HloOp τ sig (Elt F)) := Run.ops11
theorem s11_writes : (s11 : List (HloOp τ sig (Elt F))).Forall fun op => op.writes ⊆ (Run.ops11_w.map (Proc.devRef (τ := τ) .tc)).toFinset :=
  Run.ops11_writes
/-- Stretch 12: the second edge type's second affine layer. -/
def s12 : List (HloOp τ sig (Elt F)) := Run.ops12
theorem s12_writes : (s12 : List (HloOp τ sig (Elt F))).Forall fun op => op.writes ⊆ (Run.ops12_w.map (Proc.devRef (τ := τ) .tc)).toFinset :=
  Run.ops12_writes
/-- Stretch 13: @elu, fourth call. -/
def s13 : List (HloOp τ sig (Elt F)) := Run.ops13
theorem s13_writes : (s13 : List (HloOp τ sig (Elt F))).Forall fun op => op.writes ⊆ (Run.ops13_w.map (Proc.devRef (τ := τ) .tc)).toFinset :=
  Run.ops13_writes
/-- Stretch 14: the second edge type's output layer and logistic function. -/
def s14 : List (HloOp τ sig (Elt F)) := Run.ops14
theorem s14_writes : (s14 : List (HloOp τ sig (Elt F))).Forall fun op => op.writes ⊆ (Run.ops14_w.map (Proc.devRef (τ := τ) .tc)).toFinset :=
  Run.ops14_writes
/-- Stretch 15: the two results as rows, stacked. -/
def s15 : List (HloOp τ sig (Elt F)) := Run.ops15
theorem s15_writes : (s15 : List (HloOp τ sig (Elt F))).Forall fun op => op.writes ⊆ (Run.ops15_w.map (Proc.devRef (τ := τ) .tc)).toFinset :=
  Run.ops15_writes

/-- The whole list is the stretches in order. -/
theorem ops_split : (Run.ops : List (HloOp τ sig (Elt F)))
    = s0 ++ s1 ++ s2 ++ s3 ++ s4 ++ s5 ++ s6 ++ s7 ++ s8 ++ (s9 ++ s10 ++ s11 ++ s12 ++ s13 ++ s14 ++ s15) := rfl
/-! ## What each stretch leaves

Each lemma reads one stretch's fold, from any incoming contents W, at the one buffer later stretches read, as the
term of W at the buffers the stretch reads. -/

attribute [local irreducible] Host.gather in
/-- The rows of the first table named by row 0 of the first edge index array. -/
theorem rows0 (W : Valuation τ sig (Elt F)) :
    after s0 W (main_v8 : DevRef τ sig)
      = Term.refRows (W (main_arg0 : DevRef τ sig)) (W (main_arg2 : DevRef τ sig)) ![0, 0] slices_S2x300000_S1x300000_0_0 := by
  unfold s0
  after_results
  rfl

attribute [local irreducible] Host.gather in
/-- The rows of the second table named by row 1 of the first edge index array. -/
theorem rows1 (W : Valuation τ sig (Elt F)) :
    after s1 W (main_v17 : DevRef τ sig)
      = Term.refRows (W (main_arg1 : DevRef τ sig)) (W (main_arg2 : DevRef τ sig)) ![1, 0] slices_S2x300000_S1x300000_1_0 := by
  unfold s1
  after_results
  rfl

attribute [local irreducible] concatenate in
/-- The two gathered arrays side by side, through the first edge type's first affine layer. -/
theorem affine2 (W : Valuation τ sig (Elt F)) :
    after s2 W (main_v22 : DevRef τ sig)
      = addf (Host.dotGeneral dot_S300000x256_S256x128_S300000x128_1_0_0_1_n_n none
          (Term.refCat (W (main_v8 : DevRef τ sig)) (W (main_v17 : DevRef τ sig))) (W (main_arg4 : DevRef τ sig)))
          (Term.refBias128 (W (main_arg5 : DevRef τ sig))) := by
  unfold s2
  after_results
  rfl

/-- The first call of @elu. -/
theorem elu3 (W : Valuation τ sig (Elt F)) :
    after s3 W (main_v23 : DevRef τ sig) = Term.refElu (W (main_v22 : DevRef τ sig)) := by
  unfold s3
  after_results
  rfl

/-- The first edge type's second affine layer. -/
theorem affine4 (W : Valuation τ sig (Elt F)) :
    after s4 W (main_v27 : DevRef τ sig)
      = addf (Host.dotGeneral dot_S300000x128_S128x128_S300000x128_1_0_0_1_n_n none (W (main_v23 : DevRef τ sig)) (W (main_arg6 : DevRef τ sig)))
          (Term.refBias128 (W (main_arg7 : DevRef τ sig))) := by
  unfold s4
  after_results
  rfl

/-- The second call of @elu. -/
theorem elu5 (W : Valuation τ sig (Elt F)) :
    after s5 W (main_v28 : DevRef τ sig) = Term.refElu (W (main_v27 : DevRef τ sig)) := by
  unfold s5
  after_results
  rfl

/-- The first edge type's output layer and the logistic function, as a vector. -/
theorem sigm6 (W : Valuation τ sig (Elt F)) :
    after s6 W (main_v39 : DevRef τ sig)
      = Term.refSigm (addf (Host.dotGeneral dot_S300000x128_S128x1_S300000x1_1_0_0_1_n_n none (W (main_v28 : DevRef τ sig)) (W (main_arg8 : DevRef τ sig)))
          (Term.refBias1 (W (main_arg9 : DevRef τ sig)))) := by
  unfold s6
  after_results
  rfl

attribute [local irreducible] Host.gather in
/-- The rows of the second table named by row 0 of the second edge index array. -/
theorem rows7 (W : Valuation τ sig (Elt F)) :
    after s7 W (main_v48 : DevRef τ sig)
      = Term.refRows (W (main_arg1 : DevRef τ sig)) (W (main_arg3 : DevRef τ sig)) ![0, 0] slices_S2x300000_S1x300000_0_0 := by
  unfold s7
  after_results
  rfl

attribute [local irreducible] Host.gather in
/-- The rows of the first table named by row 1 of the second edge index array: the row is cut out and the zero word
    made at the end of the first printed window, the rest done at the start of the second. -/
theorem rows89 (W : Valuation τ sig (Elt F)) :
    after s9 (after s8 W) (main_v57 : DevRef τ sig)
      = Term.refRows (W (main_arg0 : DevRef τ sig)) (W (main_arg3 : DevRef τ sig)) ![1, 0] slices_S2x300000_S1x300000_1_0 := by
  unfold s9 s8
  after_results
  rfl

attribute [local irreducible] concatenate in
/-- The two gathered arrays side by side, through the second edge type's first affine layer. -/
theorem affine10 (W : Valuation τ sig (Elt F)) :
    after s10 W (main_v62 : DevRef τ sig)
      = addf (Host.dotGeneral dot_S300000x256_S256x128_S300000x128_1_0_0_1_n_n none
          (Term.refCat (W (main_v48 : DevRef τ sig)) (W (main_v57 : DevRef τ sig))) (W (main_arg10 : DevRef τ sig)))
          (Term.refBias128 (W (main_arg11 : DevRef τ sig))) := by
  unfold s10
  after_results
  rfl

/-- The third call of @elu. -/
theorem elu11 (W : Valuation τ sig (Elt F)) :
    after s11 W (main_v63 : DevRef τ sig) = Term.refElu (W (main_v62 : DevRef τ sig)) := by
  unfold s11
  after_results
  rfl

/-- The second edge type's second affine layer. -/
theorem affine12 (W : Valuation τ sig (Elt F)) :
    after s12 W (main_v67 : DevRef τ sig)
      = addf (Host.dotGeneral dot_S300000x128_S128x128_S300000x128_1_0_0_1_n_n none (W (main_v63 : DevRef τ sig)) (W (main_arg12 : DevRef τ sig)))
          (Term.refBias128 (W (main_arg13 : DevRef τ sig))) := by
  unfold s12
  after_results
  rfl

/-- The fourth call of @elu. -/
theorem elu13 (W : Valuation τ sig (Elt F)) :
    after s13 W (main_v68 : DevRef τ sig) = Term.refElu (W (main_v67 : DevRef τ sig)) := by
  unfold s13
  after_results
  rfl

/-- The second edge type's output layer and the logistic function, as a vector. -/
theorem sigm14 (W : Valuation τ sig (Elt F)) :
    after s14 W (main_v79 : DevRef τ sig)
      = Term.refSigm (addf (Host.dotGeneral dot_S300000x128_S128x1_S300000x1_1_0_0_1_n_n none (W (main_v68 : DevRef τ sig)) (W (main_arg14 : DevRef τ sig)))
          (Term.refBias1 (W (main_arg15 : DevRef τ sig)))) := by
  unfold s14
  after_results
  rfl

attribute [local irreducible] concatenate in
/-- The two vectors, each made a row, stacked. -/
theorem stack15 (W : Valuation τ sig (Elt F)) :
    after s15 W (main_v82 : DevRef τ sig)
      = concatenate S2x300000 0
          [⟨S1x300000, broadcastInDim S1x300000 ![1] bcast_S300000_S1x300000_1 (W (main_v39 : DevRef τ sig))⟩,
           ⟨S1x300000, broadcastInDim S1x300000 ![1] bcast_S300000_S1x300000_1 (W (main_v79 : DevRef τ sig))⟩]
          concatenates_S1x300000_S1x300000_S2x300000_d0 := by
  unfold s15
  after_results

/-! ## The whole fold -/

/-- A stretch leaves alone every buffer outside its list of written references: one rewrite at the first buffer
    still read through the stretch, the buffer's absence from the list decided. -/
macro "keep " ops:ident w:ident : tactic =>
  `(tactic| (rw [StableHlo.after_of_writes_sub $ops _ $w]; rotate_left; decide))

-- sixteen stretches, and through each some ten buffers still read are carried: about a hundred and fifty steps
set_option maxHeartbeats 2000000 in
attribute [local irreducible] Host.gather concatenate in
/-- THE REFERENCE'S RESULT: the fold of all its operations, read at the result buffer, is the reference's term of the
    sixteen argument arrays. The fold is split at the stretches; from the last stretch back to the first, the buffer
    the stretch completes is rewritten to its term and every other buffer still read is carried through the
    stretch unchanged; what is left is the term over the incoming contents at the argument buffers. -/
theorem out_eq (V : Valuation τ sig (Elt F)) :
    after Run.ops V (main_v82 : DevRef τ sig)
      = Term.refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  rw [ops_split]
  simp only [StableHlo.after_append]
  rw [stack15]
  rw [sigm14]
  repeat keep s14 s14_writes
  rw [elu13]
  repeat keep s13 s13_writes
  rw [affine12]
  repeat keep s12 s12_writes
  rw [elu11]
  repeat keep s11 s11_writes
  rw [affine10]
  repeat keep s10 s10_writes
  rw [rows89]
  repeat keep s9 s9_writes
  repeat keep s8 s8_writes
  rw [rows7]
  repeat keep s7 s7_writes
  rw [sigm6]
  repeat keep s6 s6_writes
  rw [elu5]
  repeat keep s5 s5_writes
  rw [affine4]
  repeat keep s4 s4_writes
  rw [elu3]
  repeat keep s3 s3_writes
  rw [affine2]
  repeat keep s2 s2_writes
  rw [rows1]
  repeat keep s1 s1_writes
  rw [rows0]
  repeat keep s0 s0_writes
  rfl

end Cert.ReferenceIdeal.Out

end
-- ==== Proof.RefArgs.lean ====
/- No operation of the reference's @main writes an argument buffer: each of the sixteen keeps its launch
   contents through the whole line. The line is its sixteen stretches in order; each stretch writes inside its
   list of written references, no argument is in any of the lists, and the fold over a concatenation is the
   fold over its second part from the fold over its first. -/
import proofs.«406386_j24481313587756_2_alg».proof.Proof.RefRun
import Idealize.ShloMosaic.Lib.Pipeline.Frame

noncomputable section

namespace Cert.ReferenceIdeal.Args

open Cert.ReferenceIdeal Cert.ReferenceIdeal.Run Idealize.ShloMosaic Idealize.ShloMosaic.TcCoe Idealize.SL.Sem

variable {F : FTy → Type} [FloatOps F]

/-- The stretches' lists of written references. -/
abbrev written : List (List (Ref sig .tc)) :=
  [ops0_w, ops1_w, ops2_w, ops3_w, ops4_w, ops5_w, ops6_w, ops7_w, ops8_w, ops9_w, ops10_w, ops11_w, ops12_w, ops13_w,
    ops14_w, ops15_w]

/-- A reference that is in none of the stretches' lists keeps its contents through the whole line: the line's
    fold is the stretches' folds one inside the other, and each leaves the reference as it was. -/
theorem keep (V : Valuation τ sig (Elt F)) {r : Ref sig .tc} (h : ∀ L ∈ written, r ∉ L) :
    StableHlo.after ops V (r : DevRef τ sig) = V (r : DevRef τ sig) := by
  have e : (ops : List (HloOp τ sig (Elt F)))
      = (ops0 ++ (ops1 ++ (ops2 ++ (ops3 ++ (ops4 ++ (ops5 ++ (ops6 ++ (ops7 ++ ops8))))))))
          ++ (ops9 ++ (ops10 ++ (ops11 ++ (ops12 ++ (ops13 ++ (ops14 ++ ops15)))))) := rfl
  rw [e]
  simp only [StableHlo.after_append]
  rw [StableHlo.after_of_writes_sub ops15 _ ops15_writes (h ops15_w (by decide)),
    StableHlo.after_of_writes_sub ops14 _ ops14_writes (h ops14_w (by decide)),
    StableHlo.after_of_writes_sub ops13 _ ops13_writes (h ops13_w (by decide)),
    StableHlo.after_of_writes_sub ops12 _ ops12_writes (h ops12_w (by decide)),
    StableHlo.after_of_writes_sub ops11 _ ops11_writes (h ops11_w (by decide)),
    StableHlo.after_of_writes_sub ops10 _ ops10_writes (h ops10_w (by decide)),
    StableHlo.after_of_writes_sub ops9 _ ops9_writes (h ops9_w (by decide)),
    StableHlo.after_of_writes_sub ops8 _ ops8_writes (h ops8_w (by decide)),
    StableHlo.after_of_writes_sub ops7 _ ops7_writes (h ops7_w (by decide)),
    StableHlo.after_of_writes_sub ops6 _ ops6_writes (h ops6_w (by decide)),
    StableHlo.after_of_writes_sub ops5 _ ops5_writes (h ops5_w (by decide)),
    StableHlo.after_of_writes_sub ops4 _ ops4_writes (h ops4_w (by decide)),
    StableHlo.after_of_writes_sub ops3 _ ops3_writes (h ops3_w (by decide)),
    StableHlo.after_of_writes_sub ops2 _ ops2_writes (h ops2_w (by decide)),
    StableHlo.after_of_writes_sub ops1 _ ops1_writes (h ops1_w (by decide)),
    StableHlo.after_of_writes_sub ops0 _ ops0_writes (h ops0_w (by decide))]

theorem arg0_eq (V : Valuation τ sig (Elt F)) :
    StableHlo.after Run.ops V (main_arg0 : DevRef τ sig) = V (main_arg0 : DevRef τ sig) := keep V (by decide)
theorem arg1_eq (V : Valuation τ sig (Elt F)) :
    StableHlo.after Run.ops V (main_arg1 : DevRef τ sig) = V (main_arg1 : DevRef τ sig) := keep V (by decide)
theorem arg2_eq (V : Valuation τ sig (Elt F)) :
    StableHlo.after Run.ops V (main_arg2 : DevRef τ sig) = V (main_arg2 : DevRef τ sig) := keep V (by decide)
theorem arg3_eq (V : Valuation τ sig (Elt F)) :
    StableHlo.after Run.ops V (main_arg3 : DevRef τ sig) = V (main_arg3 : DevRef τ sig) := keep V (by decide)
theorem arg4_eq (V : Valuation τ sig (Elt F)) :
    StableHlo.after Run.ops V (main_arg4 : DevRef τ sig) = V (main_arg4 : DevRef τ sig) := keep V (by decide)
theorem arg5_eq (V : Valuation τ sig (Elt F)) :
    StableHlo.after Run.ops V (main_arg5 : DevRef τ sig) = V (main_arg5 : DevRef τ sig) := keep V (by decide)
theorem arg6_eq (V : Valuation τ sig (Elt F)) :
    StableHlo.after Run.ops V (main_arg6 : DevRef τ sig) = V (main_arg6 : DevRef τ sig) := keep V (by decide)
theorem arg7_eq (V : Valuation τ sig (Elt F)) :
    StableHlo.after Run.ops V (main_arg7 : DevRef τ sig) = V (main_arg7 : DevRef τ sig) := keep V (by decide)
theorem arg8_eq (V : Valuation τ sig (Elt F)) :
    StableHlo.after Run.ops V (main_arg8 : DevRef τ sig) = V (main_arg8 : DevRef τ sig) := keep V (by decide)
theorem arg9_eq (V : Valuation τ sig (Elt F)) :
    StableHlo.after Run.ops V (main_arg9 : DevRef τ sig) = V (main_arg9 : DevRef τ sig) := keep V (by decide)
theorem arg10_eq (V : Valuation τ sig (Elt F)) :
    StableHlo.after Run.ops V (main_arg10 : DevRef τ sig) = V (main_arg10 : DevRef τ sig) := keep V (by decide)
theorem arg11_eq (V : Valuation τ sig (Elt F)) :
    StableHlo.after Run.ops V (main_arg11 : DevRef τ sig) = V (main_arg11 : DevRef τ sig) := keep V (by decide)
theorem arg12_eq (V : Valuation τ sig (Elt F)) :
    StableHlo.after Run.ops V (main_arg12 : DevRef τ sig) = V (main_arg12 : DevRef τ sig) := keep V (by decide)
theorem arg13_eq (V : Valuation τ sig (Elt F)) :
    StableHlo.after Run.ops V (main_arg13 : DevRef τ sig) = V (main_arg13 : DevRef τ sig) := keep V (by decide)
theorem arg14_eq (V : Valuation τ sig (Elt F)) :
    StableHlo.after Run.ops V (main_arg14 : DevRef τ sig) = V (main_arg14 : DevRef τ sig) := keep V (by decide)
theorem arg15_eq (V : Valuation τ sig (Elt F)) :
    StableHlo.after Run.ops V (main_arg15 : DevRef τ sig) = V (main_arg15 : DevRef τ sig) := keep V (by decide)

end Cert.ReferenceIdeal.Args

end
-- ==== Proof.RefValue.lean ====
/-
  The reference term read at an index, at the extended reals: it is the edge decoder of the specification.

  Bottom-up: each layout operation of the term read at coordinates (a slice of one row, a reshape that drops or adds a
  unit axis, a broadcast of a vector down the rows or of a scalar everywhere, a concatenation of two pieces); the index
  column the gather takes is the specification's column of wrapped words, so the gathered rows are the specification's;
  a product with one contracted axis is the plain sum over that axis, and over the 256 concatenated columns the sum
  splits into the source row against the upper half of the matrix and the target row against the lower half; the
  printed ELU and logistic bodies are the specification's functions at each element. Only commutativity and
  associativity of addition on the extended reals are used.
-/
import proofs.«406386_j24481313587756_2_alg».proof.Proof.RefTerm
import proofs.«406386_j24481313587756_2_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

open scoped BigOperators

namespace Cert.ReferenceIdeal.Value

open Idealize.ShloMosaic Idealize.ShloMosaic.ValueIdx Cert.ReferenceIdeal Cert.ReferenceIdeal.Term Cert.ReferenceIdeal.Facts₀

/-! ## Layout operations of the term read at coordinates -/

section Layout
variable {α : Type}

/-- A vector broadcast to a one-column matrix reads, in row e, the vector's entry e. -/
theorem bcastCol_apply (w : S300000.Idx → α) (h : S300000.BroadcastsInDim S300000x1 ![0]) (e : Fin 300000) (u : Fin 1) :
    broadcastInDim S300000x1 ![0] h w (ix2 e u) = w (ix1 e) :=
  broadcastInDim_apply _ _ _ _ _ (fun a => by match a with | ⟨0, _⟩ => rfl)

/-- A vector broadcast to a one-row matrix reads, in column e, the vector's entry e. -/
theorem bcastRow_apply (v : S300000.Idx → α) (h : S300000.BroadcastsInDim S1x300000 ![1]) (u : Fin 1) (e : Fin 300000) :
    broadcastInDim S1x300000 ![1] h v (ix2 u e) = v (ix1 e) :=
  broadcastInDim_apply _ _ _ _ _ (fun a => by match a with | ⟨0, _⟩ => rfl)

/-- A one-column matrix read as a vector: entry e is the matrix's entry (e, 0). -/
theorem castCol_apply (x : S300000x1.Idx → α) (h : S300000x1.ShapeCasts S300000) (e : Fin 300000) :
    shapeCast S300000 x h (ix1 e) = x (ix2 e (0 : Fin 1)) :=
  shapeCast_apply x h _ _ (by
    rw [Shape.rowMajor_val_two, Shape.rowMajor_val_one]
    show e.val * 1 + 0 = e.val
    omega)

/-- Row `o` of a two-row array, sliced out and read as a vector: entry e is the array's entry (o, e). -/
theorem refWord_apply (ei : IVec S2x300000 32) (o : Nat) (h : S2x300000.Slices ![o, 0] S1x300000) (r : Fin 2)
    (hr : r.val = o) (e : Fin 300000) : refWord ei ![o, 0] h (ix1 e) = ei (ix2 r e) :=
  (shapeCast_1a_a_apply _ _ e).trans (slice2_axis0_apply o ei h (0 : Fin 1) e r (by rw [hr]; rfl))

end Layout

/-! ## The index column, and the gathered rows -/

/-- The wrapped word at an entry is the specification's wrapped word of that entry. -/
theorem refWrap_apply (w : IVec S300000 32) (i : S300000.Idx) : refWrap w i = Cert.Spec.wrapWord (w i) := rfl

/-- The column of row numbers the gather takes is the specification's column for that row of the edge index array. -/
theorem refCol_eq (ei : IVec S2x300000 32) (o : Nat) (h : S2x300000.Slices ![o, 0] S1x300000) (r : Fin 2) (hr : r.val = o) :
    refCol (refWrap (refWord ei ![o, 0] h)) = Cert.Spec.rowIdx ei r := by
  funext p
  obtain ⟨e, u, rfl⟩ : ∃ (e : Fin 300000) (u : Fin 1), p = ix2 e u := ⟨p 0, p 1, eq_ix2 p⟩
  show broadcastInDim S300000x1 ![0] bcast_S300000_S300000x1_0 (refWrap (refWord ei ![o, 0] h)) (ix2 e u) = Cert.Spec.wrapWord (ei (ix2 r e))
  rw [bcastCol_apply, refWrap_apply, refWord_apply ei o h r hr e]

/-- The gathered rows are the specification's: the same dimension numbers, the same column of row numbers. -/
theorem refRows_eq (tbl : FVec Ideal S100000x128 .f32) (ei : IVec S2x300000 32) (o : Nat)
    (h : S2x300000.Slices ![o, 0] S1x300000) (r : Fin 2) (hr : r.val = o) :
    refRows tbl ei ![o, 0] h = Cert.Spec.takeRows tbl ei r := by
  unfold refRows Cert.Spec.takeRows
  rw [refCol_eq ei o h r hr]
  rfl

/-! ## Two arrays side by side, and the biases -/

/-- Among the first 128 of the 256 concatenated columns the entry is the first array's. -/
theorem refCat_left (a b : FVec Ideal S300000x128 .f32) (e : Fin 300000) (k : Fin 128) :
    refCat a b (ix2 e (⟨k.val, Nat.lt_trans k.isLt (by decide)⟩ : Fin 256)) = a (ix2 e k) :=
  concatenate_pair_apply_left (1 : Fin S300000x256.rank) a b concatenates_S300000x128_S300000x128_S300000x256_d1 _ rfl (ix2 e k)
    (fun c => by match c with | ⟨0, _⟩ => rfl | ⟨1, _⟩ => rfl)

/-- Among the last 128 of the 256 concatenated columns the entry is the second array's, 128 columns back. -/
theorem refCat_right (a b : FVec Ideal S300000x128 .f32) (e : Fin 300000) (k : Fin 128) :
    refCat a b (ix2 e (⟨128 + k.val, by have := k.isLt; omega⟩ : Fin 256)) = b (ix2 e k) :=
  concatenate_pair_apply_right (1 : Fin S300000x256.rank) a b concatenates_S300000x128_S300000x128_S300000x256_d1 _ rfl rfl (ix2 e k)
    (fun c => by
      match c with
      | ⟨0, _⟩ => exact fun _ => rfl
      | ⟨1, _⟩ => exact fun hne => absurd rfl hne)
    (Nat.add_comm _ _)

/-- A 128-vector broadcast over the rows reads, in column j, its entry j. -/
theorem refBias128_apply (b : FVec Ideal S128 .f32) (e : Fin 300000) (j : Fin 128) : refBias128 b (ix2 e j) = b (ix1 j) :=
  (broadcastInDim_apply _ _ _ (ix2 e j) (ix2 (0 : Fin 1) j) (fun a => by match a with | ⟨0, _⟩ => rfl | ⟨1, _⟩ => rfl)).trans
    (broadcastInDim_apply _ _ _ (ix2 (0 : Fin 1) j) (ix1 j) (fun a => by match a with | ⟨0, _⟩ => rfl))

/-- A 1-vector broadcast over the rows reads its one entry. -/
theorem refBias1_apply (b : FVec Ideal S1 .f32) (e : Fin 300000) (u : Fin 1) : refBias1 b (ix2 e u) = b (ix1 (0 : Fin 1)) :=
  (broadcastInDim_apply _ _ _ (ix2 e u) (ix2 (0 : Fin 1) (0 : Fin 1)) (fun a => by match a with | ⟨0, _⟩ => rfl | ⟨1, _⟩ => rfl)).trans
    (broadcastInDim_apply _ _ _ (ix2 (0 : Fin 1) (0 : Fin 1)) (ix1 (0 : Fin 1)) (fun a => by match a with | ⟨0, _⟩ => rfl))

/-! ## A product with one contracted axis is the plain sum over it

For each of the three printed dimension-number records: per operand axis the coordinate the operand index reads (an
axis that is kept reads the result index, the contracted axis reads the contraction index), then the product at a
result index as the sum over the contracted axis's coordinate. -/

section Dot256

theorem lhs256_0 (i : S300000x128.Idx) (q : dot_S300000x256_S256x128_S300000x128_1_0_0_1_n_n.contr.Idx) :
    (dot_S300000x256_S256x128_S300000x128_1_0_0_1_n_n.lhsIdx i q 0).val = (i 0).val := by
  unfold DotDims.lhsIdx
  rw [dif_neg (show ¬(0 : Fin S300000x256.rank) ∈ dot_S300000x256_S256x128_S300000x128_1_0_0_1_n_n.lhsBatch by decide),
    dif_pos (show (0 : Fin S300000x256.rank) ∈ dot_S300000x256_S256x128_S300000x128_1_0_0_1_n_n.lhsNonContracting by decide)]
  rfl

theorem lhs256_1 (i : S300000x128.Idx) (q : dot_S300000x256_S256x128_S300000x128_1_0_0_1_n_n.contr.Idx) :
    (dot_S300000x256_S256x128_S300000x128_1_0_0_1_n_n.lhsIdx i q 1).val = (q ⟨0, by decide⟩).val :=
  dot_S300000x256_S256x128_S300000x128_1_0_0_1_n_n.lhsIdx_val_of_single rfl i q

theorem rhs256_0 (i : S300000x128.Idx) (q : dot_S300000x256_S256x128_S300000x128_1_0_0_1_n_n.contr.Idx) :
    (dot_S300000x256_S256x128_S300000x128_1_0_0_1_n_n.rhsIdx i q 0).val = (q ⟨0, by decide⟩).val :=
  dot_S300000x256_S256x128_S300000x128_1_0_0_1_n_n.rhsIdx_val_of_single rfl i q

theorem rhs256_1 (i : S300000x128.Idx) (q : dot_S300000x256_S256x128_S300000x128_1_0_0_1_n_n.contr.Idx) :
    (dot_S300000x256_S256x128_S300000x128_1_0_0_1_n_n.rhsIdx i q 1).val = (i 1).val := by
  unfold DotDims.rhsIdx
  rw [dif_neg (show ¬(1 : Fin S256x128.rank) ∈ dot_S300000x256_S256x128_S300000x128_1_0_0_1_n_n.rhsBatch by decide),
    dif_pos (show (1 : Fin S256x128.rank) ∈ dot_S300000x256_S256x128_S300000x128_1_0_0_1_n_n.rhsNonContracting by decide)]
  rfl

/-- The [300000,256] by [256,128] product at (e, j): the sum over the 256 columns of row e against column j. -/
theorem dot256_apply (l : FVec Ideal S300000x256 .f32) (r : FVec Ideal S256x128 .f32) (e : Fin 300000) (j : Fin 128) :
    Host.dotGeneral (F := Ideal) dot_S300000x256_S256x128_S300000x128_1_0_0_1_n_n none l r (ix2 e j)
      = ∑ k : Fin 256, l (ix2 e k) * r (ix2 k j) := by
  simp only [Host.dotGeneral]
  rw [Ideal.dotGeneral_apply,
    ← Equiv.sum_comp (contrEquiv1 dot_S300000x256_S256x128_S300000x128_1_0_0_1_n_n 256 rfl rfl).symm]
  refine Finset.sum_congr rfl fun k _ => ?_
  have hk := contrEquiv1_symm_val dot_S300000x256_S256x128_S300000x128_1_0_0_1_n_n 256 rfl rfl k
  have el : dot_S300000x256_S256x128_S300000x128_1_0_0_1_n_n.lhsIdx (ix2 e j)
      ((contrEquiv1 dot_S300000x256_S256x128_S300000x128_1_0_0_1_n_n 256 rfl rfl).symm k) = ix2 e k :=
    funext fun a => Fin.ext (by
      match a with
      | ⟨0, _⟩ => exact lhs256_0 _ _
      | ⟨1, _⟩ => exact (lhs256_1 _ _).trans hk)
  have er : dot_S300000x256_S256x128_S300000x128_1_0_0_1_n_n.rhsIdx (ix2 e j)
      ((contrEquiv1 dot_S300000x256_S256x128_S300000x128_1_0_0_1_n_n 256 rfl rfl).symm k) = ix2 k j :=
    funext fun a => Fin.ext (by
      match a with
      | ⟨0, _⟩ => exact (rhs256_0 _ _).trans hk
      | ⟨1, _⟩ => exact rhs256_1 _ _)
  rw [el, er]

end Dot256

section Dot128

theorem lhs128_0 (i : S300000x128.Idx) (q : dot_S300000x128_S128x128_S300000x128_1_0_0_1_n_n.contr.Idx) :
    (dot_S300000x128_S128x128_S300000x128_1_0_0_1_n_n.lhsIdx i q 0).val = (i 0).val := by
  unfold DotDims.lhsIdx
  rw [dif_neg (show ¬(0 : Fin S300000x128.rank) ∈ dot_S300000x128_S128x128_S300000x128_1_0_0_1_n_n.lhsBatch by decide),
    dif_pos (show (0 : Fin S300000x128.rank) ∈ dot_S300000x128_S128x128_S300000x128_1_0_0_1_n_n.lhsNonContracting by decide)]
  rfl

theorem lhs128_1 (i : S300000x128.Idx) (q : dot_S300000x128_S128x128_S300000x128_1_0_0_1_n_n.contr.Idx) :
    (dot_S300000x128_S128x128_S300000x128_1_0_0_1_n_n.lhsIdx i q 1).val = (q ⟨0, by decide⟩).val :=
  dot_S300000x128_S128x128_S300000x128_1_0_0_1_n_n.lhsIdx_val_of_single rfl i q

theorem rhs128_0 (i : S300000x128.Idx) (q : dot_S300000x128_S128x128_S300000x128_1_0_0_1_n_n.contr.Idx) :
    (dot_S300000x128_S128x128_S300000x128_1_0_0_1_n_n.rhsIdx i q 0).val = (q ⟨0, by decide⟩).val :=
  dot_S300000x128_S128x128_S300000x128_1_0_0_1_n_n.rhsIdx_val_of_single rfl i q

theorem rhs128_1 (i : S300000x128.Idx) (q : dot_S300000x128_S128x128_S300000x128_1_0_0_1_n_n.contr.Idx) :
    (dot_S300000x128_S128x128_S300000x128_1_0_0_1_n_n.rhsIdx i q 1).val = (i 1).val := by
  unfold DotDims.rhsIdx
  rw [dif_neg (show ¬(1 : Fin S128x128.rank) ∈ dot_S300000x128_S128x128_S300000x128_1_0_0_1_n_n.rhsBatch by decide),
    dif_pos (show (1 : Fin S128x128.rank) ∈ dot_S300000x128_S128x128_S300000x128_1_0_0_1_n_n.rhsNonContracting by decide)]
  rfl

/-- The [300000,128] by [128,128] product at (e, k): the sum over the 128 columns of row e against column k. -/
theorem dot128_apply (l : FVec Ideal S300000x128 .f32) (r : FVec Ideal S128x128 .f32) (e : Fin 300000) (k : Fin 128) :
    Host.dotGeneral (F := Ideal) dot_S300000x128_S128x128_S300000x128_1_0_0_1_n_n none l r (ix2 e k)
      = ∑ j : Fin 128, l (ix2 e j) * r (ix2 j k) := by
  simp only [Host.dotGeneral]
  rw [Ideal.dotGeneral_apply,
    ← Equiv.sum_comp (contrEquiv1 dot_S300000x128_S128x128_S300000x128_1_0_0_1_n_n 128 rfl rfl).symm]
  refine Finset.sum_congr rfl fun j _ => ?_
  have hj := contrEquiv1_symm_val dot_S300000x128_S128x128_S300000x128_1_0_0_1_n_n 128 rfl rfl j
  have el : dot_S300000x128_S128x128_S300000x128_1_0_0_1_n_n.lhsIdx (ix2 e k)
      ((contrEquiv1 dot_S300000x128_S128x128_S300000x128_1_0_0_1_n_n 128 rfl rfl).symm j) = ix2 e j :=
    funext fun a => Fin.ext (by
      match a with
      | ⟨0, _⟩ => exact lhs128_0 _ _
      | ⟨1, _⟩ => exact (lhs128_1 _ _).trans hj)
  have er : dot_S300000x128_S128x128_S300000x128_1_0_0_1_n_n.rhsIdx (ix2 e k)
      ((contrEquiv1 dot_S300000x128_S128x128_S300000x128_1_0_0_1_n_n 128 rfl rfl).symm j) = ix2 j k :=
    funext fun a => Fin.ext (by
      match a with
      | ⟨0, _⟩ => exact (rhs128_0 _ _).trans hj
      | ⟨1, _⟩ => exact rhs128_1 _ _)
  rw [el, er]

end Dot128

section Dot128x1

theorem lhs1_0 (i : S300000x1.Idx) (q : dot_S300000x128_S128x1_S300000x1_1_0_0_1_n_n.contr.Idx) :
    (dot_S300000x128_S128x1_S300000x1_1_0_0_1_n_n.lhsIdx i q 0).val = (i 0).val := by
  unfold DotDims.lhsIdx
  rw [dif_neg (show ¬(0 : Fin S300000x128.rank) ∈ dot_S300000x128_S128x1_S300000x1_1_0_0_1_n_n.lhsBatch by decide),
    dif_pos (show (0 : Fin S300000x128.rank) ∈ dot_S300000x128_S128x1_S300000x1_1_0_0_1_n_n.lhsNonContracting by decide)]
  rfl

theorem lhs1_1 (i : S300000x1.Idx) (q : dot_S300000x128_S128x1_S300000x1_1_0_0_1_n_n.contr.Idx) :
    (dot_S300000x128_S128x1_S300000x1_1_0_0_1_n_n.lhsIdx i q 1).val = (q ⟨0, by decide⟩).val :=
  dot_S300000x128_S128x1_S300000x1_1_0_0_1_n_n.lhsIdx_val_of_single rfl i q

theorem rhs1_0 (i : S300000x1.Idx) (q : dot_S300000x128_S128x1_S300000x1_1_0_0_1_n_n.contr.Idx) :
    (dot_S300000x128_S128x1_S300000x1_1_0_0_1_n_n.rhsIdx i q 0).val = (q ⟨0, by decide⟩).val :=
  dot_S300000x128_S128x1_S300000x1_1_0_0_1_n_n.rhsIdx_val_of_single rfl i q

theorem rhs1_1 (i : S300000x1.Idx) (q : dot_S300000x128_S128x1_S300000x1_1_0_0_1_n_n.contr.Idx) :
    (dot_S300000x128_S128x1_S300000x1_1_0_0_1_n_n.rhsIdx i q 1).val = (i 1).val := by
  unfold DotDims.rhsIdx
  rw [dif_neg (show ¬(1 : Fin S128x1.rank) ∈ dot_S300000x128_S128x1_S300000x1_1_0_0_1_n_n.rhsBatch by decide),
    dif_pos (show (1 : Fin S128x1.rank) ∈ dot_S300000x128_S128x1_S300000x1_1_0_0_1_n_n.rhsNonContracting by decide)]
  rfl

/-- The [300000,128] by [128,1] product at (e, u): the sum over the 128 columns of row e against the one column. -/
theorem dot1_apply (l : FVec Ideal S300000x128 .f32) (r : FVec Ideal S128x1 .f32) (e : Fin 300000) (u : Fin 1) :
    Host.dotGeneral (F := Ideal) dot_S300000x128_S128x1_S300000x1_1_0_0_1_n_n none l r (ix2 e u)
      = ∑ k : Fin 128, l (ix2 e k) * r (ix2 k u) := by
  simp only [Host.dotGeneral]
  rw [Ideal.dotGeneral_apply,
    ← Equiv.sum_comp (contrEquiv1 dot_S300000x128_S128x1_S300000x1_1_0_0_1_n_n 128 rfl rfl).symm]
  refine Finset.sum_congr rfl fun k _ => ?_
  have hk := contrEquiv1_symm_val dot_S300000x128_S128x1_S300000x1_1_0_0_1_n_n 128 rfl rfl k
  have el : dot_S300000x128_S128x1_S300000x1_1_0_0_1_n_n.lhsIdx (ix2 e u)
      ((contrEquiv1 dot_S300000x128_S128x1_S300000x1_1_0_0_1_n_n 128 rfl rfl).symm k) = ix2 e k :=
    funext fun a => Fin.ext (by
      match a with
      | ⟨0, _⟩ => exact lhs1_0 _ _
      | ⟨1, _⟩ => exact (lhs1_1 _ _).trans hk)
  have er : dot_S300000x128_S128x1_S300000x1_1_0_0_1_n_n.rhsIdx (ix2 e u)
      ((contrEquiv1 dot_S300000x128_S128x1_S300000x1_1_0_0_1_n_n 128 rfl rfl).symm k) = ix2 k u :=
    funext fun a => Fin.ext (by
      match a with
      | ⟨0, _⟩ => exact (rhs1_0 _ _).trans hk
      | ⟨1, _⟩ => exact rhs1_1 _ _)
  rw [el, er]

end Dot128x1

/-! ## The printed ELU and logistic bodies at an element -/

/-- The printed @elu body at an element, its operations read through: both compare bits are the same bit. -/
theorem refElu_unfold (x : FVec Ideal S300000x128 .f32) (i : S300000x128.Idx) :
    refElu x i
      = Scalar.select (Ideal.cmp .ogt (x i) (Ideal.ofBits .f32 0x00000000#32)) (x i)
          (Ideal.ofBits .f32 0x3F800000#32
            * (Ideal.exp (Scalar.select (Ideal.cmp .ogt (x i) (Ideal.ofBits .f32 0x00000000#32))
                (Ideal.ofBits .f32 0x00000000#32) (x i)) - 1)) := rfl

/-- The printed @elu body is the specification's ELU: where 0 < x both select x; elsewhere the inner select keeps x and
    the product with the word of 1 is e^x - 1. -/
theorem refElu_apply (x : FVec Ideal S300000x128 .f32) (i : S300000x128.Idx) : refElu x i = Cert.Spec.elu (x i) := by
  rw [refElu_unfold, Ideal.ofBits_zero_f32, Ideal.ofBits_one_f32]
  unfold Cert.Spec.elu
  rcases BitVec.eq_zero_or_eq_one (Ideal.cmp .ogt (x i) 0) with h | h
  · rw [h, select_zero, select_zero, select_zero, one_mul]
  · rw [h, select_one, select_one]

/-- The printed logistic of a one-column array, read as a vector, is the specification's logistic of the column's entry. -/
theorem refSigm_apply (z : FVec Ideal S300000x1 .f32) (e : Fin 300000) :
    refSigm z (ix1 e) = Cert.Spec.sigm (z (ix2 e (0 : Fin 1))) := by
  unfold refSigm
  rw [castCol_apply]
  show Ideal.div (Ideal.ofBits .f32 0x3F800000#32) (Ideal.ofBits .f32 0x3F800000#32 + Ideal.exp (-(z (ix2 e (0 : Fin 1))))) = _
  rw [Ideal.ofBits_one_f32]
  rfl

/-! ## The three layers at an edge, over the layer below given entry by entry -/

/-- First layer at unit j: the sum over the 256 concatenated columns splits into the source row against the upper half of
    the matrix and the target row against the lower half. -/
theorem layer0_apply (src dst : FVec Ideal S100000x128 .f32) (ei : IVec S2x300000 32) (W : FVec Ideal S256x128 .f32)
    (b : FVec Ideal S128 .f32) (e : Fin 300000) (j : Fin 128) :
    refElu
        (addf
          (Host.dotGeneral dot_S300000x256_S256x128_S300000x128_1_0_0_1_n_n none
            (refCat (refRows src ei ![0, 0] slices_S2x300000_S1x300000_0_0) (refRows dst ei ![1, 0] slices_S2x300000_S1x300000_1_0))
            W)
          (refBias128 b))
        (ix2 e j)
      = Cert.Spec.hidden0 (fun i => Cert.Spec.takeRows src ei 0 (ix2 e i)) (fun i => Cert.Spec.takeRows dst ei 1 (ix2 e i))
          (Cert.Spec.upper W) (Cert.Spec.lower W) b j := by
  rw [refElu_apply, addf_apply, dot256_apply, refBias128_apply, Cert.Spec.sum_split]
  unfold Cert.Spec.hidden0
  refine congrArg Cert.Spec.elu (congrArg (· + b (ix1 j)) (congrArg₂ (· + ·) ?_ ?_))
  · exact Finset.sum_congr rfl fun i _ => by
      rw [refCat_left, refRows_eq src ei 0 _ 0 rfl]; rfl
  · exact Finset.sum_congr rfl fun i _ => by
      rw [refCat_right, refRows_eq dst ei 1 _ 1 rfl]; rfl

/-- Second layer at unit k, over a first layer whose row e is `h0`. -/
theorem layer1_apply (H0 : FVec Ideal S300000x128 .f32) (h0 : Fin 128 → EReal) (W1 : FVec Ideal S128x128 .f32)
    (b1 : FVec Ideal S128 .f32) (e : Fin 300000) (hH : ∀ j, H0 (ix2 e j) = h0 j) (k : Fin 128) :
    refElu (addf (Host.dotGeneral dot_S300000x128_S128x128_S300000x128_1_0_0_1_n_n none H0 W1) (refBias128 b1)) (ix2 e k)
      = Cert.Spec.hidden1 h0 W1 b1 k := by
  rw [refElu_apply, addf_apply, dot128_apply, refBias128_apply]
  unfold Cert.Spec.hidden1
  exact congrArg Cert.Spec.elu (congrArg (· + b1 (ix1 k)) (Finset.sum_congr rfl fun j _ => by rw [hH j]))

/-- The output unit before the logistic, over a second layer whose row e is `h1`. -/
theorem layer2_apply (H1 : FVec Ideal S300000x128 .f32) (h1 : Fin 128 → EReal) (W2 : FVec Ideal S128x1 .f32)
    (b2 : FVec Ideal S1 .f32) (e : Fin 300000) (hH : ∀ k, H1 (ix2 e k) = h1 k) :
    addf (Host.dotGeneral dot_S300000x128_S128x1_S300000x1_1_0_0_1_n_n none H1 W2) (refBias1 b2) (ix2 e (0 : Fin 1))
      = Cert.Spec.logit h1 W2 b2 := by
  rw [addf_apply, dot1_apply, refBias1_apply]
  unfold Cert.Spec.logit
  exact congrArg (· + b2 (ix1 (0 : Fin 1))) (Finset.sum_congr rfl fun k _ => by rw [hH k])

/-! ## One edge type, and the two rows of the result -/

/-- One edge type's term at edge e is the specification's branch at e. -/
theorem refBranch_apply (src dst : FVec Ideal S100000x128 .f32) (ei : IVec S2x300000 32) (W : FVec Ideal S256x128 .f32)
    (b : FVec Ideal S128 .f32) (W1 : FVec Ideal S128x128 .f32) (b1 : FVec Ideal S128 .f32) (W2 : FVec Ideal S128x1 .f32)
    (b2 : FVec Ideal S1 .f32) (e : Fin 300000) :
    refBranch src dst ei W b W1 b1 W2 b2 (ix1 e) = Cert.Spec.branch src dst ei W b W1 b1 W2 b2 e := by
  unfold refBranch
  rw [refSigm_apply]
  unfold Cert.Spec.branch Cert.Spec.edgeScore
  exact congrArg Cert.Spec.sigm
    (layer2_apply _ _ W2 b2 e fun k => layer1_apply _ _ W1 b1 e (fun j => layer0_apply src dst ei W b e j) k)

/-- THE REFERENCE TERM AT AN INDEX: row 0 is the first edge type's branch, row 1 the second's; the concatenation along
    axis 0 of two one-row arrays picks the row, and each row is its vector. -/
theorem refTerm_apply (a0 a1 : FVec Ideal S100000x128 .f32) (a2 a3 : IVec S2x300000 32)
    (a4 : FVec Ideal S256x128 .f32) (a5 : FVec Ideal S128 .f32) (a6 : FVec Ideal S128x128 .f32) (a7 : FVec Ideal S128 .f32)
    (a8 : FVec Ideal S128x1 .f32) (a9 : FVec Ideal S1 .f32)
    (a10 : FVec Ideal S256x128 .f32) (a11 : FVec Ideal S128 .f32) (a12 : FVec Ideal S128x128 .f32) (a13 : FVec Ideal S128 .f32)
    (a14 : FVec Ideal S128x1 .f32) (a15 : FVec Ideal S1 .f32) (r : Fin 2) (e : Fin 300000) :
    Term.refTerm (F := Ideal) a0 a1 a2 a3 a4 a5 a6 a7 a8 a9 a10 a11 a12 a13 a14 a15 (ix2 r e)
      = Cert.Spec.result a0 a1 a2 a3 a4 a5 a6 a7 a8 a9 a10 a11 a12 a13 a14 a15 (ix2 r e) := by
  unfold refTerm
  match r with
  | ⟨0, _⟩ =>
    refine (concatenate_pair_apply_left (0 : Fin S2x300000.rank) _ _ concatenates_S1x300000_S1x300000_S2x300000_d0 _ rfl
      (ix2 (0 : Fin 1) e) (fun c => by match c with | ⟨0, _⟩ => rfl | ⟨1, _⟩ => rfl)).trans ?_
    rw [bcastRow_apply, refBranch_apply]
    rfl
  | ⟨1, _⟩ =>
    refine (concatenate_pair_apply_right (0 : Fin S2x300000.rank) _ _ concatenates_S1x300000_S1x300000_S2x300000_d0 _ rfl rfl
      (ix2 (0 : Fin 1) e)
      (fun c => by
        match c with
        | ⟨0, _⟩ => exact fun hne => absurd rfl hne
        | ⟨1, _⟩ => exact fun _ => rfl)
      rfl).trans ?_
    rw [bcastRow_apply, refBranch_apply]
    rfl

end Cert.ReferenceIdeal.Value

end
-- ==== Proof.lean ====
/-
  The edge decoder kernel against its jnp reference, over the extended reals.

  The kernel gathers the endpoint rows on the host (filling a row whose index word is outside the table), pads the
  edges to a multiple of 6400 and runs, per edge type, one launch of 47 grid points whose body is the three-layer
  decoder on a block of 6400 edges, the bilinear layer as two half products; the reference concatenates the two
  endpoint rows and does the same three layers on whole arrays. Under the precondition every index word is in range,
  so the fill never applies; then both programs compute Cert.Spec.result of the arguments: the kernel by
  Cert.KernelIdeal.Result.W21_result (the launches' outputs column by column, the host's slices and pads read at
  an index), the reference by Cert.ReferenceIdeal.Value.refTerm_apply (its operations read at an index, the sum
  over the 256 concatenated columns split in two). No finiteness is used: only that + on the extended reals is
  commutative and associative with 0 neutral, and 1 * x = x.
-/
import proofs.«406386_j24481313587756_2_alg».proof.Defs
import proofs.«406386_j24481313587756_2_alg».proof.Proof.Gen.Kernel
import proofs.«406386_j24481313587756_2_alg».proof.Proof.Gen.Kernel.Frame
import proofs.«406386_j24481313587756_2_alg».proof.Proof.Gen.KernelIdeal
import proofs.«406386_j24481313587756_2_alg».proof.Proof.Gen.KernelIdeal.Frame
import proofs.«406386_j24481313587756_2_alg».proof.Proof.Gen.ReferenceIdeal
import proofs.«406386_j24481313587756_2_alg».proof.Proof.Gen.Pre_finite_inputs
import proofs.«406386_j24481313587756_2_alg».proof.Proof.Spec
import proofs.«406386_j24481313587756_2_alg».proof.Proof.Pre
import proofs.«406386_j24481313587756_2_alg».proof.Proof.KRun
import proofs.«406386_j24481313587756_2_alg».proof.Proof.KValue
import proofs.«406386_j24481313587756_2_alg».proof.Proof.RefRun
import proofs.«406386_j24481313587756_2_alg».proof.Proof.RefOut
import proofs.«406386_j24481313587756_2_alg».proof.Proof.RefArgs
import proofs.«406386_j24481313587756_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's run with its result named: every buffer ends at the fold of the operations over the launch
    memory; at the result buffer that fold is the reference's term, which index by index is the decoder's result. -/
theorem ref_result (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v82)
          = Cert.Spec.result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)) := by
  refine (θ_run _ _ _).mono (fun r h c => ⟨?_, (h c Cert.ReferenceIdeal.main_arg0).trans (Cert.ReferenceIdeal.Args.arg0_eq _), (h c Cert.ReferenceIdeal.main_arg1).trans (Cert.ReferenceIdeal.Args.arg1_eq _), (h c Cert.ReferenceIdeal.main_arg2).trans (Cert.ReferenceIdeal.Args.arg2_eq _), (h c Cert.ReferenceIdeal.main_arg3).trans (Cert.ReferenceIdeal.Args.arg3_eq _), (h c Cert.ReferenceIdeal.main_arg4).trans (Cert.ReferenceIdeal.Args.arg4_eq _), (h c Cert.ReferenceIdeal.main_arg5).trans (Cert.ReferenceIdeal.Args.arg5_eq _), (h c Cert.ReferenceIdeal.main_arg6).trans (Cert.ReferenceIdeal.Args.arg6_eq _), (h c Cert.ReferenceIdeal.main_arg7).trans (Cert.ReferenceIdeal.Args.arg7_eq _), (h c Cert.ReferenceIdeal.main_arg8).trans (Cert.ReferenceIdeal.Args.arg8_eq _), (h c Cert.ReferenceIdeal.main_arg9).trans (Cert.ReferenceIdeal.Args.arg9_eq _), (h c Cert.ReferenceIdeal.main_arg10).trans (Cert.ReferenceIdeal.Args.arg10_eq _), (h c Cert.ReferenceIdeal.main_arg11).trans (Cert.ReferenceIdeal.Args.arg11_eq _), (h c Cert.ReferenceIdeal.main_arg12).trans (Cert.ReferenceIdeal.Args.arg12_eq _), (h c Cert.ReferenceIdeal.main_arg13).trans (Cert.ReferenceIdeal.Args.arg13_eq _), (h c Cert.ReferenceIdeal.main_arg14).trans (Cert.ReferenceIdeal.Args.arg14_eq _), (h c Cert.ReferenceIdeal.main_arg15).trans (Cert.ReferenceIdeal.Args.arg15_eq _)⟩)
    (Cert.ReferenceIdeal.Run.run_main (F := Ideal) m ρ)
  refine ((h c Cert.ReferenceIdeal.main_v82).trans (Cert.ReferenceIdeal.Out.out_eq _)).trans (funext fun j => ?_)
  obtain ⟨r', e, rfl⟩ : ∃ (r' : Fin 2) (e : Fin 300000), j = ix2 r' e := ⟨j 0, j 1, eq_ix2 j⟩
  exact Cert.ReferenceIdeal.Value.refTerm_apply _ _ _ _ _ _ _ _ _ _ _ _ _ _ _ _ r' e

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run (Cert.ReferenceIdeal.defs (F := Ideal)) _ _).mono (fun _ h c => (h c).2) (ref_result m ρ)

/-- With every index word in range both programs end with the decoder's result of arguments that agree. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · refine (θ_run (Cert.KernelIdeal.defs (F := Ideal)) _ _).mono (fun r h c => ?_) (Cert.KernelIdeal.Gen.run_result (F := Ideal) m ρ)
    obtain ⟨h2, h3⟩ := Cert.Proof.PreDecode.inRange_of_pre m hpre c
    exact ⟨(h c).1.trans (Cert.KernelIdeal.Result.W21_result m ρ c h2 h3), (h c).2⟩
  · refine (θ_run (Cert.ReferenceIdeal.defs (F := Ideal)) _ _).mono (fun r h c => ⟨?_, (h c).2⟩) (ref_result m' ρ')
    obtain ⟨e0, e1, e2, e3, e4, e5, e6, e7, e8, e9, e10, e11, e12, e13, e14, e15⟩ := hagree c
    rw [(h c).1, e0, e1, e2, e3, e4, e5, e6, e7, e8, e9, e10, e11, e12, e13, e14, e15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
